-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10000x128 : Shape := ⟨2, ![10000, 128]⟩
abbrev S1000000x2 : Shape := ⟨2, ![1000000, 2]⟩
abbrev S1000000 : Shape := ⟨1, ![1000000]⟩
abbrev S200000 : Shape := ⟨1, ![200000]⟩
abbrev S50000 : Shape := ⟨1, ![50000]⟩
abbrev S384x384 : Shape := ⟨2, ![384, 384]⟩
abbrev S384 : Shape := ⟨1, ![384]⟩
abbrev S128x512 : Shape := ⟨2, ![128, 512]⟩
abbrev S128 : Shape := ⟨1, ![128]⟩
abbrev S128x128 : Shape := ⟨2, ![128, 128]⟩
abbrev S1x128 : Shape := ⟨2, ![1, 128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S1000000x2 : S_.BroadcastsInDim S1000000x2 (![] : Fin 0 → Fin S1000000x2.rank)
  reducesTo_S1000000x2_S_d0_1 : S1000000x2.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128x256 : S_.BroadcastsInDim S128x256 (![] : Fin 0 → Fin S128x256.rank)
  reducesTo_S128x256_S_d0_1 : S128x256.ReducesTo [0, 1] S_
  bcast_S_S50000 : S_.BroadcastsInDim S50000 (![] : Fin 0 → Fin S50000.rank)
  reducesTo_S50000_S_d0 : S50000.ReducesTo [0] S_

variable [Facts]

def fn_part7 {F : FTy → Type} [FloatOps F] (main_v115 : IVec S_ 1) (main_v117 : IVec S50000 1) (main_c_47 : IVec S_ 1) : IVec S_ 1 :=
  let main_v118 : IVec S_ 1 := (fun x v => Host.reduce IntOp.andi x v reducesTo_S50000_S_d0 h_S_) main_v117 main_c_47
  let main_v119 : IVec S_ 1 := andi main_v115 main_v118
  main_v119

def fn_part6 {F : FTy → Type} [FloatOps F] (main_arg7 : IVec S50000 32) (main_arg8 : IVec S50000 32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_c_40 : IVec S_ 32 := constantI S_ 32 0#32
  let main_v104 : IVec S50000 32 := broadcastInDim S50000 ![] bcast_S_S50000 main_c_40
  let main_v105 : IVec S50000 1 := cmpi .sge main_arg7 main_v104
  let main_c_41 : IVec S_ 1 := constantI S_ 1 1#1
  let main_v106 : IVec S_ 1 := (fun x v => Host.reduce IntOp.andi x v reducesTo_S50000_S_d0 h_S_) main_v105 main_c_41
  let main_v107 : IVec S_ 1 := andi main_v103 main_v106
  let main_c_42 : IVec S_ 32 := constantI S_ 32 100000#32
  let main_v108 : IVec S50000 32 := broadcastInDim S50000 ![] bcast_S_S50000 main_c_42
  let main_v109 : IVec S50000 1 := cmpi .slt main_arg7 main_v108
  let main_c_43 : IVec S_ 1 := constantI S_ 1 1#1
  let main_v110 : IVec S_ 1 := (fun x v => Host.reduce IntOp.andi x v reducesTo_S50000_S_d0 h_S_) main_v109 main_c_43
  let main_v111 : IVec S_ 1 := andi main_v107 main_v110
  let main_c_44 : IVec S_ 32 := constantI S_ 32 0#32
  let main_v112 : IVec S50000 32 := broadcastInDim S50000 ![] bcast_S_S50000 main_c_44
  let main_v113 : IVec S50000 1 := cmpi .sge main_arg8 main_v112
  let main_c_45 : IVec S_ 1 := constantI S_ 1 1#1
  let main_v114 : IVec S_ 1 := (fun x v => Host.reduce IntOp.andi x v reducesTo_S50000_S_d0 h_S_) main_v113 main_c_45
  let main_v115 : IVec S_ 1 := andi main_v111 main_v114
  let main_c_46 : IVec S_ 32 := constantI S_ 32 5000#32
  let main_v116 : IVec S50000 32 := broadcastInDim S50000 ![] bcast_S_S50000 main_c_46
  let main_v117 : IVec S50000 1 := cmpi .slt main_arg8 main_v116
  let main_c_47 : IVec S_ 1 := constantI S_ 1 1#1
  fn_part7 (F := F) main_v115 main_v117 main_c_47

def fn_part5 {F : FTy → Type} [FloatOps F] (main_arg7 : IVec S50000 32) (main_arg8 : IVec S50000 32) (main_arg25 : FVec F S128x128 .f32) (main_arg26 : FVec F S128 .f32) (main_arg27 : FVec F S128x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg25
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg26
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg27
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg7 main_arg8 main_v98 main_v101 main_c_39

def fn_part4 {F : FTy → Type} [FloatOps F] (main_arg7 : IVec S50000 32) (main_arg8 : IVec S50000 32) (main_arg21 : FVec F S128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) (main_v63 : IVec S_ 1) (main_v67 : IVec S_ 1) : IVec S_ 1 :=
  let main_v68 : IVec S_ 1 := andi main_v63 main_v67
  let main_v69 : FVec F S128 .f32 := Host.absf main_arg21
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg22
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg23
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg24
  let main_cst_32 : FVec F S_ .f32 := constant S_ .f32 0x7F800000#32
  fn_part5 (F := F) main_arg7 main_arg8 main_arg25 main_arg26 main_arg27 main_v83 main_v84 main_cst_32

def fn_part3 {F : FTy → Type} [FloatOps F] (main_arg7 : IVec S50000 32) (main_arg8 : IVec S50000 32) (main_arg18 : FVec F S128 .f32) (main_arg19 : FVec F S1x128 .f32) (main_arg20 : FVec F S128x256 .f32) (main_arg21 : FVec F S128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg18
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1x128 .f32 := Host.absf main_arg19
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S128x256 .f32 := Host.absf main_arg20
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg7 main_arg8 main_arg21 main_arg22 main_arg23 main_arg24 main_arg25 main_arg26 main_arg27 main_v63 main_v67

def fn_part2 {F : FTy → Type} [FloatOps F] (main_arg7 : IVec S50000 32) (main_arg8 : IVec S50000 32) (main_arg14 : FVec F S384 .f32) (main_arg15 : FVec F S128x512 .f32) (main_arg16 : FVec F S128 .f32) (main_arg17 : FVec F S128x128 .f32) (main_arg18 : FVec F S128 .f32) (main_arg19 : FVec F S1x128 .f32) (main_arg20 : FVec F S128x256 .f32) (main_arg21 : FVec F S128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) (main_v33 : IVec S_ 1) : IVec S_ 1 :=
  let main_v34 : FVec F S384 .f32 := Host.absf main_arg14
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x512 .f32 := Host.absf main_arg15
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S128 .f32 := Host.absf main_arg16
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg17
  let main_cst_18 : FVec F S_ .f32 := constant S_ .f32 0x7F800000#32
  let main_v50 : FVec F S128x128 .f32 := broadcastInDim S128x128 ![] bcast_S_S128x128 main_cst_18
  fn_part3 (F := F) main_arg7 main_arg8 main_arg18 main_arg19 main_arg20 main_arg21 main_arg22 main_arg23 main_arg24 main_arg25 main_arg26 main_arg27 main_v48 main_v49 main_v50

def fn_part1 {F : FTy → Type} [FloatOps F] (main_arg7 : IVec S50000 32) (main_arg8 : IVec S50000 32) (main_arg11 : FVec F S384x384 .f32) (main_arg12 : FVec F S384 .f32) (main_arg13 : FVec F S384 .f32) (main_arg14 : FVec F S384 .f32) (main_arg15 : FVec F S128x512 .f32) (main_arg16 : FVec F S128 .f32) (main_arg17 : FVec F S128x128 .f32) (main_arg18 : FVec F S128 .f32) (main_arg19 : FVec F S1x128 .f32) (main_arg20 : FVec F S128x256 .f32) (main_arg21 : FVec F S128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384x384 .f32 := Host.absf main_arg11
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg12
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg13
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x128 .f32) (main_arg1 : FVec F S10000x128 .f32) (main_arg2 : FVec F S1000000x2 .f32) (main_arg3 : IVec S1000000 32) (main_arg4 : IVec S200000 32) (main_arg5 : IVec S200000 32) (main_arg6 : IVec S200000 32) (main_arg7 : IVec S50000 32) (main_arg8 : IVec S50000 32) (main_arg9 : IVec S50000 32) (main_arg10 : FVec F S384x384 .f32) (main_arg11 : FVec F S384x384 .f32) (main_arg12 : FVec F S384 .f32) (main_arg13 : FVec F S384 .f32) (main_arg14 : FVec F S384 .f32) (main_arg15 : FVec F S128x512 .f32) (main_arg16 : FVec F S128 .f32) (main_arg17 : FVec F S128x128 .f32) (main_arg18 : FVec F S128 .f32) (main_arg19 : FVec F S1x128 .f32) (main_arg20 : FVec F S128x256 .f32) (main_arg21 : FVec F S128 .f32) (main_arg22 : FVec F S128x128 .f32) (main_arg23 : FVec F S128 .f32) (main_arg24 : FVec F S128x128 .f32) (main_arg25 : FVec F S128x128 .f32) (main_arg26 : FVec F S128 .f32) (main_arg27 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S1000000x2 .f32 := Host.absf main_arg2
  let main_cst_2 : FVec F S_ .f32 := constant S_ .f32 0x7F800000#32
  let main_v10 : FVec F S1000000x2 .f32 := broadcastInDim S1000000x2 ![] bcast_S_S1000000x2 main_cst_2
  let main_v11 : IVec S1000000x2 1 := cmpf .olt main_v9 main_v10
  let main_c_3 : IVec S_ 1 := constantI S_ 1 1#1
  let main_v12 : IVec S_ 1 := (fun x v => Host.reduce IntOp.andi x v reducesTo_S1000000x2_S_d0_1 h_S_) main_v11 main_c_3
  let main_v13 : IVec S_ 1 := andi main_v8 main_v12
  let main_v14 : FVec F S384x384 .f32 := Host.absf main_arg10
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg7 main_arg8 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x128 : Shape := ⟨2, ![100000, 128]⟩
abbrev S10000x128 : Shape := ⟨2, ![10000, 128]⟩
abbrev S1000000x2 : Shape := ⟨2, ![1000000, 2]⟩
abbrev S1000000 : Shape := ⟨1, ![1000000]⟩
abbrev S200000 : Shape := ⟨1, ![200000]⟩
abbrev S50000 : Shape := ⟨1, ![50000]⟩
abbrev S384x384 : Shape := ⟨2, ![384, 384]⟩
abbrev S384 : Shape := ⟨1, ![384]⟩
abbrev S128x512 : Shape := ⟨2, ![128, 512]⟩
abbrev S128 : Shape := ⟨1, ![128]⟩
abbrev S128x128 : Shape := ⟨2, ![128, 128]⟩
abbrev S1x128 : Shape := ⟨2, ![1, 128]⟩
abbrev S128x256 : Shape := ⟨2, ![128, 256]⟩
abbrev S_ : Shape := ⟨0, ![]⟩
abbrev S50000x1 : Shape := ⟨2, ![50000, 1]⟩
abbrev S50000x2 : Shape := ⟨2, ![50000, 2]⟩
abbrev S50000x128 : Shape := ⟨2, ![50000, 128]⟩
abbrev S1x256 : Shape := ⟨2, ![1, 256]⟩
abbrev S256x128 : Shape := ⟨2, ![256, 128]⟩
abbrev S1x384 : Shape := ⟨2, ![1, 384]⟩
abbrev S128x384 : Shape := ⟨2, ![128, 384]⟩
abbrev S384x128 : Shape := ⟨2, ![384, 128]⟩
abbrev S2000x2 : Shape := ⟨2, ![2000, 2]⟩
abbrev S2000x128 : Shape := ⟨2, ![2000, 128]⟩
abbrev S2000x1 : Shape := ⟨2, ![2000, 1]⟩
abbrev S2000x256 : Shape := ⟨2, ![2000, 256]⟩
abbrev S2000x384 : Shape := ⟨2, ![2000, 384]⟩
abbrev S2000 : Shape := ⟨1, ![2000]⟩
abbrev S5000x128 : Shape := ⟨2, ![5000, 128]⟩
abbrev S55000x128 : Shape := ⟨2, ![55000, 128]⟩
abbrev S5000 : Shape := ⟨1, ![5000]⟩
abbrev S5000x1 : Shape := ⟨2, ![5000, 1]⟩

abbrev nBuf : Space → Nat
  | .hbm => 158
  | .vmem => 29
  | .smem => 0
  | _ => 0

abbrev hbmTy0_0 (i : Nat) : BufTy := match i % 128 with
  | 0 => ⟨S100000x128, .f32⟩
  | 1 => ⟨S10000x128, .f32⟩
  | 2 => ⟨S1000000x2, .f32⟩
  | 3 => ⟨S1000000, .i32⟩
  | 4 => ⟨S200000, .i32⟩
  | 5 => ⟨S200000, .i32⟩
  | 6 => ⟨S200000, .i32⟩
  | 7 => ⟨S50000, .i32⟩
  | 8 => ⟨S50000, .i32⟩
  | 9 => ⟨S50000, .i32⟩
  | 10 => ⟨S384x384, .f32⟩
  | 11 => ⟨S384x384, .f32⟩
  | 12 => ⟨S384, .f32⟩
  | 13 => ⟨S384, .f32⟩
  | 14 => ⟨S384, .f32⟩
  | 15 => ⟨S128x512, .f32⟩
  | 16 => ⟨S128, .f32⟩
  | 17 => ⟨S128x128, .f32⟩
  | 18 => ⟨S128, .f32⟩
  | 19 => ⟨S1x128, .f32⟩
  | 20 => ⟨S128x256, .f32⟩
  | 21 => ⟨S128, .f32⟩
  | 22 => ⟨S128x128, .f32⟩
  | 23 => ⟨S128, .f32⟩
  | 24 => ⟨S128x128, .f32⟩
  | 25 => ⟨S128x128, .f32⟩
  | 26 => ⟨S128, .f32⟩
  | 27 => ⟨S128x128, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x2, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000, .i32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000x128, .f32⟩
  | 55 => ⟨S_, .i32⟩
  | 56 => ⟨S50000, .i32⟩
  | 57 => ⟨S50000, .i1⟩
  | 58 => ⟨S_, .i32⟩
  | 59 => ⟨S50000, .i32⟩
  | 60 => ⟨S50000, .i32⟩
  | 61 => ⟨S50000, .i32⟩
  | 62 => ⟨S50000x1, .i32⟩
  | 63 => ⟨S50000x128, .f32⟩
  | 64 => ⟨S50000x128, .bf16⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S50000x128, .f32⟩
  | 74 => ⟨S_, .f32⟩
  | 75 => ⟨S1x256, .f32⟩
  | 76 => ⟨S256x128, .f32⟩
  | 77 => ⟨S1x128, .f32⟩
  | 78 => ⟨S1x128, .f32⟩
  | 79 => ⟨S1x128, .f32⟩
  | 80 => ⟨S256x128, .f32⟩
  | 81 => ⟨S1x128, .f32⟩
  | 82 => ⟨S384x384, .f32⟩
  | 83 => ⟨S384x384, .f32⟩
  | 84 => ⟨S1x384, .f32⟩
  | 85 => ⟨S1x384, .f32⟩
  | 86 => ⟨S1x384, .f32⟩
  | 87 => ⟨S128x384, .f32⟩
  | 88 => ⟨S384x128, .f32⟩
  | 89 => ⟨S50000x128, .f32⟩
  | 90 => ⟨S_, .f32⟩
  | 91 => ⟨S5000x128, .f32⟩
  | 92 => ⟨S50000x1, .i32⟩
  | 93 => ⟨S5000x128, .f32⟩
  | 94 => ⟨S128x128, .f32⟩
  | 95 => ⟨S128x128, .f32⟩
  | 96 => ⟨S1x128, .f32⟩
  | 97 => ⟨S128x128, .f32⟩
  | 98 => ⟨S1x128, .f32⟩
  | 99 => ⟨S_, .i32⟩
  | 100 => ⟨S50000, .i32⟩
  | 101 => ⟨S50000, .i32⟩
  | 102 => ⟨S_, .i32⟩
  | 103 => ⟨S50000, .i32⟩
  | 104 => ⟨S50000, .i1⟩
  | 105 => ⟨S50000, .f32⟩
  | 106 => ⟨S50000x1, .f32⟩
  | 107 => ⟨S_, .i32⟩
  | 108 => ⟨S50000, .i32⟩
  | 109 => ⟨S50000, .i1⟩
  | 110 => ⟨S_, .i32⟩
  | 111 => ⟨S50000, .i32⟩
  | 112 => ⟨S50000, .i32⟩
  | 113 => ⟨S50000, .i32⟩
  | 114 => ⟨S50000x1, .i32⟩
  | 115 => ⟨S50000x128, .f32⟩
  | 116 => ⟨S50000x128, .f32⟩
  | 117 => ⟨S50000x128, .f32⟩
  | 118 => ⟨S5000x128, .f32⟩
  | 119 => ⟨S55000x128, .f32⟩
  | 120 => ⟨S55000x128, .f32⟩
  | 121 => ⟨S55000x128, .f32⟩
  | 122 => ⟨S5000x128, .f32⟩
  | 123 => ⟨S50000x128, .f32⟩
  | 124 => ⟨S_, .f32⟩
  | 125 => ⟨S5000x128, .f32⟩
  | 126 => ⟨S50000x1, .i32⟩
  | 127 => ⟨S5000x128, .f32⟩
  | _ => ⟨S100000x128, .f32⟩

abbrev hbmTy0_1 (i : Nat) : BufTy := match i % 128 with
  | 0 => ⟨S_, .f32⟩
  | 1 => ⟨S50000, .f32⟩
  | 2 => ⟨S_, .f32⟩
  | 3 => ⟨S5000, .f32⟩
  | 4 => ⟨S50000x1, .i32⟩
  | 5 => ⟨S5000, .f32⟩
  | 6 => ⟨S_, .f32⟩
  | 7 => ⟨S5000, .f32⟩
  | 8 => ⟨S5000, .f32⟩
  | 9 => ⟨S5000x1, .f32⟩
  | 10 => ⟨S5000x128, .f32⟩
  | 11 => ⟨S5000x128, .f32⟩
  | 12 => ⟨S128x128, .f32⟩
  | 13 => ⟨S5000x128, .f32⟩
  | 14 => ⟨S1x128, .f32⟩
  | 15 => ⟨S5000x128, .f32⟩
  | 16 => ⟨S5000x128, .f32⟩
  | 17 => ⟨S128x128, .f32⟩
  | 18 => ⟨S5000x128, .f32⟩
  | 19 => ⟨S5000x128, .f32⟩
  | 20 => ⟨S5000x128, .f32⟩
  | 21 => ⟨S_, .f32⟩
  | 22 => ⟨S5000, .f32⟩
  | 23 => ⟨S5000x1, .f32⟩
  | 24 => ⟨S5000x1, .f32⟩
  | 25 => ⟨S_, .f32⟩
  | 26 => ⟨S5000x1, .f32⟩
  | 27 => ⟨S5000x1, .f32⟩
  | 28 => ⟨S5000x128, .f32⟩
  | 29 => ⟨S5000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x2, .f32⟩
  | .local _ .vmem, ⟨1, _⟩ => ⟨S2000x2, .f32⟩
  | .local _ .vmem, ⟨2, _⟩ => ⟨S2000x128, .f32⟩
  | .local _ .vmem, ⟨3, _⟩ => ⟨S2000x128, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S384x384, .f32⟩
  | .local _ .vmem, ⟨13, _⟩ => ⟨S1x384, .f32⟩
  | .local _ .vmem, ⟨14, _⟩ => ⟨S1x384, .f32⟩
  | .local _ .vmem, ⟨15, _⟩ => ⟨S1x384, .f32⟩
  | .local _ .vmem, ⟨16, _⟩ => ⟨S384x128, .f32⟩
  | .local _ .vmem, ⟨17, _⟩ => ⟨S2000x128, .f32⟩
  | .local _ .vmem, ⟨18, _⟩ => ⟨S2000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c_1 : Ref sig .tc := ⟨.hbm, 37, rfl⟩
abbrev main_v7 : Ref sig .tc := ⟨.hbm, 38, rfl⟩
abbrev main_v8 : Ref sig .tc := ⟨.hbm, 39, rfl⟩
abbrev main_c_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_3 : Ref sig .tc := ⟨.hbm, 46, rfl⟩
abbrev main_v14 : Ref sig .tc := ⟨.hbm, 47, rfl⟩
abbrev main_v15 : Ref sig .tc := ⟨.hbm, 48, rfl⟩
abbrev main_c_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_5 : Ref sig .tc := ⟨.hbm, 55, rfl⟩
abbrev main_v21 : Ref sig .tc := ⟨.hbm, 56, rfl⟩
abbrev main_v22 : Ref sig .tc := ⟨.hbm, 57, rfl⟩
abbrev main_c_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_c_7 : Ref sig .tc := ⟨.hbm, 65, rfl⟩
abbrev main_v29 : Ref sig .tc := ⟨.hbm, 66, rfl⟩
abbrev main_v30 : Ref sig .tc := ⟨.hbm, 67, rfl⟩
abbrev main_c_8 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_10 : Ref sig .tc := ⟨.hbm, 99, rfl⟩
abbrev main_v59 : Ref sig .tc := ⟨.hbm, 100, rfl⟩
abbrev main_v60 : Ref sig .tc := ⟨.hbm, 101, rfl⟩
abbrev main_c_11 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_12 : Ref sig .tc := ⟨.hbm, 107, rfl⟩
abbrev main_v65 : Ref sig .tc := ⟨.hbm, 108, rfl⟩
abbrev main_v66 : Ref sig .tc := ⟨.hbm, 109, rfl⟩
abbrev main_c_13 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_14 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_15 : Ref sig .tc := ⟨.hbm, 128, rfl⟩
abbrev main_v83 : Ref sig .tc := ⟨.hbm, 129, rfl⟩
abbrev main_cst_16 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_17 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_18 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_19 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bitsLt_bf16_f32 : FTy.bits .bf16 < FTy.bits .f32
  bcast_S_S1x256 : S_.BroadcastsInDim S1x256 (![] : Fin 0 → Fin S1x256.rank)
  transposes_S128x256_S256x128_1_0 : S128x256.Transposes [1, 0] S256x128
  bcast_S128_S1x128_1 : S128.BroadcastsInDim S1x128 (![1] : Fin 1 → Fin S1x128.rank)
  shapeCasts_S128_S1x128 : S128.ShapeCasts S1x128
  transposes_S384x384_S384x384_1_0 : S384x384.Transposes [1, 0] S384x384
  shapeCasts_S384_S1x384 : S384.ShapeCasts S1x384
  slices_S128x512_S128x384_0_128 : S128x512.Slices ![0, 128] S128x384
  transposes_S128x384_S384x128_1_0 : S128x384.Transposes [1, 0] S384x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  inb_S1x128_S1x128_0_0 : ∀ a, (![0, 0] : Fin 2 → Nat) a + S1x128.size a ≤ S1x128.size a
  h_S1x128 : 0 < S1x128.numel
  broadcasts_S2000x1_S2000x128 : S2000x1.Broadcasts S2000x128
  broadcasts_S1x128_S2000x128 : S1x128.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x128_S2000x384_d1 : Shape.Concatenates [S2000x128, S2000x128, S2000x128] S2000x384 1
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  reduces_S2000x384_S2000 : S2000x384.Reduces [1] S2000
  shapeCasts_S2000_S2000x1 : S2000.ShapeCasts S2000x1
  broadcasts_S2000x1_S2000x384 : S2000x1.Broadcasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  bcast_S_S5000x128 : S_.BroadcastsInDim S5000x128 (![] : Fin 0 → Fin S5000x128.rank)
  slices_S128x512_S128x128_0_0 : S128x512.Slices ![0, 0] S128x128
  transposes_S128x128_S128x128_1_0 : S128x128.Transposes [1, 0] S128x128
  bcast_S50000x1_S50000x128_0_1 : S50000x1.BroadcastsInDim S50000x128 (![0, 1] : Fin 2 → Fin S50000x128.rank)
  slices_S100000x128_S5000x128_0_0 : S100000x128.Slices ![0, 0] S5000x128
  concatenates_S5000x128_S50000x128_S55000x128_d0 : Shape.Concatenates [S5000x128, S50000x128] S55000x128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S55000x128_S5000x128_0_0 : S55000x128.Slices ![0, 0] S5000x128
  slices_S55000x128_S50000x128_5000_0 : S55000x128.Slices ![5000, 0] S50000x128
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  reducesTo_S5000x128_S5000_d1 : S5000x128.ReducesTo [1] S5000
  h_S_ : 0 < S_.numel
  bcast_S_S5000x1 : S_.BroadcastsInDim S5000x1 (![] : Fin 0 → Fin S5000x1.rank)
  gather_S1000000x2_S50000x1_S50000x2_1_0_n_n_0_1_12_wf : GatherDims.WF S1000000x2 S50000x1 S50000x2 [1] [0] [] [0] [] 1 ![1, 2]
  gather_S1000000_S50000x1_S50000_n_0_n_n_0_1_1_wf : GatherDims.WF S1000000 S50000x1 S50000 [] [0] [] [0] [] 1 ![1]
  gather_S100000x128_S50000x1_S50000x128_1_0_n_n_0_1_1128_wf : GatherDims.WF S100000x128 S50000x1 S50000x128 [1] [0] [] [0] [] 1 ![1, 128]
  gather_S10000x128_S50000x1_S50000x128_1_0_n_n_0_1_1128_wf : GatherDims.WF S10000x128 S50000x1 S50000x128 [1] [0] [] [0] [] 1 ![1, 128]
  dot_S1x256_S256x128_S1x128_1_0_0_1_n_n_wf : DotDims.WF S1x256 S256x128 S1x128 [1] [0] [0] [1] [] []
  dot_S384x384_S384x384_S384x384_1_0_0_1_n_n_wf : DotDims.WF S384x384 S384x384 S384x384 [1] [0] [0] [1] [] []
  dot_S2000x256_S256x128_S2000x128_1_0_0_1_n_n_wf : DotDims.WF S2000x256 S256x128 S2000x128 [1] [0] [0] [1] [] []
  dot_S2000x384_S384x384_S2000x384_1_0_0_1_n_n_wf : DotDims.WF S2000x384 S384x384 S2000x384 [1] [0] [0] [1] [] []
  dot_S2000x384_S384x128_S2000x128_1_0_0_1_n_n_wf : DotDims.WF S2000x384 S384x128 S2000x128 [1] [0] [0] [1] [] []
  scatter_S5000x128_S50000x1_S50000x128_1_0_0_1_wf : ScatterDims.WF S5000x128 S50000x1 S50000x128 [1] [0] [0] 1
  gather_S5000x128_S50000x1_S50000x128_1_0_n_n_0_1_1128_wf : GatherDims.WF S5000x128 S50000x1 S50000x128 [1] [0] [] [0] [] 1 ![1, 128]
  dot_S5000x128_S128x128_S5000x128_1_0_0_1_n_n_wf : DotDims.WF S5000x128 S128x128 S5000x128 [1] [0] [0] [1] [] []
  scatter_S5000_S50000x1_S50000_n_0_0_1_wf : ScatterDims.WF S5000 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S50000x2.size a
  hwx0_0 : ∀ i : grid0.Coords, EltTy.bits .f32 = 32 ∨ (Rect.block (s := S50000x2) S2000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x384.size a ≤ S384x384.size a
  hwx0_8 : ∀ i : grid0.Coords, EltTy.bits .f32 = 32 ∨ (Rect.block (s := S384x384) S384x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x384.size a ≤ S1x384.size a
  hwx0_10 : ∀ i : grid0.Coords, EltTy.bits .f32 = 32 ∨ (Rect.block (s := S1x384) S1x384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x384.size a ≤ S1x384.size a
  hwx0_11 : ∀ i : grid0.Coords, EltTy.bits .f32 = 32 ∨ (Rect.block (s := S1x384) S1x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S384x128.size a ≤ S384x128.size a
  hwx0_12 : ∀ i : grid0.Coords, EltTy.bits .f32 = 32 ∨ (Rect.block (s := S384x128) S384x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S50000x128.size a
  hwx0_13 : ∀ i : grid0.Coords, EltTy.bits .f32 = 32 ∨ (Rect.block (s := S50000x128) S2000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S55000x128.size a
  hwx1_0 : ∀ i : grid1.Coords, EltTy.bits .f32 = 32 ∨ (Rect.block (s := S55000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S55000x128.size a
  hwx1_1 : ∀ i : grid1.Coords, EltTy.bits .f32 = 32 ∨ (Rect.block (s := S55000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S55000x128.size a
  hwx1_6 : ∀ i : grid1.Coords, EltTy.bits .f32 = 32 ∨ (Rect.block (s := S55000x128) S5000x128.size (cc1_transform_6 i) (hinb1_6 i)).WholeWords (EltTy.packing .f32)

variable [Facts₀]

def gather_S1000000x2_S50000x1_S50000x2_1_0_n_n_0_1_12 : GatherDims S1000000x2 S50000x1 S50000x2 where
  offsetDims := [1]
  collapsedSliceDims := [0]
  operandBatchingDims := []
  startIndicesBatchingDims := []
  startIndexMap := [0]
  indexVectorDim := 1
  sliceSizes := ![1, 2]
  wf := gather_S1000000x2_S50000x1_S50000x2_1_0_n_n_0_1_12_wf
def gather_S1000000_S50000x1_S50000_n_0_n_n_0_1_1 : GatherDims S1000000 S50000x1 S50000 where
  offsetDims := []
  collapsedSliceDims := [0]
  operandBatchingDims := []
  startIndicesBatchingDims := []
  startIndexMap := [0]
  indexVectorDim := 1
  sliceSizes := ![1]
  wf := gather_S1000000_S50000x1_S50000_n_0_n_n_0_1_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S10000x128_S50000x1_S50000x128_1_0_n_n_0_1_1128 : GatherDims S10000x128 S50000x1 S50000x128 where
  offsetDims := [1]
  collapsedSliceDims := [0]
  operandBatchingDims := []
  startIndicesBatchingDims := []
  startIndexMap := [0]
  indexVectorDim := 1
  sliceSizes := ![1, 128]
  wf := gather_S10000x128_S50000x1_S50000x128_1_0_n_n_0_1_1128_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S384x384_S384x384_S384x384_1_0_0_1_n_n : DotDims S384x384 S384x384 S384x384 where
  lhsContracting := [1]
  rhsContracting := [0]
  lhsNonContracting := [0]
  rhsNonContracting := [1]
  lhsBatch := []
  rhsBatch := []
  wf := dot_S384x384_S384x384_S384x384_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def scatter_S5000x128_S50000x1_S50000x128_1_0_0_1 : ScatterDims S5000x128 S50000x1 S50000x128 where
  updateWindowDims := [1]
  insertedWindowDims := [0]
  scatterDimsToOperandDims := [0]
  indexVectorDim := 1
  wf := scatter_S5000x128_S50000x1_S50000x128_1_0_0_1_wf
def gather_S5000x128_S50000x1_S50000x128_1_0_n_n_0_1_1128 : GatherDims S5000x128 S50000x1 S50000x128 where
  offsetDims := [1]
  collapsedSliceDims := [0]
  operandBatchingDims := []
  startIndicesBatchingDims := []
  startIndexMap := [0]
  indexVectorDim := 1
  sliceSizes := ![1, 128]
  wf := gather_S5000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S5000_S50000x1_S50000_n_0_0_1 : ScatterDims S5000 S50000x1 S50000 where
  updateWindowDims := []
  insertedWindowDims := [0]
  scatterDimsToOperandDims := [0]
  indexVectorDim := 1
  wf := scatter_S5000_S50000x1_S50000_n_0_0_1_wf

abbrev win0_0 : Pipeline.Window sig grid0 :=
  Pipeline.Window.ofSpec (Memref.whole main_v6) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S384x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S1x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v49) S384x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v50) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v75) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v77) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S10000x128 : Shape := ⟨2, ![10000, 128]⟩
abbrev S1000000x2 : Shape := ⟨2, ![1000000, 2]⟩
abbrev S1000000 : Shape := ⟨1, ![1000000]⟩
abbrev S200000 : Shape := ⟨1, ![200000]⟩
abbrev S50000 : Shape := ⟨1, ![50000]⟩
abbrev S384x384 : Shape := ⟨2, ![384, 384]⟩
abbrev S384 : Shape := ⟨1, ![384]⟩
abbrev S128x512 : Shape := ⟨2, ![128, 512]⟩
abbrev S128 : Shape := ⟨1, ![128]⟩
abbrev S128x128 : Shape := ⟨2, ![128, 128]⟩
abbrev S1x128 : Shape := ⟨2, ![1, 128]⟩
abbrev S128x256 : Shape := ⟨2, ![128, 256]⟩
abbrev S_ : Shape := ⟨0, ![]⟩
abbrev S200000x1 : Shape := ⟨2, ![200000, 1]⟩
abbrev S200000x2 : Shape := ⟨2, ![200000, 2]⟩
abbrev S200000x128 : Shape := ⟨2, ![200000, 128]⟩
abbrev S200000x256 : Shape := ⟨2, ![200000, 256]⟩
abbrev S256x128 : Shape := ⟨2, ![256, 128]⟩
abbrev S1x256 : Shape := ⟨2, ![1, 256]⟩
abbrev S200000x384 : Shape := ⟨2, ![200000, 384]⟩
abbrev S1x384 : Shape := ⟨2, ![1, 384]⟩
abbrev S100000x384 : Shape := ⟨2, ![100000, 384]⟩
abbrev S100000x512 : Shape := ⟨2, ![100000, 512]⟩
abbrev S512x128 : Shape := ⟨2, ![512, 128]⟩
abbrev S20000x128 : Shape := ⟨2, ![20000, 128]⟩
abbrev S20000 : Shape := ⟨1, ![20000]⟩
abbrev S20000x1 : Shape := ⟨2, ![20000, 1]⟩
abbrev S50000x1 : Shape := ⟨2, ![50000, 1]⟩
abbrev S50000x2 : Shape := ⟨2, ![50000, 2]⟩
abbrev S50000x128 : Shape := ⟨2, ![50000, 128]⟩
abbrev S50000x256 : Shape := ⟨2, ![50000, 256]⟩
abbrev S50000x384 : Shape := ⟨2, ![50000, 384]⟩
abbrev S5000x128 : Shape := ⟨2, ![5000, 128]⟩
abbrev S5000 : Shape := ⟨1, ![5000]⟩
abbrev S5000x1 : Shape := ⟨2, ![5000, 1]⟩

abbrev nBuf : Space → Nat
  | .hbm => 385
  | .vmem => 0
  | .smem => 0
  | _ => 0

abbrev hbmTy0_0 (i : Nat) : BufTy := match i % 128 with
  | 0 => ⟨S100000x128, .f32⟩
  | 1 => ⟨S10000x128, .f32⟩
  | 2 => ⟨S1000000x2, .f32⟩
  | 3 => ⟨S1000000, .i32⟩
  | 4 => ⟨S200000, .i32⟩
  | 5 => ⟨S200000, .i32⟩
  | 6 => ⟨S200000, .i32⟩
  | 7 => ⟨S50000, .i32⟩
  | 8 => ⟨S50000, .i32⟩
  | 9 => ⟨S50000, .i32⟩
  | 10 => ⟨S384x384, .f32⟩
  | 11 => ⟨S384x384, .f32⟩
  | 12 => ⟨S384, .f32⟩
  | 13 => ⟨S384, .f32⟩
  | 14 => ⟨S384, .f32⟩
  | 15 => ⟨S128x512, .f32⟩
  | 16 => ⟨S128, .f32⟩
  | 17 => ⟨S128x128, .f32⟩
  | 18 => ⟨S128, .f32⟩
  | 19 => ⟨S1x128, .f32⟩
  | 20 => ⟨S128x256, .f32⟩
  | 21 => ⟨S128, .f32⟩
  | 22 => ⟨S128x128, .f32⟩
  | 23 => ⟨S128, .f32⟩
  | 24 => ⟨S128x128, .f32⟩
  | 25 => ⟨S128x128, .f32⟩
  | 26 => ⟨S128, .f32⟩
  | 27 => ⟨S128x128, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x2, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000, .i32⟩
  | 46 => ⟨S200000x1, .f32⟩
  | 47 => ⟨S128, .f32⟩
  | 48 => ⟨S1x128, .f32⟩
  | 49 => ⟨S200000x128, .f32⟩
  | 50 => ⟨S200000x128, .f32⟩
  | 51 => ⟨S200000x128, .f32⟩
  | 52 => ⟨S200000x128, .f32⟩
  | 53 => ⟨S200000x1, .f32⟩
  | 54 => ⟨S128, .f32⟩
  | 55 => ⟨S1x128, .f32⟩
  | 56 => ⟨S200000x128, .f32⟩
  | 57 => ⟨S200000x128, .f32⟩
  | 58 => ⟨S200000x128, .f32⟩
  | 59 => ⟨S200000x128, .f32⟩
  | 60 => ⟨S200000x256, .f32⟩
  | 61 => ⟨S256x128, .f32⟩
  | 62 => ⟨S200000x128, .f32⟩
  | 63 => ⟨S1x128, .f32⟩
  | 64 => ⟨S200000x128, .f32⟩
  | 65 => ⟨S200000x128, .f32⟩
  | 66 => ⟨S_, .f32⟩
  | 67 => ⟨S1x256, .f32⟩
  | 68 => ⟨S256x128, .f32⟩
  | 69 => ⟨S1x128, .f32⟩
  | 70 => ⟨S1x128, .f32⟩
  | 71 => ⟨S1x128, .f32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x128, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x128, .f32⟩
  | 90 => ⟨S200000x128, .f32⟩
  | 91 => ⟨S200000x384, .f32⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S200000x128, .f32⟩
  | 101 => ⟨S200000x384, .f32⟩
  | 102 => ⟨S384x384, .f32⟩
  | 103 => ⟨S200000x384, .f32⟩
  | 104 => ⟨S384x384, .f32⟩
  | 105 => ⟨S200000x384, .f32⟩
  | 106 => ⟨S1x384, .f32⟩
  | 107 => ⟨S200000x384, .f32⟩
  | 108 => ⟨S200000x384, .f32⟩
  | 109 => ⟨S200000x384, .f32⟩
  | 110 => ⟨S_, .f32⟩
  | 111 => ⟨S200000, .f32⟩
  | 112 => ⟨S200000x1, .f32⟩
  | 113 => ⟨S_, .f32⟩
  | 114 => ⟨S200000x1, .f32⟩
  | 115 => ⟨S200000x1, .f32⟩
  | 116 => ⟨S200000x384, .f32⟩
  | 117 => ⟨S200000x384, .f32⟩
  | 118 => ⟨S200000x384, .f32⟩
  | 119 => ⟨S_, .f32⟩
  | 120 => ⟨S200000, .f32⟩
  | 121 => ⟨S200000x1, .f32⟩
  | 122 => ⟨S_, .f32⟩
  | 123 => ⟨S200000x1, .f32⟩
  | 124 => ⟨S200000x1, .f32⟩
  | 125 => ⟨S200000x384, .f32⟩
  | 126 => ⟨S200000x384, .f32⟩
  | 127 => ⟨S_, .f32⟩
  | _ => ⟨S100000x128, .f32⟩

abbrev hbmTy0_1 (i : Nat) : BufTy := match i % 128 with
  | 0 => ⟨S200000x1, .f32⟩
  | 1 => ⟨S200000x1, .f32⟩
  | 2 => ⟨S200000x1, .f32⟩
  | 3 => ⟨S200000x384, .f32⟩
  | 4 => ⟨S200000x384, .f32⟩
  | 5 => ⟨S1x384, .f32⟩
  | 6 => ⟨S200000x384, .f32⟩
  | 7 => ⟨S200000x384, .f32⟩
  | 8 => ⟨S1x384, .f32⟩
  | 9 => ⟨S200000x384, .f32⟩
  | 10 => ⟨S200000x384, .f32⟩
  | 11 => ⟨S_, .f32⟩
  | 12 => ⟨S100000x384, .f32⟩
  | 13 => ⟨S200000x1, .i32⟩
  | 14 => ⟨S100000x384, .f32⟩
  | 15 => ⟨S100000x512, .f32⟩
  | 16 => ⟨S512x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .i1⟩
  | 24 => ⟨S_, .f32⟩
  | 25 => ⟨S100000x128, .f32⟩
  | 26 => ⟨S100000x128, .f32⟩
  | 27 => ⟨S100000x128, .f32⟩
  | 28 => ⟨S128x128, .f32⟩
  | 29 => ⟨S100000x128, .f32⟩
  | 30 => ⟨S1x128, .f32⟩
  | 31 => ⟨S100000x128, .f32⟩
  | 32 => ⟨S100000x128, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x128, .f32⟩
  | 42 => ⟨S_, .f32⟩
  | 43 => ⟨S20000x128, .f32⟩
  | 44 => ⟨S200000x1, .i32⟩
  | 45 => ⟨S20000x128, .f32⟩
  | 46 => ⟨S_, .f32⟩
  | 47 => ⟨S200000, .f32⟩
  | 48 => ⟨S_, .f32⟩
  | 49 => ⟨S20000, .f32⟩
  | 50 => ⟨S200000x1, .i32⟩
  | 51 => ⟨S20000, .f32⟩
  | 52 => ⟨S_, .f32⟩
  | 53 => ⟨S20000, .f32⟩
  | 54 => ⟨S20000, .f32⟩
  | 55 => ⟨S20000x1, .f32⟩
  | 56 => ⟨S20000x128, .f32⟩
  | 57 => ⟨S20000x128, .f32⟩
  | 58 => ⟨S128x128, .f32⟩
  | 59 => ⟨S20000x128, .f32⟩
  | 60 => ⟨S1x128, .f32⟩
  | 61 => ⟨S20000x128, .f32⟩
  | 62 => ⟨S20000x128, .f32⟩
  | 63 => ⟨S20000x128, .f32⟩
  | 64 => ⟨S128x128, .f32⟩
  | 65 => ⟨S20000x128, .f32⟩
  | 66 => ⟨S20000x128, .f32⟩
  | 67 => ⟨S20000x128, .f32⟩
  | 68 => ⟨S_, .f32⟩
  | 69 => ⟨S20000, .f32⟩
  | 70 => ⟨S20000x1, .f32⟩
  | 71 => ⟨S20000x1, .f32⟩
  | 72 => ⟨S_, .f32⟩
  | 73 => ⟨S20000x1, .f32⟩
  | 74 => ⟨S20000x1, .f32⟩
  | 75 => ⟨S20000x128, .f32⟩
  | 76 => ⟨S20000x128, .f32⟩
  | 77 => ⟨S_, .f32⟩
  | 78 => ⟨S20000x128, .f32⟩
  | 79 => ⟨S20000x128, .f32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000x2, .f32⟩
  | 89 => ⟨S_, .i32⟩
  | 90 => ⟨S50000, .i32⟩
  | 91 => ⟨S50000, .i1⟩
  | 92 => ⟨S_, .i32⟩
  | 93 => ⟨S50000, .i32⟩
  | 94 => ⟨S50000, .i32⟩
  | 95 => ⟨S50000, .i32⟩
  | 96 => ⟨S50000x1, .i32⟩
  | 97 => ⟨S50000, .i32⟩
  | 98 => ⟨S50000x1, .f32⟩
  | 99 => ⟨S128, .f32⟩
  | 100 => ⟨S1x128, .f32⟩
  | 101 => ⟨S50000x128, .f32⟩
  | 102 => ⟨S50000x128, .f32⟩
  | 103 => ⟨S50000x128, .f32⟩
  | 104 => ⟨S50000x128, .f32⟩
  | 105 => ⟨S50000x1, .f32⟩
  | 106 => ⟨S128, .f32⟩
  | 107 => ⟨S1x128, .f32⟩
  | 108 => ⟨S50000x128, .f32⟩
  | 109 => ⟨S50000x128, .f32⟩
  | 110 => ⟨S50000x128, .f32⟩
  | 111 => ⟨S50000x128, .f32⟩
  | 112 => ⟨S50000x256, .f32⟩
  | 113 => ⟨S256x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S1x256, .f32⟩
  | 120 => ⟨S256x128, .f32⟩
  | 121 => ⟨S1x128, .f32⟩
  | 122 => ⟨S1x128, .f32⟩
  | 123 => ⟨S1x128, .f32⟩
  | 124 => ⟨S_, .i32⟩
  | 125 => ⟨S50000, .i32⟩
  | 126 => ⟨S50000, .i1⟩
  | 127 => ⟨S_, .i32⟩
  | _ => ⟨S100000x128, .f32⟩

abbrev hbmTy0_2 (i : Nat) : BufTy := match i % 128 with
  | 0 => ⟨S50000, .i32⟩
  | 1 => ⟨S50000, .i32⟩
  | 2 => ⟨S50000, .i32⟩
  | 3 => ⟨S50000x1, .i32⟩
  | 4 => ⟨S50000x128, .f32⟩
  | 5 => ⟨S_, .i32⟩
  | 6 => ⟨S50000, .i32⟩
  | 7 => ⟨S50000, .i1⟩
  | 8 => ⟨S_, .i32⟩
  | 9 => ⟨S50000, .i32⟩
  | 10 => ⟨S50000, .i32⟩
  | 11 => ⟨S50000, .i32⟩
  | 12 => ⟨S50000x1, .i32⟩
  | 13 => ⟨S50000x128, .f32⟩
  | 14 => ⟨S50000x128, .f32⟩
  | 15 => ⟨S50000x384, .f32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S50000x384, .f32⟩
  | 26 => ⟨S384x384, .f32⟩
  | 27 => ⟨S50000x384, .f32⟩
  | 28 => ⟨S384x384, .f32⟩
  | 29 => ⟨S50000x384, .f32⟩
  | 30 => ⟨S1x384, .f32⟩
  | 31 => ⟨S50000x384, .f32⟩
  | 32 => ⟨S50000x384, .f32⟩
  | 33 => ⟨S50000x384, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x384, .f32⟩
  | 41 => ⟨S50000x384, .f32⟩
  | 42 => ⟨S50000x384, .f32⟩
  | 43 => ⟨S_, .f32⟩
  | 44 => ⟨S50000, .f32⟩
  | 45 => ⟨S50000x1, .f32⟩
  | 46 => ⟨S_, .f32⟩
  | 47 => ⟨S50000x1, .f32⟩
  | 48 => ⟨S50000x1, .f32⟩
  | 49 => ⟨S50000x384, .f32⟩
  | 50 => ⟨S50000x384, .f32⟩
  | 51 => ⟨S_, .f32⟩
  | 52 => ⟨S50000x1, .f32⟩
  | 53 => ⟨S50000x1, .f32⟩
  | 54 => ⟨S50000x1, .f32⟩
  | 55 => ⟨S50000x384, .f32⟩
  | 56 => ⟨S50000x384, .f32⟩
  | 57 => ⟨S1x384, .f32⟩
  | 58 => ⟨S50000x384, .f32⟩
  | 59 => ⟨S50000x384, .f32⟩
  | 60 => ⟨S1x384, .f32⟩
  | 61 => ⟨S50000x384, .f32⟩
  | 62 => ⟨S50000x384, .f32⟩
  | 63 => ⟨S_, .f32⟩
  | 64 => ⟨S100000x384, .f32⟩
  | 65 => ⟨S50000x1, .i32⟩
  | 66 => ⟨S100000x384, .f32⟩
  | 67 => ⟨S100000x512, .f32⟩
  | 68 => ⟨S512x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .i1⟩
  | 76 => ⟨S_, .f32⟩
  | 77 => ⟨S100000x128, .f32⟩
  | 78 => ⟨S100000x128, .f32⟩
  | 79 => ⟨S100000x128, .f32⟩
  | 80 => ⟨S128x128, .f32⟩
  | 81 => ⟨S100000x128, .f32⟩
  | 82 => ⟨S1x128, .f32⟩
  | 83 => ⟨S100000x128, .f32⟩
  | 84 => ⟨S100000x128, .f32⟩
  | 85 => ⟨S_, .i32⟩
  | 86 => ⟨S50000, .i32⟩
  | 87 => ⟨S50000, .i1⟩
  | 88 => ⟨S_, .i32⟩
  | 89 => ⟨S50000, .i32⟩
  | 90 => ⟨S50000, .i32⟩
  | 91 => ⟨S50000, .i32⟩
  | 92 => ⟨S50000x1, .i32⟩
  | 93 => ⟨S50000x128, .f32⟩
  | 94 => ⟨S_, .f32⟩
  | 95 => ⟨S5000x128, .f32⟩
  | 96 => ⟨S50000x1, .i32⟩
  | 97 => ⟨S5000x128, .f32⟩
  | 98 => ⟨S_, .f32⟩
  | 99 => ⟨S50000, .f32⟩
  | 100 => ⟨S_, .f32⟩
  | 101 => ⟨S5000, .f32⟩
  | 102 => ⟨S50000x1, .i32⟩
  | 103 => ⟨S5000, .f32⟩
  | 104 => ⟨S_, .f32⟩
  | 105 => ⟨S5000, .f32⟩
  | 106 => ⟨S5000, .f32⟩
  | 107 => ⟨S5000x1, .f32⟩
  | 108 => ⟨S5000x128, .f32⟩
  | 109 => ⟨S5000x128, .f32⟩
  | 110 => ⟨S128x128, .f32⟩
  | 111 => ⟨S5000x128, .f32⟩
  | 112 => ⟨S1x128, .f32⟩
  | 113 => ⟨S5000x128, .f32⟩
  | 114 => ⟨S5000x128, .f32⟩
  | 115 => ⟨S5000x128, .f32⟩
  | 116 => ⟨S128x128, .f32⟩
  | 117 => ⟨S5000x128, .f32⟩
  | 118 => ⟨S5000x128, .f32⟩
  | 119 => ⟨S5000x128, .f32⟩
  | 120 => ⟨S_, .f32⟩
  | 121 => ⟨S5000, .f32⟩
  | 122 => ⟨S5000x1, .f32⟩
  | 123 => ⟨S5000x1, .f32⟩
  | 124 => ⟨S_, .f32⟩
  | 125 => ⟨S5000x1, .f32⟩
  | 126 => ⟨S5000x1, .f32⟩
  | 127 => ⟨S5000x128, .f32⟩
  | _ => ⟨S100000x128, .f32⟩

abbrev hbmTy0_3 (i : Nat) : BufTy := match i % 128 with
  | 0 => ⟨S5000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c_1 : Ref sig .tc := ⟨.hbm, 37, rfl⟩
abbrev main_v7 : Ref sig .tc := ⟨.hbm, 38, rfl⟩
abbrev main_v8 : Ref sig .tc := ⟨.hbm, 39, rfl⟩
abbrev main_c_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_3 : Ref sig .tc := ⟨.hbm, 72, rfl⟩
abbrev main_v39 : Ref sig .tc := ⟨.hbm, 73, rfl⟩
abbrev main_v40 : Ref sig .tc := ⟨.hbm, 74, rfl⟩
abbrev main_c_4 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_5 : Ref sig .tc := ⟨.hbm, 81, rfl⟩
abbrev main_v46 : Ref sig .tc := ⟨.hbm, 82, rfl⟩
abbrev main_v47 : Ref sig .tc := ⟨.hbm, 83, rfl⟩
abbrev main_c_6 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_7 : Ref sig .tc := ⟨.hbm, 92, rfl⟩
abbrev main_v55 : Ref sig .tc := ⟨.hbm, 93, rfl⟩
abbrev main_v56 : Ref sig .tc := ⟨.hbm, 94, rfl⟩
abbrev main_c_8 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_9 : Ref sig .tc := ⟨.hbm, 110, rfl⟩
abbrev main_v71 : Ref sig .tc := ⟨.hbm, 111, rfl⟩
abbrev main_v72 : Ref sig .tc := ⟨.hbm, 112, rfl⟩
abbrev main_cst_10 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_11 : Ref sig .tc := ⟨.hbm, 119, rfl⟩
abbrev main_v78 : Ref sig .tc := ⟨.hbm, 120, rfl⟩
abbrev main_v79 : Ref sig .tc := ⟨.hbm, 121, rfl⟩
abbrev main_cst_12 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_13 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_14 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_15 : Ref sig .tc := ⟨.hbm, 149, rfl⟩
abbrev main_v104 : Ref sig .tc := ⟨.hbm, 150, rfl⟩
abbrev main_v105 : Ref sig .tc := ⟨.hbm, 151, rfl⟩
abbrev main_cst_16 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_c_17 : Ref sig .tc := ⟨.hbm, 161, rfl⟩
abbrev main_v114 : Ref sig .tc := ⟨.hbm, 162, rfl⟩
abbrev main_v115 : Ref sig .tc := ⟨.hbm, 163, rfl⟩
abbrev main_c_18 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_19 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_20 : Ref sig .tc := ⟨.hbm, 174, rfl⟩
abbrev main_v124 : Ref sig .tc := ⟨.hbm, 175, rfl⟩
abbrev main_cst_21 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_22 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_23 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_24 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_call1_cst : Ref sig .tc := ⟨.hbm, 205, rfl⟩
abbrev main_call1_v0 : Ref sig .tc := ⟨.hbm, 206, rfl⟩
abbrev main_v150 : Ref sig .tc := ⟨.hbm, 207, rfl⟩
abbrev main_c_25 : Ref sig .tc := ⟨.hbm, 208, rfl⟩
abbrev main_v151 : Ref sig .tc := ⟨.hbm, 209, rfl⟩
abbrev main_v152 : Ref sig .tc := ⟨.hbm, 210, rfl⟩
abbrev main_c_26 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_c_27 : Ref sig .tc := ⟨.hbm, 217, rfl⟩
abbrev main_v158 : Ref sig .tc := ⟨.hbm, 218, rfl⟩
abbrev main_v159 : Ref sig .tc := ⟨.hbm, 219, rfl⟩
abbrev main_c_28 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_cst_29 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_c_30 : Ref sig .tc := ⟨.hbm, 252, rfl⟩
abbrev main_v190 : Ref sig .tc := ⟨.hbm, 253, rfl⟩
abbrev main_v191 : Ref sig .tc := ⟨.hbm, 254, rfl⟩
abbrev main_c_31 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_c_32 : Ref sig .tc := ⟨.hbm, 261, rfl⟩
abbrev main_v197 : Ref sig .tc := ⟨.hbm, 262, rfl⟩
abbrev main_v198 : Ref sig .tc := ⟨.hbm, 263, rfl⟩
abbrev main_c_33 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_c_34 : Ref sig .tc := ⟨.hbm, 272, rfl⟩
abbrev main_v206 : Ref sig .tc := ⟨.hbm, 273, rfl⟩
abbrev main_v207 : Ref sig .tc := ⟨.hbm, 274, rfl⟩
abbrev main_c_35 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_cst_36 : Ref sig .tc := ⟨.hbm, 290, rfl⟩
abbrev main_v222 : Ref sig .tc := ⟨.hbm, 291, rfl⟩
abbrev main_v223 : Ref sig .tc := ⟨.hbm, 292, rfl⟩
abbrev main_cst_37 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_cst_38 : Ref sig .tc := ⟨.hbm, 299, rfl⟩
abbrev main_v229 : Ref sig .tc := ⟨.hbm, 300, rfl⟩
abbrev main_v230 : Ref sig .tc := ⟨.hbm, 301, rfl⟩
abbrev main_cst_39 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_cst_40 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_cst_41 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_cst_42 : Ref sig .tc := ⟨.hbm, 329, rfl⟩
abbrev main_v255 : Ref sig .tc := ⟨.hbm, 330, rfl⟩
abbrev main_v256 : Ref sig .tc := ⟨.hbm, 331, rfl⟩
abbrev main_cst_43 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_c_44 : Ref sig .tc := ⟨.hbm, 341, rfl⟩
abbrev main_v265 : Ref sig .tc := ⟨.hbm, 342, rfl⟩
abbrev main_v266 : Ref sig .tc := ⟨.hbm, 343, rfl⟩
abbrev main_c_45 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_cst_46 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_cst_47 : Ref sig .tc := ⟨.hbm, 354, rfl⟩
abbrev main_v275 : Ref sig .tc := ⟨.hbm, 355, rfl⟩
abbrev main_cst_48 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_cst_49 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_cst_50 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_cst_51 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_0 : S200000x2.Slices ![0, 0] S200000x1
  shapeCasts_S1x128_S128 : S1x128.ShapeCasts S128
  bcast_S128_S1x128_1 : S128.BroadcastsInDim S1x128 (![1] : Fin 1 → Fin S1x128.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  slices_S200000x2_S200000x1_0_1 : S200000x2.Slices ![0, 1] S200000x1
  concatenates_S200000x128_S200000x128_S200000x256_d1 : Shape.Concatenates [S200000x128, S200000x128] S200000x256 1
  transposes_S128x256_S256x128_1_0 : S128x256.Transposes [1, 0] S256x128
  bcast_S_S1x256 : S_.BroadcastsInDim S1x256 (![] : Fin 0 → Fin S1x256.rank)
  concatenates_S200000x128_S200000x128_S200000x128_S200000x384_d1 : Shape.Concatenates [S200000x128, S200000x128, S200000x128] S200000x384 1
  transposes_S384x384_S384x384_1_0 : S384x384.Transposes [1, 0] S384x384
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  reducesTo_S200000x384_S200000_d1 : S200000x384.ReducesTo [1] S200000
  h_S_ : 0 < S_.numel
  bcast_S_S200000x1 : S_.BroadcastsInDim S200000x1 (![] : Fin 0 → Fin S200000x1.rank)
  bcast_S200000x1_S200000x384_0_1 : S200000x1.BroadcastsInDim S200000x384 (![0, 1] : Fin 2 → Fin S200000x384.rank)
  bcast_S_S100000x384 : S_.BroadcastsInDim S100000x384 (![] : Fin 0 → Fin S100000x384.rank)
  concatenates_S100000x128_S100000x384_S100000x512_d1 : Shape.Concatenates [S100000x128, S100000x384] S100000x512 1
  transposes_S128x512_S512x128_1_0 : S128x512.Transposes [1, 0] S512x128
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  slices_S100000x128_S20000x128_0_0 : S100000x128.Slices ![0, 0] S20000x128
  reducesTo_S20000x128_S20000_d1 : S20000x128.ReducesTo [1] S20000
  bcast_S_S20000x1 : S_.BroadcastsInDim S20000x1 (![] : Fin 0 → Fin S20000x1.rank)
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_0 : S50000x2.Slices ![0, 0] S50000x1
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S50000x2_S50000x1_0_1 : S50000x2.Slices ![0, 1] S50000x1
  concatenates_S50000x128_S50000x128_S50000x256_d1 : Shape.Concatenates [S50000x128, S50000x128] S50000x256 1
  concatenates_S50000x128_S50000x128_S50000x128_S50000x384_d1 : Shape.Concatenates [S50000x128, S50000x128, S50000x128] S50000x384 1
  bcast_S1x384_S50000x384_0_1 : S1x384.BroadcastsInDim S50000x384 (![0, 1] : Fin 2 → Fin S50000x384.rank)
  reducesTo_S50000x384_S50000_d1 : S50000x384.ReducesTo [1] S50000
  bcast_S_S50000x1 : S_.BroadcastsInDim S50000x1 (![] : Fin 0 → Fin S50000x1.rank)
  bcast_S50000x1_S50000x384_0_1 : S50000x1.BroadcastsInDim S50000x384 (![0, 1] : Fin 2 → Fin S50000x384.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  slices_S100000x128_S5000x128_0_0 : S100000x128.Slices ![0, 0] S5000x128
  reducesTo_S5000x128_S5000_d1 : S5000x128.ReducesTo [1] S5000
  bcast_S_S5000x1 : S_.BroadcastsInDim S5000x1 (![] : Fin 0 → Fin S5000x1.rank)
  gather_S1000000x2_S200000x1_S200000x2_1_0_n_n_0_1_12_wf : GatherDims.WF S1000000x2 S200000x1 S200000x2 [1] [0] [] [0] [] 1 ![1, 2]
  gather_S1000000_S200000x1_S200000_n_0_n_n_0_1_1_wf : GatherDims.WF S1000000 S200000x1 S200000 [] [0] [] [0] [] 1 ![1]
  dot_S200000x256_S256x128_S200000x128_1_0_0_1_n_n_wf : DotDims.WF S200000x256 S256x128 S200000x128 [1] [0] [0] [1] [] []
  dot_S1x256_S256x128_S1x128_1_0_0_1_n_n_wf : DotDims.WF S1x256 S256x128 S1x128 [1] [0] [0] [1] [] []
  gather_S10000x128_S200000x1_S200000x128_1_0_n_n_0_1_1128_wf : GatherDims.WF S10000x128 S200000x1 S200000x128 [1] [0] [] [0] [] 1 ![1, 128]
  gather_S100000x128_S200000x1_S200000x128_1_0_n_n_0_1_1128_wf : GatherDims.WF S100000x128 S200000x1 S200000x128 [1] [0] [] [0] [] 1 ![1, 128]
  dot_S200000x384_S384x384_S200000x384_1_0_0_1_n_n_wf : DotDims.WF S200000x384 S384x384 S200000x384 [1] [0] [0] [1] [] []
  scatter_S100000x384_S200000x1_S200000x384_1_0_0_1_wf : ScatterDims.WF S100000x384 S200000x1 S200000x384 [1] [0] [0] 1
  dot_S100000x512_S512x128_S100000x128_1_0_0_1_n_n_wf : DotDims.WF S100000x512 S512x128 S100000x128 [1] [0] [0] [1] [] []
  dot_S100000x128_S128x128_S100000x128_1_0_0_1_n_n_wf : DotDims.WF S100000x128 S128x128 S100000x128 [1] [0] [0] [1] [] []
  scatter_S20000x128_S200000x1_S200000x128_1_0_0_1_wf : ScatterDims.WF S20000x128 S200000x1 S200000x128 [1] [0] [0] 1
  scatter_S20000_S200000x1_S200000_n_0_0_1_wf : ScatterDims.WF S20000 S200000x1 S200000 [] [0] [0] 1
  dot_S20000x128_S128x128_S20000x128_1_0_0_1_n_n_wf : DotDims.WF S20000x128 S128x128 S20000x128 [1] [0] [0] [1] [] []
  gather_S1000000x2_S50000x1_S50000x2_1_0_n_n_0_1_12_wf : GatherDims.WF S1000000x2 S50000x1 S50000x2 [1] [0] [] [0] [] 1 ![1, 2]
  gather_S1000000_S50000x1_S50000_n_0_n_n_0_1_1_wf : GatherDims.WF S1000000 S50000x1 S50000 [] [0] [] [0] [] 1 ![1]
  dot_S50000x256_S256x128_S50000x128_1_0_0_1_n_n_wf : DotDims.WF S50000x256 S256x128 S50000x128 [1] [0] [0] [1] [] []
  gather_S10000x128_S50000x1_S50000x128_1_0_n_n_0_1_1128_wf : GatherDims.WF S10000x128 S50000x1 S50000x128 [1] [0] [] [0] [] 1 ![1, 128]
  gather_S100000x128_S50000x1_S50000x128_1_0_n_n_0_1_1128_wf : GatherDims.WF S100000x128 S50000x1 S50000x128 [1] [0] [] [0] [] 1 ![1, 128]
  dot_S50000x384_S384x384_S50000x384_1_0_0_1_n_n_wf : DotDims.WF S50000x384 S384x384 S50000x384 [1] [0] [0] [1] [] []
  scatter_S100000x384_S50000x1_S50000x384_1_0_0_1_wf : ScatterDims.WF S100000x384 S50000x1 S50000x384 [1] [0] [0] 1
  scatter_S5000x128_S50000x1_S50000x128_1_0_0_1_wf : ScatterDims.WF S5000x128 S50000x1 S50000x128 [1] [0] [0] 1
  scatter_S5000_S50000x1_S50000_n_0_0_1_wf : ScatterDims.WF S5000 S50000x1 S50000 [] [0] [0] 1
  dot_S5000x128_S128x128_S5000x128_1_0_0_1_n_n_wf : DotDims.WF S5000x128 S128x128 S5000x128 [1] [0] [0] [1] [] []

variable [Facts₀]

def gather_S1000000x2_S200000x1_S200000x2_1_0_n_n_0_1_12 : GatherDims S1000000x2 S200000x1 S200000x2 where
  offsetDims := [1]
  collapsedSliceDims := [0]
  operandBatchingDims := []
  startIndicesBatchingDims := []
  startIndexMap := [0]
  indexVectorDim := 1
  sliceSizes := ![1, 2]
  wf := gather_S1000000x2_S200000x1_S200000x2_1_0_n_n_0_1_12_wf
def gather_S1000000_S200000x1_S200000_n_0_n_n_0_1_1 : GatherDims S1000000 S200000x1 S200000 where
  offsetDims := []
  collapsedSliceDims := [0]
  operandBatchingDims := []
  startIndicesBatchingDims := []
  startIndexMap := [0]
  indexVectorDim := 1
  sliceSizes := ![1]
  wf := gather_S1000000_S200000x1_S200000_n_0_n_n_0_1_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x384_S384x384_S200000x384_1_0_0_1_n_n : DotDims S200000x384 S384x384 S200000x384 where
  lhsContracting := [1]
  rhsContracting := [0]
  lhsNonContracting := [0]
  rhsNonContracting := [1]
  lhsBatch := []
  rhsBatch := []
  wf := dot_S200000x384_S384x384_S200000x384_1_0_0_1_n_n_wf
def scatter_S100000x384_S200000x1_S200000x384_1_0_0_1 : ScatterDims S100000x384 S200000x1 S200000x384 where
  updateWindowDims := [1]
  insertedWindowDims := [0]
  scatterDimsToOperandDims := [0]
  indexVectorDim := 1
  wf := scatter_S100000x384_S200000x1_S200000x384_1_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S1000000x2_S50000x1_S50000x2_1_0_n_n_0_1_12 : GatherDims S1000000x2 S50000x1 S50000x2 where
  offsetDims := [1]
  collapsedSliceDims := [0]
  operandBatchingDims := []
  startIndicesBatchingDims := []
  startIndexMap := [0]
  indexVectorDim := 1
  sliceSizes := ![1, 2]
  wf := gather_S1000000x2_S50000x1_S50000x2_1_0_n_n_0_1_12_wf
def gather_S1000000_S50000x1_S50000_n_0_n_n_0_1_1 : GatherDims S1000000 S50000x1 S50000 where
  offsetDims := []
  collapsedSliceDims := [0]
  operandBatchingDims := []
  startIndicesBatchingDims := []
  startIndexMap := [0]
  indexVectorDim := 1
  sliceSizes := ![1]
  wf := gather_S1000000_S50000x1_S50000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S10000x128_S50000x1_S50000x128_1_0_n_n_0_1_1128 : GatherDims S10000x128 S50000x1 S50000x128 where
  offsetDims := [1]
  collapsedSliceDims := [0]
  operandBatchingDims := []
  startIndicesBatchingDims := []
  startIndexMap := [0]
  indexVectorDim := 1
  sliceSizes := ![1, 128]
  wf := gather_S10000x128_S50000x1_S50000x128_1_0_n_n_0_1_1128_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x384_S384x384_S50000x384_1_0_0_1_n_n : DotDims S50000x384 S384x384 S50000x384 where
  lhsContracting := [1]
  rhsContracting := [0]
  lhsNonContracting := [0]
  rhsNonContracting := [1]
  lhsBatch := []
  rhsBatch := []
  wf := dot_S50000x384_S384x384_S50000x384_1_0_0_1_n_n_wf
def scatter_S100000x384_S50000x1_S50000x384_1_0_0_1 : ScatterDims S100000x384 S50000x1 S50000x384 where
  updateWindowDims := [1]
  insertedWindowDims := [0]
  scatterDimsToOperandDims := [0]
  indexVectorDim := 1
  wf := scatter_S100000x384_S50000x1_S50000x384_1_0_0_1_wf
def scatter_S5000x128_S50000x1_S50000x128_1_0_0_1 : ScatterDims S5000x128 S50000x1 S50000x128 where
  updateWindowDims := [1]
  insertedWindowDims := [0]
  scatterDimsToOperandDims := [0]
  indexVectorDim := 1
  wf := scatter_S5000x128_S50000x1_S50000x128_1_0_0_1_wf
def scatter_S5000_S50000x1_S50000_n_0_0_1 : ScatterDims S5000 S50000x1 S50000 where
  updateWindowDims := []
  insertedWindowDims := [0]
  scatterDimsToOperandDims := [0]
  indexVectorDim := 1
  wf := scatter_S5000_S50000x1_S50000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

class Facts : Prop extends Facts₀ where

variable [Facts]
-- ==== Proof.RefRunC.lean ====
import proofs.«420412_j74302934220861_3_alg».proof.Proof.RefRunA
import proofs.«420412_j74302934220861_3_alg».proof.Proof.RefRunB
import Idealize.ShloMosaic.Lib.StableHlo.Run

/-!
# The second program's run: the windows joined

Each window of @main is the line of its chunks' operations; @main is the whole line of 357; no operation allocates
and each touches TensorCore references only; so every weakly fair execution terminates with each buffer at the
fold of the operations' results over its launch contents.
-/

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-! ## Each window of @main is the line of its operations -/

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl
set_option maxRecDepth 8192 in
set_option maxHeartbeats 4000000 in
theorem main_part3_eq (c : Dev nD) : main_part3 (F := F) c = seq (ops3a ++ ops3b) := rfl
set_option maxRecDepth 8192 in
set_option maxHeartbeats 4000000 in
theorem main_part4_eq (c : Dev nD) : main_part4 (F := F) c = seq (ops4a ++ (ops4b ++ (ops4c ++ ops4d))) := rfl
set_option maxRecDepth 8192 in
set_option maxHeartbeats 4000000 in
theorem main_part5_eq (c : Dev nD) : main_part5 (F := F) c = seq ops5 := rfl

/-! ## The whole line -/

/-- @main's 357 operations, in order: the chunks joined. -/
abbrev opsAll : List (HloOp τ sig (Elt F)) :=
  ops0 ++ (ops1 ++ (ops2 ++ ((ops3a ++ ops3b) ++ ((ops4a ++ (ops4b ++ (ops4c ++ ops4d))) ++ ops5))))

/-- @main runs its windows in order, so it is the whole line. -/
theorem main_eq (c : Dev nD) : main (F := F) c = seq opsAll := by
  show (main_part0 (F := F) c >>= fun _ => main_part1 c >>= fun _ => main_part2 c >>= fun _ => main_part3 c >>= fun _ =>
    main_part4 c >>= fun _ => main_part5 c) = _
  rw [main_part0_eq, main_part1_eq, main_part2_eq, main_part3_eq, main_part4_eq, main_part5_eq]
  simp only [opsAll, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem opsAll_sub : (opsAll : List (HloOp τ sig (Elt F))).Forall fun op => op.bufs ⊆ tcRefs τ sig := by
  simp only [opsAll, List.forall_append]
  exact ⟨ops0_sub, ops1_sub, ops2_sub, ⟨ops3a_sub, ops3b_sub⟩, ⟨ops4a_sub, ops4b_sub, ops4c_sub, ops4d_sub⟩, ops5_sub⟩

/-! ## No operation allocates -/

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3a_fresh : (ops3a : List (HloOp τ sig (Elt F))).Forall fun op => op.fresh = ∅ := by
  simp only [List.Forall]; repeat' constructor
theorem ops3b_fresh : (ops3b : List (HloOp τ sig (Elt F))).Forall fun op => op.fresh = ∅ := by
  simp only [List.Forall]; repeat' constructor
theorem ops4a_fresh : (ops4a : List (HloOp τ sig (Elt F))).Forall fun op => op.fresh = ∅ := by
  simp only [List.Forall]; repeat' constructor
theorem ops4b_fresh : (ops4b : List (HloOp τ sig (Elt F))).Forall fun op => op.fresh = ∅ := by
  simp only [List.Forall]; repeat' constructor
theorem ops4c_fresh : (ops4c : List (HloOp τ sig (Elt F))).Forall fun op => op.fresh = ∅ := by
  simp only [List.Forall]; repeat' constructor
theorem ops4d_fresh : (ops4d : List (HloOp τ sig (Elt F))).Forall fun op => op.fresh = ∅ := by
  simp only [List.Forall]; repeat' constructor
theorem ops5_fresh : (ops5 : List (HloOp τ sig (Elt F))).Forall fun op => op.fresh = ∅ := by
  simp only [List.Forall]; repeat' constructor

theorem opsAll_fresh : ∀ op ∈ (opsAll : List (HloOp τ sig (Elt F))), op.fresh = ∅ :=
  List.forall_iff_forall_mem.mp (by
    simp only [opsAll, List.forall_append]
    exact ⟨ops0_fresh, ops1_fresh, ops2_fresh, ⟨ops3a_fresh, ops3b_fresh⟩, ⟨ops4a_fresh, ops4b_fresh, ops4c_fresh, ops4d_fresh⟩, ops5_fresh⟩)

/-! ## The run, every buffer at the line's fold over its launch contents -/

/-- Every weakly fair execution of @main terminates with each TensorCore buffer at the fold of the
    357 operations' results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

end Cert.ReferenceIdeal.RunValue

end
-- ==== Proof.RefRunD.lean ====
import proofs.«420412_j74302934220861_3_alg».proof.Proof.RefRunA
import proofs.«420412_j74302934220861_3_alg».proof.Proof.RefRunB
import proofs.«420412_j74302934220861_3_alg».proof.Proof.RefRead
import Idealize.ShloMosaic.Lib.StableHlo.Run

/-!
# The second program's line, read chunk by chunk

What each chunk of the operation line leaves in the buffers later chunks read, as the stage functions of the
arguments; that no chunk writes an argument; and what a chunk passes on untouched.
-/

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## No operation writes an argument

The 28 arguments are the references numbered below 28; every operation's result is a reference numbered 28 or
above. So a chunk of the line leaves each argument's contents as it found them. -/

/-- A reference numbered below 28 is none numbered 28 or above. -/
theorem ne_of_idx {r y : Ref sig .tc} (h : r.idx.val < 28) (hy : ¬ y.idx.val < 28) : r ≠ y := fun e => hy (e ▸ h)

/-- Reads the fold of a literal chunk at a reference numbered below 28 (hypothesis `h`): each operation's
    result is another reference, since its number is not below 28. -/
macro "keep_args " h:ident : tactic =>
  `(tactic| simp (disch := (exact ne_of_idx $h (by decide))) only [after_cons, after_nil,
      nullary_result_ne', unary_result_ne', binary_result_ne', ternary_result_ne', reshape_result_ne', nary_result_ne'])

section Keep
variable (W : Valuation τ sig (Elt F)) (r : Ref sig .tc) (h : r.idx.val < 28)
include h

theorem keep0 : after ops0 W (Proc.devRef .tc r) = W (Proc.devRef .tc r) := by keep_args h
theorem keep1 : after ops1 W (Proc.devRef .tc r) = W (Proc.devRef .tc r) := by keep_args h
theorem keep2 : after ops2 W (Proc.devRef .tc r) = W (Proc.devRef .tc r) := by keep_args h
theorem keep3a : after ops3a W (Proc.devRef .tc r) = W (Proc.devRef .tc r) := by keep_args h
theorem keep3b : after ops3b W (Proc.devRef .tc r) = W (Proc.devRef .tc r) := by keep_args h
theorem keep4a : after ops4a W (Proc.devRef .tc r) = W (Proc.devRef .tc r) := by keep_args h
theorem keep4b : after ops4b W (Proc.devRef .tc r) = W (Proc.devRef .tc r) := by keep_args h
theorem keep4c : after ops4c W (Proc.devRef .tc r) = W (Proc.devRef .tc r) := by keep_args h
theorem keep4d : after ops4d W (Proc.devRef .tc r) = W (Proc.devRef .tc r) := by keep_args h
theorem keep5 : after ops5 W (Proc.devRef .tc r) = W (Proc.devRef .tc r) := by keep_args h

end Keep

/-! ## A joining of three buffers, read at its own result

The library reads an operation over a family of references at `fun k => F (xs k)`; for a literal family of
three the contents are wanted each at its own reference, so that what is known of the three buffers can be
put in their places. -/

section Nary3
variable {x a b y : Ref sig .tc}

theorem nary3_result
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a))
          (Fin.cons (V (Proc.devRef .tc b)) (fun i => i.elim0)))) := by
  rw [nary_result]; congr 1; funext k; fin_cases k <;> rfl

theorem nary3_result'
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a))
          (Fin.cons (V (Proc.devRef .tc b)) (fun i => i.elim0)))) :=
  nary3_result f hxs hy V

end Nary3

/-- The fold of a literal chunk read at a literal reference, as the library's one pass, with a joining of three
    buffers read at its own references. -/
macro "after_results_simp3" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## The result, stage by stage

From operation 181 on the line computes the result. Each chunk is read at the few buffers a later chunk reads:
given the contents it finds in the arguments it reads (`a…`) and in the buffers earlier chunks left (`h…`),
the chunk leaves the stage function of the arguments there. The cuts fall before each joining of rows, so a
joined value's pieces are always contents the chunk finds. -/

section Stages
variable (W : Valuation τ sig (Elt F))
variable {x0 : (⟨S100000x128, .f32⟩ : BufTy).Contents (Elt F)} {x1 : (⟨S10000x128, .f32⟩ : BufTy).Contents (Elt F)}
  {x2 : (⟨S1000000x2, .f32⟩ : BufTy).Contents (Elt F)} {x3 : (⟨S1000000, .i32⟩ : BufTy).Contents (Elt F)}
  {x7 x8 x9 : (⟨S50000, .i32⟩ : BufTy).Contents (Elt F)} {x10 x11 : (⟨S384x384, .f32⟩ : BufTy).Contents (Elt F)}
  {x12 x13 x14 : (⟨S384, .f32⟩ : BufTy).Contents (Elt F)} {x15 : (⟨S128x512, .f32⟩ : BufTy).Contents (Elt F)}
  {x16 : (⟨S128, .f32⟩ : BufTy).Contents (Elt F)} {x17 : (⟨S128x128, .f32⟩ : BufTy).Contents (Elt F)} {x18 : (⟨S128, .f32⟩ : BufTy).Contents (Elt F)}
  {x19 : (⟨S1x128, .f32⟩ : BufTy).Contents (Elt F)} {x20 : (⟨S128x256, .f32⟩ : BufTy).Contents (Elt F)} {x21 : (⟨S128, .f32⟩ : BufTy).Contents (Elt F)}
  {x25 : (⟨S128x128, .f32⟩ : BufTy).Contents (Elt F)} {x26 : (⟨S128, .f32⟩ : BufTy).Contents (Elt F)} {x27 : (⟨S128x128, .f32⟩ : BufTy).Contents (Elt F)}

/-- Operations 181 and 182, the last of the third window: a constant spread over 50000 entries. -/
theorem s2_v151 : after ops2 W (Proc.devRef .tc main_v151) = val_main_v151 (F := F) := by
  after_results_simp
  rfl

theorem s3a_v171 (a2 : W (Proc.devRef .tc main_arg2) = x2) (a9 : W (Proc.devRef .tc main_arg9) = x9)
    (a19 : W (Proc.devRef .tc main_arg19) = x19)
    (h151 : W (Proc.devRef .tc main_v151) = val_main_v151 (F := F)) :
    after ops3a W (Proc.devRef .tc main_v171) = val_main_v171 (F := F) x2 x9 x19 := by
  after_results_simp
  simp only [a2, a9, a19, h151]
  rfl

theorem s3a_v178 (a2 : W (Proc.devRef .tc main_arg2) = x2) (a9 : W (Proc.devRef .tc main_arg9) = x9)
    (a19 : W (Proc.devRef .tc main_arg19) = x19)
    (h151 : W (Proc.devRef .tc main_v151) = val_main_v151 (F := F)) :
    after ops3a W (Proc.devRef .tc main_v178) = val_main_v178 (F := F) x2 x9 x19 := by
  after_results_simp
  simp only [a2, a9, a19, h151]
  rfl

theorem s3a_v164 (a3 : W (Proc.devRef .tc main_arg3) = x3) (a9 : W (Proc.devRef .tc main_arg9) = x9) :
    after ops3a W (Proc.devRef .tc main_v164) = val_main_v164 (F := F) x3 x9 := by
  after_results_simp
  simp only [a3, a9]
  rfl

theorem s3b_v189 (a20 : W (Proc.devRef .tc main_arg20) = x20) (a21 : W (Proc.devRef .tc main_arg21) = x21) :
    after ops3b W (Proc.devRef .tc main_v189) = val_main_v189 (F := F) x20 x21 := by
  after_results_simp
  simp only [a20, a21]
  rfl

theorem s3b_v203 (a0 : W (Proc.devRef .tc main_arg0) = x0) (a8 : W (Proc.devRef .tc main_arg8) = x8) :
    after ops3b W (Proc.devRef .tc main_v203) = val_main_v203 (F := F) x0 x8 := by
  after_results_simp
  simp only [a0, a8]
  rfl

theorem s3b_v196 (a1 : W (Proc.devRef .tc main_arg1) = x1)
    (h164 : W (Proc.devRef .tc main_v164) = val_main_v164 (F := F) x3 x9) :
    after ops3b W (Proc.devRef .tc main_v196) = val_main_v196 (F := F) x1 x3 x9 := by
  after_results_simp
  simp only [a1, h164]
  rfl

/-- The chunk opens with the joining of the two cosine blocks: its pieces are contents it finds. -/
theorem s3b_v184 (a20 : W (Proc.devRef .tc main_arg20) = x20) (a21 : W (Proc.devRef .tc main_arg21) = x21)
    (h171 : W (Proc.devRef .tc main_v171) = val_main_v171 (F := F) x2 x9 x19)
    (h178 : W (Proc.devRef .tc main_v178) = val_main_v178 (F := F) x2 x9 x19) :
    after ops3b W (Proc.devRef .tc main_v184) = val_main_v184 (F := F) x2 x9 x19 x20 x21 := by
  after_results_simp
  rw [h171, h178]
  simp only [a20, a21]
  rfl

theorem s4a_v204 (h189 : W (Proc.devRef .tc main_v189) = val_main_v189 (F := F) x20 x21) :
    after ops4a W (Proc.devRef .tc main_v204) = val_main_v204 (F := F) x20 x21 := by
  after_results_simp
  simp only [h189]
  rfl

theorem s4b_v212 (a0 : W (Proc.devRef .tc main_arg0) = x0) (a7 : W (Proc.devRef .tc main_arg7) = x7) :
    after ops4b W (Proc.devRef .tc main_v212) = val_main_v212 (F := F) x0 x7 := by
  after_results_simp
  simp only [a0, a7]
  rfl

/-- The chunk opens with the joining of three row blocks. -/
theorem s4b_v205 (h203 : W (Proc.devRef .tc main_v203) = val_main_v203 (F := F) x0 x8)
    (h204 : W (Proc.devRef .tc main_v204) = val_main_v204 (F := F) x20 x21)
    (h196 : W (Proc.devRef .tc main_v196) = val_main_v196 (F := F) x1 x3 x9) :
    after ops4b W (Proc.devRef .tc main_v205) = val_main_v205 (F := F) x0 x1 x3 x8 x9 x20 x21 := by
  after_results_simp3
  rw [h203, h204, h196]
  rfl

/-- The chunk opens with the second joining of three row blocks. -/
theorem s4c_v248 (a8 : W (Proc.devRef .tc main_arg8) = x8) (a10 : W (Proc.devRef .tc main_arg10) = x10)
    (a11 : W (Proc.devRef .tc main_arg11) = x11) (a12 : W (Proc.devRef .tc main_arg12) = x12)
    (a13 : W (Proc.devRef .tc main_arg13) = x13) (a14 : W (Proc.devRef .tc main_arg14) = x14)
    (h212 : W (Proc.devRef .tc main_v212) = val_main_v212 (F := F) x0 x7)
    (h184 : W (Proc.devRef .tc main_v184) = val_main_v184 (F := F) x2 x9 x19 x20 x21)
    (h196 : W (Proc.devRef .tc main_v196) = val_main_v196 (F := F) x1 x3 x9)
    (h205 : W (Proc.devRef .tc main_v205) = val_main_v205 (F := F) x0 x1 x3 x8 x9 x20 x21) :
    after ops4c W (Proc.devRef .tc main_v248)
      = val_main_v248 (F := F) x0 x1 x2 x3 x7 x8 x9 x10 x11 x12 x13 x14 x19 x20 x21 := by
  after_results_simp3
  rw [h212, h184, h196]
  simp only [a8, a10, a11, a12, a13, a14, h205]
  rfl

theorem s4d_cst42 : after ops4d W (Proc.devRef .tc main_cst_42) = val_main_cst_42 (F := F) := by
  after_results_simp
  rfl

/-- The chunk opens with the joining of the features with the summed rows. -/
theorem s4d_v254 (a0 : W (Proc.devRef .tc main_arg0) = x0) (a15 : W (Proc.devRef .tc main_arg15) = x15)
    (a16 : W (Proc.devRef .tc main_arg16) = x16)
    (h248 : W (Proc.devRef .tc main_v248)
      = val_main_v248 (F := F) x0 x1 x2 x3 x7 x8 x9 x10 x11 x12 x13 x14 x19 x20 x21) :
    after ops4d W (Proc.devRef .tc main_v254)
      = val_main_v254 (F := F) x0 x1 x2 x3 x7 x8 x9 x10 x11 x12 x13 x14 x15 x16 x19 x20 x21 := by
  after_results_simp
  rw [a0, h248]
  simp only [a15, a16]
  rfl

theorem s5_v300 (a7 : W (Proc.devRef .tc main_arg7) = x7) (a8 : W (Proc.devRef .tc main_arg8) = x8)
    (a17 : W (Proc.devRef .tc main_arg17) = x17) (a18 : W (Proc.devRef .tc main_arg18) = x18)
    (a25 : W (Proc.devRef .tc main_arg25) = x25) (a26 : W (Proc.devRef .tc main_arg26) = x26)
    (a27 : W (Proc.devRef .tc main_arg27) = x27)
    (hc42 : W (Proc.devRef .tc main_cst_42) = val_main_cst_42 (F := F))
    (h254 : W (Proc.devRef .tc main_v254)
      = val_main_v254 (F := F) x0 x1 x2 x3 x7 x8 x9 x10 x11 x12 x13 x14 x15 x16 x19 x20 x21) :
    after ops5 W (Proc.devRef .tc main_v300)
      = val_main_v300 (F := F) x0 x1 x2 x3 x7 x8 x9 x10 x11 x12 x13 x14 x15 x16 x17 x18 x19 x20 x21 x25 x26 x27 := by
  after_results_simp
  simp only [a7, a8, a17, a18, a25, a26, a27, hc42, h254]
  rfl

/-! ## What a chunk passes on untouched -/

theorem c4a_v203 : after ops4a W (Proc.devRef .tc main_v203) = W (Proc.devRef .tc main_v203) := by after_results_simp
theorem c4a_v196 : after ops4a W (Proc.devRef .tc main_v196) = W (Proc.devRef .tc main_v196) := by after_results_simp
theorem c4a_v184 : after ops4a W (Proc.devRef .tc main_v184) = W (Proc.devRef .tc main_v184) := by after_results_simp
theorem c4b_v196 : after ops4b W (Proc.devRef .tc main_v196) = W (Proc.devRef .tc main_v196) := by after_results_simp
theorem c4b_v184 : after ops4b W (Proc.devRef .tc main_v184) = W (Proc.devRef .tc main_v184) := by after_results_simp

end Stages

end Cert.ReferenceIdeal.RunValue

end
-- ==== Proof.RefRun.lean ====
import proofs.«420412_j74302934220861_3_alg».proof.Proof.RefRead
import proofs.«420412_j74302934220861_3_alg».proof.Proof.RefRunC
import proofs.«420412_j74302934220861_3_alg».proof.Proof.RefRunD
import Idealize.ShloMosaic.Lib.StableHlo.Run
import Idealize.ShloMosaic.Lib.Pipeline.Frame

/-!
# The second program's run

The second program is a straight line of 357 host operations. Every weakly fair execution of it terminates, without a
fault, with its result buffer at the last stage's value of the arguments and the arguments as launched.
-/

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The contents before each chunk of the result's part of the line -/

section Assembly
variable (V : Valuation τ sig (Elt F))

/-- The device's buffer contents when the chunk of that name starts, from contents `V` before the line. -/
abbrev at3 : Valuation τ sig (Elt F) := after ops2 (after ops1 (after ops0 V))
abbrev at3b : Valuation τ sig (Elt F) := after ops3a (at3 V)
abbrev at4 : Valuation τ sig (Elt F) := after ops3b (at3b V)
abbrev at4b : Valuation τ sig (Elt F) := after ops4a (at4 V)
abbrev at4c : Valuation τ sig (Elt F) := after ops4b (at4b V)
abbrev at4d : Valuation τ sig (Elt F) := after ops4c (at4c V)
abbrev at5 : Valuation τ sig (Elt F) := after ops4d (at4d V)

/-! ### The arguments are still as the line found them -/

section Args
variable (r : Ref sig .tc) (h : r.idx.val < 28)
include h

theorem arg3 : at3 V (Proc.devRef .tc r) = V (Proc.devRef .tc r) := (keep2 _ r h).trans ((keep1 _ r h).trans (keep0 _ r h))
theorem arg3b : at3b V (Proc.devRef .tc r) = V (Proc.devRef .tc r) := (keep3a _ r h).trans (arg3 V r h)
theorem arg4 : at4 V (Proc.devRef .tc r) = V (Proc.devRef .tc r) := (keep3b _ r h).trans (arg3b V r h)
theorem arg4b : at4b V (Proc.devRef .tc r) = V (Proc.devRef .tc r) := (keep4a _ r h).trans (arg4 V r h)
theorem arg4c : at4c V (Proc.devRef .tc r) = V (Proc.devRef .tc r) := (keep4b _ r h).trans (arg4b V r h)
theorem arg4d : at4d V (Proc.devRef .tc r) = V (Proc.devRef .tc r) := (keep4c _ r h).trans (arg4c V r h)
theorem arg5 : at5 V (Proc.devRef .tc r) = V (Proc.devRef .tc r) := (keep4d _ r h).trans (arg4d V r h)

/-- No operation of the whole line writes an argument. -/
theorem fold_arg : after opsAll V (Proc.devRef .tc r) = V (Proc.devRef .tc r) := by
  simp only [opsAll, StableHlo.after_append]
  exact (keep5 _ r h).trans (arg5 V r h)

end Args

/-! ### The stage values, chunk after chunk -/

theorem v151_at3 : at3 V (Proc.devRef .tc main_v151) = val_main_v151 (F := F) := s2_v151 _

theorem v171_at3b : at3b V (Proc.devRef .tc main_v171)
    = val_main_v171 (F := F) (V (Proc.devRef .tc main_arg2)) (V (Proc.devRef .tc main_arg9)) (V (Proc.devRef .tc main_arg19)) :=
  s3a_v171 (at3 V) (arg3 V main_arg2 (by decide)) (arg3 V main_arg9 (by decide)) (arg3 V main_arg19 (by decide)) (v151_at3 V)

theorem v178_at3b : at3b V (Proc.devRef .tc main_v178)
    = val_main_v178 (F := F) (V (Proc.devRef .tc main_arg2)) (V (Proc.devRef .tc main_arg9)) (V (Proc.devRef .tc main_arg19)) :=
  s3a_v178 (at3 V) (arg3 V main_arg2 (by decide)) (arg3 V main_arg9 (by decide)) (arg3 V main_arg19 (by decide)) (v151_at3 V)

theorem v164_at3b : at3b V (Proc.devRef .tc main_v164) = val_main_v164 (F := F) (V (Proc.devRef .tc main_arg3)) (V (Proc.devRef .tc main_arg9)) :=
  s3a_v164 (at3 V) (arg3 V main_arg3 (by decide)) (arg3 V main_arg9 (by decide))

theorem v189_at4 : at4 V (Proc.devRef .tc main_v189) = val_main_v189 (F := F) (V (Proc.devRef .tc main_arg20)) (V (Proc.devRef .tc main_arg21)) :=
  s3b_v189 (at3b V) (arg3b V main_arg20 (by decide)) (arg3b V main_arg21 (by decide))

theorem v203_at4 : at4 V (Proc.devRef .tc main_v203) = val_main_v203 (F := F) (V (Proc.devRef .tc main_arg0)) (V (Proc.devRef .tc main_arg8)) :=
  s3b_v203 (at3b V) (arg3b V main_arg0 (by decide)) (arg3b V main_arg8 (by decide))

theorem v196_at4 : at4 V (Proc.devRef .tc main_v196)
    = val_main_v196 (F := F) (V (Proc.devRef .tc main_arg1)) (V (Proc.devRef .tc main_arg3)) (V (Proc.devRef .tc main_arg9)) :=
  s3b_v196 (at3b V) (arg3b V main_arg1 (by decide)) (v164_at3b V)

theorem v184_at4 : at4 V (Proc.devRef .tc main_v184)
    = val_main_v184 (F := F) (V (Proc.devRef .tc main_arg2)) (V (Proc.devRef .tc main_arg9)) (V (Proc.devRef .tc main_arg19)) (V (Proc.devRef .tc main_arg20))
        (V (Proc.devRef .tc main_arg21)) :=
  s3b_v184 (at3b V) (arg3b V main_arg20 (by decide)) (arg3b V main_arg21 (by decide)) (v171_at3b V) (v178_at3b V)

theorem v204_at4b : at4b V (Proc.devRef .tc main_v204) = val_main_v204 (F := F) (V (Proc.devRef .tc main_arg20)) (V (Proc.devRef .tc main_arg21)) :=
  s4a_v204 (at4 V) (v189_at4 V)

theorem v203_at4b : at4b V (Proc.devRef .tc main_v203) = val_main_v203 (F := F) (V (Proc.devRef .tc main_arg0)) (V (Proc.devRef .tc main_arg8)) :=
  (c4a_v203 _).trans (v203_at4 V)

theorem v196_at4b : at4b V (Proc.devRef .tc main_v196)
    = val_main_v196 (F := F) (V (Proc.devRef .tc main_arg1)) (V (Proc.devRef .tc main_arg3)) (V (Proc.devRef .tc main_arg9)) :=
  (c4a_v196 _).trans (v196_at4 V)

theorem v184_at4b : at4b V (Proc.devRef .tc main_v184)
    = val_main_v184 (F := F) (V (Proc.devRef .tc main_arg2)) (V (Proc.devRef .tc main_arg9)) (V (Proc.devRef .tc main_arg19)) (V (Proc.devRef .tc main_arg20))
        (V (Proc.devRef .tc main_arg21)) :=
  (c4a_v184 _).trans (v184_at4 V)

theorem v212_at4c : at4c V (Proc.devRef .tc main_v212) = val_main_v212 (F := F) (V (Proc.devRef .tc main_arg0)) (V (Proc.devRef .tc main_arg7)) :=
  s4b_v212 (at4b V) (arg4b V main_arg0 (by decide)) (arg4b V main_arg7 (by decide))

theorem v205_at4c : at4c V (Proc.devRef .tc main_v205)
    = val_main_v205 (F := F) (V (Proc.devRef .tc main_arg0)) (V (Proc.devRef .tc main_arg1)) (V (Proc.devRef .tc main_arg3)) (V (Proc.devRef .tc main_arg8))
        (V (Proc.devRef .tc main_arg9)) (V (Proc.devRef .tc main_arg20)) (V (Proc.devRef .tc main_arg21)) :=
  s4b_v205 (at4b V) (v203_at4b V) (v204_at4b V) (v196_at4b V)

theorem v196_at4c : at4c V (Proc.devRef .tc main_v196)
    = val_main_v196 (F := F) (V (Proc.devRef .tc main_arg1)) (V (Proc.devRef .tc main_arg3)) (V (Proc.devRef .tc main_arg9)) :=
  (c4b_v196 _).trans (v196_at4b V)

theorem v184_at4c : at4c V (Proc.devRef .tc main_v184)
    = val_main_v184 (F := F) (V (Proc.devRef .tc main_arg2)) (V (Proc.devRef .tc main_arg9)) (V (Proc.devRef .tc main_arg19)) (V (Proc.devRef .tc main_arg20))
        (V (Proc.devRef .tc main_arg21)) :=
  (c4b_v184 _).trans (v184_at4b V)

theorem v248_at4d : at4d V (Proc.devRef .tc main_v248)
    = val_main_v248 (F := F) (V (Proc.devRef .tc main_arg0)) (V (Proc.devRef .tc main_arg1)) (V (Proc.devRef .tc main_arg2)) (V (Proc.devRef .tc main_arg3))
        (V (Proc.devRef .tc main_arg7)) (V (Proc.devRef .tc main_arg8)) (V (Proc.devRef .tc main_arg9)) (V (Proc.devRef .tc main_arg10)) (V (Proc.devRef .tc main_arg11))
        (V (Proc.devRef .tc main_arg12)) (V (Proc.devRef .tc main_arg13)) (V (Proc.devRef .tc main_arg14)) (V (Proc.devRef .tc main_arg19)) (V (Proc.devRef .tc main_arg20))
        (V (Proc.devRef .tc main_arg21)) :=
  s4c_v248 (at4c V) (arg4c V main_arg8 (by decide)) (arg4c V main_arg10 (by decide)) (arg4c V main_arg11 (by decide))
    (arg4c V main_arg12 (by decide)) (arg4c V main_arg13 (by decide)) (arg4c V main_arg14 (by decide))
    (v212_at4c V) (v184_at4c V) (v196_at4c V) (v205_at4c V)

theorem cst42_at5 : at5 V (Proc.devRef .tc main_cst_42) = val_main_cst_42 (F := F) := s4d_cst42 _

theorem v254_at5 : at5 V (Proc.devRef .tc main_v254)
    = val_main_v254 (F := F) (V (Proc.devRef .tc main_arg0)) (V (Proc.devRef .tc main_arg1)) (V (Proc.devRef .tc main_arg2)) (V (Proc.devRef .tc main_arg3))
        (V (Proc.devRef .tc main_arg7)) (V (Proc.devRef .tc main_arg8)) (V (Proc.devRef .tc main_arg9)) (V (Proc.devRef .tc main_arg10)) (V (Proc.devRef .tc main_arg11))
        (V (Proc.devRef .tc main_arg12)) (V (Proc.devRef .tc main_arg13)) (V (Proc.devRef .tc main_arg14)) (V (Proc.devRef .tc main_arg15)) (V (Proc.devRef .tc main_arg16))
        (V (Proc.devRef .tc main_arg19)) (V (Proc.devRef .tc main_arg20)) (V (Proc.devRef .tc main_arg21)) :=
  s4d_v254 (at4d V) (arg4d V main_arg0 (by decide)) (arg4d V main_arg15 (by decide)) (arg4d V main_arg16 (by decide))
    (v248_at4d V)

/-- The fold of the whole line at the result buffer: the last stage's value of the contents the line found in
    the arguments. -/
theorem fold_v300 : after opsAll V (Proc.devRef .tc main_v300)
    = val_main_v300 (F := F) (V (Proc.devRef .tc main_arg0)) (V (Proc.devRef .tc main_arg1)) (V (Proc.devRef .tc main_arg2)) (V (Proc.devRef .tc main_arg3))
        (V (Proc.devRef .tc main_arg7)) (V (Proc.devRef .tc main_arg8)) (V (Proc.devRef .tc main_arg9)) (V (Proc.devRef .tc main_arg10)) (V (Proc.devRef .tc main_arg11))
        (V (Proc.devRef .tc main_arg12)) (V (Proc.devRef .tc main_arg13)) (V (Proc.devRef .tc main_arg14)) (V (Proc.devRef .tc main_arg15)) (V (Proc.devRef .tc main_arg16))
        (V (Proc.devRef .tc main_arg17)) (V (Proc.devRef .tc main_arg18)) (V (Proc.devRef .tc main_arg19)) (V (Proc.devRef .tc main_arg20)) (V (Proc.devRef .tc main_arg21))
        (V (Proc.devRef .tc main_arg25)) (V (Proc.devRef .tc main_arg26)) (V (Proc.devRef .tc main_arg27)) := by
  simp only [opsAll, StableHlo.after_append]
  exact s5_v300 (at5 V) (arg5 V main_arg7 (by decide)) (arg5 V main_arg8 (by decide)) (arg5 V main_arg17 (by decide))
    (arg5 V main_arg18 (by decide)) (arg5 V main_arg25 (by decide)) (arg5 V main_arg26 (by decide))
    (arg5 V main_arg27 (by decide)) (cst42_at5 V) (v254_at5 V)

end Assembly

/-- The run: the result at the last stage's value, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v300) = val_main_v300 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) := by
  exact (θ_run defs _ _).mono (fun _ hr c => ⟨(hr c main_v300).trans (fold_v300 (launchContents m c)),
      (hr c main_arg0).trans (fold_arg _ main_arg0 (by decide)),
      (hr c main_arg1).trans (fold_arg _ main_arg1 (by decide)),
      (hr c main_arg2).trans (fold_arg _ main_arg2 (by decide)),
      (hr c main_arg3).trans (fold_arg _ main_arg3 (by decide)),
      (hr c main_arg4).trans (fold_arg _ main_arg4 (by decide)),
      (hr c main_arg5).trans (fold_arg _ main_arg5 (by decide)),
      (hr c main_arg6).trans (fold_arg _ main_arg6 (by decide)),
      (hr c main_arg7).trans (fold_arg _ main_arg7 (by decide)),
      (hr c main_arg8).trans (fold_arg _ main_arg8 (by decide)),
      (hr c main_arg9).trans (fold_arg _ main_arg9 (by decide)),
      (hr c main_arg10).trans (fold_arg _ main_arg10 (by decide)),
      (hr c main_arg11).trans (fold_arg _ main_arg11 (by decide)),
      (hr c main_arg12).trans (fold_arg _ main_arg12 (by decide)),
      (hr c main_arg13).trans (fold_arg _ main_arg13 (by decide)),
      (hr c main_arg14).trans (fold_arg _ main_arg14 (by decide)),
      (hr c main_arg15).trans (fold_arg _ main_arg15 (by decide)),
      (hr c main_arg16).trans (fold_arg _ main_arg16 (by decide)),
      (hr c main_arg17).trans (fold_arg _ main_arg17 (by decide)),
      (hr c main_arg18).trans (fold_arg _ main_arg18 (by decide)),
      (hr c main_arg19).trans (fold_arg _ main_arg19 (by decide)),
      (hr c main_arg20).trans (fold_arg _ main_arg20 (by decide)),
      (hr c main_arg21).trans (fold_arg _ main_arg21 (by decide)),
      (hr c main_arg22).trans (fold_arg _ main_arg22 (by decide)),
      (hr c main_arg23).trans (fold_arg _ main_arg23 (by decide)),
      (hr c main_arg24).trans (fold_arg _ main_arg24 (by decide)),
      (hr c main_arg25).trans (fold_arg _ main_arg25 (by decide)),
      (hr c main_arg26).trans (fold_arg _ main_arg26 (by decide)),
      (hr c main_arg27).trans (fold_arg _ main_arg27 (by decide))⟩)
    (run_fold m ρ)

end Cert.ReferenceIdeal.RunValue

end
-- ==== Proof.Pre.lean ====
import proofs.«420412_j74302934220861_3_alg».proof.Pre_finite_inputs
import proofs.«420412_j74302934220861_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

/-!
# What the precondition says

The precondition is one bit: the conjunction, over every float argument, of "every entry is below +infinity in
absolute value", and of four facts about two index arguments: every source word is at least 0 and below 100000,
every destination word is at least 0 and below 5000 (signed). When that bit is one, every entry of the float
arguments is a real number and the two index arguments are in those ranges.
-/

set_option maxRecDepth 16384

noncomputable section

namespace Cert.PreFacts

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- A conjunction of two bits that is one, read at an index: both bits are one there. -/
theorem andi_split {s : Shape} {x y : IVec s 1} {i : s.Idx} (h : andi x y i = 1#1) : x i = 1#1 ∧ y i = 1#1 :=
  IntOp.andi_eq_one.1 h

/-- The word 0x7F800000 denotes plus infinity. -/
theorem ofBits_inf : Ideal.ofBits .f32 0x7F800000#32 = (⊤ : EReal) := by
  simp [Ideal.ofBits, Ideal.ieee]

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- "Every entry is below plus infinity in absolute value", as the precondition spells it for one float argument
    (absolute value, comparison with the broadcast word for plus infinity, conjunction over every axis), says that
    every entry is a real number. -/
theorem all_real {s : Shape} {axes : List (Fin s.rank)} (a : FVec Ideal s .f32)
    (bc : S_.BroadcastsInDim s (![] : Fin 0 → Fin s.rank)) (hr : s.ReducesTo axes S_) (hu : 0 < S_.numel) (init : IVec S_ 1)
    (e : Host.reduce IntOp.andi (cmpf .olt (Host.absf a) (broadcastInDim s ![] bc (constant S_ .f32 0x7F800000#32))) init hr hu ix0
      = 1#1) (i : s.Idx) : ∃ r : ℝ, a i = (r : EReal) :=
  real_of_abs_lt_inf (a i) (Host.reduce_andi_all _ init hr hu ix0 e i)

/-- "Every word is at least the word c, signed", as the precondition spells it. -/
theorem all_sge {s : Shape} {axes : List (Fin s.rank)} (a : IVec s 32) (c : BitVec 32)
    (bc : S_.BroadcastsInDim s (![] : Fin 0 → Fin s.rank)) (hr : s.ReducesTo axes S_) (hu : 0 < S_.numel) (init : IVec S_ 1)
    (e : Host.reduce IntOp.andi (cmpi .sge a (broadcastInDim s ![] bc (constantI S_ 32 c))) init hr hu ix0 = 1#1) (i : s.Idx) :
    c.toInt ≤ (a i).toInt :=
  IntOp.cmpi_sge.1 (Host.reduce_andi_all _ init hr hu ix0 e i)

/-- "Every word is below the word c, signed", as the precondition spells it. -/
theorem all_slt {s : Shape} {axes : List (Fin s.rank)} (a : IVec s 32) (c : BitVec 32)
    (bc : S_.BroadcastsInDim s (![] : Fin 0 → Fin s.rank)) (hr : s.ReducesTo axes S_) (hu : 0 < S_.numel) (init : IVec S_ 1)
    (e : Host.reduce IntOp.andi (cmpi .slt a (broadcastInDim s ![] bc (constantI S_ 32 c))) init hr hu ix0 = 1#1) (i : s.Idx) :
    (a i).toInt < c.toInt :=
  IntOp.cmpi_slt.1 (Host.reduce_andi_all _ init hr hu ix0 e i)

/-- From the precondition: the float arguments the two stages read are real entry by entry, every source word is a
    node number below 100000 and every destination word a node number below 5000. -/
theorem decode (a0 : FVec Ideal S100000x128 .f32) (a1 : FVec Ideal S10000x128 .f32) (a2 : FVec Ideal S1000000x2 .f32) (a3 : IVec S1000000 32) (a4 : IVec S200000 32) (a5 : IVec S200000 32) (a6 : IVec S200000 32) (a7 : IVec S50000 32) (a8 : IVec S50000 32) (a9 : IVec S50000 32) (a10 : FVec Ideal S384x384 .f32) (a11 : FVec Ideal S384x384 .f32) (a12 : FVec Ideal S384 .f32) (a13 : FVec Ideal S384 .f32) (a14 : FVec Ideal S384 .f32) (a15 : FVec Ideal S128x512 .f32) (a16 : FVec Ideal S128 .f32) (a17 : FVec Ideal S128x128 .f32) (a18 : FVec Ideal S128 .f32) (a19 : FVec Ideal S1x128 .f32) (a20 : FVec Ideal S128x256 .f32) (a21 : FVec Ideal S128 .f32) (a22 : FVec Ideal S128x128 .f32) (a23 : FVec Ideal S128 .f32) (a24 : FVec Ideal S128x128 .f32) (a25 : FVec Ideal S128x128 .f32) (a26 : FVec Ideal S128 .f32) (a27 : FVec Ideal S128x128 .f32)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
    (∀ i : S100000x128.Idx, ∃ r : ℝ, a0 i = (r : EReal))
      ∧ (∀ i : S10000x128.Idx, ∃ r : ℝ, a1 i = (r : EReal))
      ∧ (∀ i : S1000000x2.Idx, ∃ r : ℝ, a2 i = (r : EReal))
      ∧ (∀ i : S384x384.Idx, ∃ r : ℝ, a10 i = (r : EReal))
      ∧ (∀ i : S384x384.Idx, ∃ r : ℝ, a11 i = (r : EReal))
      ∧ (∀ i : S384.Idx, ∃ r : ℝ, a12 i = (r : EReal))
      ∧ (∀ i : S384.Idx, ∃ r : ℝ, a13 i = (r : EReal))
      ∧ (∀ i : S384.Idx, ∃ r : ℝ, a14 i = (r : EReal))
      ∧ (∀ i : S128x512.Idx, ∃ r : ℝ, a15 i = (r : EReal))
      ∧ (∀ i : S1x128.Idx, ∃ r : ℝ, a19 i = (r : EReal))
      ∧ (∀ i : S128x256.Idx, ∃ r : ℝ, a20 i = (r : EReal))
      ∧ (∀ i : S128.Idx, ∃ r : ℝ, a21 i = (r : EReal))
      ∧ (∀ e : Fin 50000, 0 ≤ (a7 (ix1 e)).toInt ∧ (a7 (ix1 e)).toInt < 100000)
      ∧ (∀ e : Fin 50000, 0 ≤ (a8 (ix1 e)).toInt ∧ (a8 (ix1 e)).toInt < 5000) := by
  -- the bit at the one index of the scalar result, with the printed chain in view
  have e := congrFun h ix0
  dsimp only [fn, fn_part1, fn_part2, fn_part3, fn_part4, fn_part5, fn_part6, fn_part7] at e
  -- peel the conjunction from its last conjunct to its first
  obtain ⟨e, h8lt⟩ := andi_split e
  obtain ⟨e, h8ge⟩ := andi_split e
  obtain ⟨e, h7lt⟩ := andi_split e
  obtain ⟨e, h7ge⟩ := andi_split e
  obtain ⟨e, -⟩ := andi_split e
  obtain ⟨e, -⟩ := andi_split e
  obtain ⟨e, -⟩ := andi_split e
  obtain ⟨e, -⟩ := andi_split e
  obtain ⟨e, -⟩ := andi_split e
  obtain ⟨e, -⟩ := andi_split e
  obtain ⟨e, h21⟩ := andi_split e
  obtain ⟨e, h20⟩ := andi_split e
  obtain ⟨e, h19⟩ := andi_split e
  obtain ⟨e, -⟩ := andi_split e
  obtain ⟨e, -⟩ := andi_split e
  obtain ⟨e, -⟩ := andi_split e
  obtain ⟨e, h15⟩ := andi_split e
  obtain ⟨e, h14⟩ := andi_split e
  obtain ⟨e, h13⟩ := andi_split e
  obtain ⟨e, h12⟩ := andi_split e
  obtain ⟨e, h11⟩ := andi_split e
  obtain ⟨e, h10⟩ := andi_split e
  obtain ⟨e, h2⟩ := andi_split e
  obtain ⟨h0, h1⟩ := andi_split e
  -- the two words the index arguments are compared with, read signed
  have z0 : (0#32 : BitVec 32).toInt = 0 := by decide
  have z1 : (100000#32 : BitVec 32).toInt = 100000 := by decide
  have z2 : (5000#32 : BitVec 32).toInt = 5000 := by decide
  refine ⟨all_real a0 _ _ _ _ h0, all_real a1 _ _ _ _ h1, all_real a2 _ _ _ _ h2, all_real a10 _ _ _ _ h10,
    all_real a11 _ _ _ _ h11, all_real a12 _ _ _ _ h12, all_real a13 _ _ _ _ h13, all_real a14 _ _ _ _ h14,
    all_real a15 _ _ _ _ h15, all_real a19 _ _ _ _ h19, all_real a20 _ _ _ _ h20, all_real a21 _ _ _ _ h21,
    fun i => ⟨?_, ?_⟩, fun i => ⟨?_, ?_⟩⟩
  · have := all_sge a7 _ _ _ _ _ h7ge (ix1 i); rwa [z0] at this
  · have := all_slt a7 _ _ _ _ _ h7lt (ix1 i); rwa [z1] at this
  · have := all_sge a8 _ _ _ _ _ h8ge (ix1 i); rwa [z0] at this
  · have := all_slt a8 _ _ _ _ _ h8lt (ix1 i); rwa [z2] at this

end Cert.PreFacts

end
-- ==== Proof.Spec.lean ====
import Idealize.ShloMosaic.Lib.ValueIdx
import Idealize.ShloMosaic.PureOps.Ideal.Laws
import Mathlib.Algebra.BigOperators.Fin

/-!
# The two programs as formulas over the extended reals

A graph layer on 50000 edges and 100000 nodes, hidden width 128. For each edge a row of 384 numbers is
built (source features, a time encoding, a user embedding), sent through two 384 x 384 linear maps,
added to a residual row and layer-normalised; the rows are summed into their destination nodes; each
node's 128 features joined with its 384 summed numbers go through a 512 -> 128 linear map, a leaky
rectifier and a 128 -> 128 linear map.

One program applies the two 384 x 384 maps one after the other; the other applies their product. One
sums 384-wide rows into nodes and then applies the 384-wide part of the 512 -> 128 map; the other
applies that part to each edge's row first and sums 128-wide rows. Everything here is stated for one
row at a time, as a function of that row's data, so that the laws joining the two readings are laws
about finite sums.

Rows are functions on `Fin n`; arrays are functions on the index type of a literal shape, read at
`ix2 r c` (rank 2) or `ix1 c` (rank 1).
-/

open scoped BigOperators

noncomputable section

namespace Cert.Sp

open Idealize.ShloMosaic Idealize.ShloMosaic.ValueIdx

/-- A vector of `n` extended reals. -/
abbrev A1 (n : Nat) := (⟨1, ![n]⟩ : Shape).Idx → EReal
/-- An `n x d` matrix of extended reals. -/
abbrev A2 (n d : Nat) := (⟨2, ![n, d]⟩ : Shape).Idx → EReal
/-- A vector of `n` 32-bit index words. -/
abbrev I1 (n : Nat) := (⟨1, ![n]⟩ : Shape).Idx → BitVec 32

/-- The words both programs carry: 384, the layer norm's epsilon, the rectifier's slope, zero. -/
abbrev w384 : EReal := Ideal.ofBits .f32 0x43C00000#32
abbrev wEps : EReal := Ideal.ofBits .f32 0x3727C5AC#32
abbrev wTenth : EReal := Ideal.ofBits .f32 0x3DCCCCCD#32
abbrev wZero : EReal := Ideal.ofBits .f32 0x00000000#32

/-! ## Rows joined end to end -/

/-- Two rows of 128 joined. -/
def cat2 (a b : Fin 128 → EReal) (k : Fin 256) : EReal :=
  if h : k.val < 128 then a ⟨k.val, h⟩ else b ⟨k.val - 128, by omega⟩

/-- Three rows of 128 joined. -/
def cat3 (a b c : Fin 128 → EReal) (k : Fin 384) : EReal :=
  if h : k.val < 128 then a ⟨k.val, h⟩
  else if h2 : k.val < 256 then b ⟨k.val - 128, by omega⟩ else c ⟨k.val - 256, by omega⟩

/-- A row of 128 joined with a row of 384. -/
def cat4 (a : Fin 128 → EReal) (b : Fin 384 → EReal) (k : Fin 512) : EReal :=
  if h : k.val < 128 then a ⟨k.val, h⟩ else b ⟨k.val - 128, by omega⟩

/-! ## One edge's row -/

/-- The time encoding of one edge: the cosines of its two time stamps times the 128 frequencies. -/
def tenc (t0 t1 : EReal) (f : Fin 128 → EReal) : Fin 256 → EReal :=
  cat2 (fun c => Ideal.cos (t0 * f c)) (fun c => Ideal.cos (t1 * f c))

/-- The encoded time of one edge: the time encoding through the 256 -> 128 linear map `linT` (given
    transposed: `linT k c` multiplies input `k` into output `c`) plus its bias. -/
def jtRow (t0 t1 : EReal) (f : Fin 128 → EReal) (linT : Fin 256 → Fin 128 → EReal) (lb : Fin 128 → EReal)
    (c : Fin 128) : EReal :=
  (∑ k : Fin 256, tenc t0 t1 f k * linT k c) + lb c

/-- Layer normalisation of a row of 384 with gain `g` and bias `b`: subtract the mean, divide by the
    root of the variance plus epsilon. -/
def lnRow (hp g b : Fin 384 → EReal) (j : Fin 384) : EReal :=
  ((hp j - Ideal.div (∑ k : Fin 384, hp k) w384)
      * Ideal.rsqrt (Ideal.div (∑ k : Fin 384, (hp k - Ideal.div (∑ k : Fin 384, hp k) w384)
          * (hp k - Ideal.div (∑ k : Fin 384, hp k) w384)) w384 + wEps))
    * g j + b j

/-- The row before normalisation, the two 384 x 384 maps given as ONE matrix `WT` (transposed). -/
def hpK (kv qv : Fin 384 → EReal) (WT : Fin 384 → Fin 384 → EReal) (fb : Fin 384 → EReal) (j : Fin 384) : EReal :=
  ((∑ i : Fin 384, kv i * WT i j) + fb j) + qv j

/-- The row before normalisation, the two 384 x 384 maps applied one after the other (both transposed). -/
def hpR (kv qv : Fin 384 → EReal) (wvT ffT : Fin 384 → Fin 384 → EReal) (fb : Fin 384 → EReal) (j : Fin 384) : EReal :=
  ((∑ l : Fin 384, (∑ i : Fin 384, kv i * wvT i l) * ffT l j) + fb j) + qv j

/-- An edge's key row: source features, encoded time, user embedding. -/
def kvec (XS US : A2 50000 128) (jt : Fin 128 → EReal) (e : Fin 50000) : Fin 384 → EReal :=
  cat3 (fun c => XS (ix2 e c)) jt (fun c => US (ix2 e c))

/-- An edge's residual row: destination features, the constant encoded time, user embedding. -/
def qvec (XD US : A2 50000 128) (it : A2 1 128) (e : Fin 50000) : Fin 384 → EReal :=
  cat3 (fun c => XD (ix2 e c)) (fun c => it (ix2 0 c)) (fun c => US (ix2 e c))

/-- The normalised 384-row of edge `e`, from the arrays as the FIRST program lays them out: the
    256 -> 128 map transposed (`linT`, 256 x 128), the product of the two 384 x 384 maps transposed
    (`WT`), biases and gains as 1 x n rows. -/
def edgeHK (ET : A2 50000 2) (XD XS US : A2 50000 128) (fq : A2 1 128) (linT : A2 256 128) (lb it : A2 1 128)
    (WT : A2 384 384) (fb lg lbn : A2 1 384) (e : Fin 50000) : Fin 384 → EReal :=
  lnRow
    (hpK (kvec XS US (jtRow (ET (ix2 e 0)) (ET (ix2 e 1)) (fun c => fq (ix2 0 c)) (fun k c => linT (ix2 k c))
        (fun c => lb (ix2 0 c))) e)
      (qvec XD US it e) (fun i j => WT (ix2 i j)) (fun j => fb (ix2 0 j)))
    (fun j => lg (ix2 0 j)) (fun j => lbn (ix2 0 j))

/-- What the first program's edge stage leaves at edge `e`, column `c`: the normalised row through the
    384 -> 128 map `PT` (384 x 128). -/
def edgeK (ET : A2 50000 2) (XD XS US : A2 50000 128) (fq : A2 1 128) (linT : A2 256 128) (lb it : A2 1 128)
    (WT : A2 384 384) (fb lg lbn : A2 1 384) (PT : A2 384 128) (e : Fin 50000) (c : Fin 128) : EReal :=
  ∑ j : Fin 384, edgeHK ET XD XS US fq linT lb it WT fb lg lbn e j * PT (ix2 j c)

/-- The normalised 384-row of edge `e`, from the arrays as the SECOND program has them: the 256 -> 128
    map as given (`linw`, 128 x 256), the two 384 x 384 maps `wv` and `ffw` as given, biases and gains as
    vectors. -/
def edgeHR (ET : A2 50000 2) (XD XS US : A2 50000 128) (fq : A2 1 128) (linw : A2 128 256) (lb : A1 128) (it : A2 1 128)
    (wv ffw : A2 384 384) (fb lg lbn : A1 384) (e : Fin 50000) : Fin 384 → EReal :=
  lnRow
    (hpR (kvec XS US (jtRow (ET (ix2 e 0)) (ET (ix2 e 1)) (fun c => fq (ix2 0 c)) (fun k c => linw (ix2 c k))
        (fun c => lb (ix1 c))) e)
      (qvec XD US it e) (fun i l => wv (ix2 l i)) (fun l j => ffw (ix2 j l)) (fun j => fb (ix1 j)))
    (fun j => lg (ix1 j)) (fun j => lbn (ix1 j))

/-! ## Summing edge rows into nodes -/

/-- The edges whose destination word, read signed, is the node number `v`. -/
def seg (dst : I1 50000) (v : ℕ) : Finset (Fin 50000) :=
  Finset.univ.filter (fun e : Fin 50000 => (dst (ix1 e)).toInt = (v : ℤ))

/-- Column `c` of the rows `R` summed over the edges into node `v`. -/
def segsum {D : Nat} (dst : I1 50000) (R : A2 50000 D) (v : ℕ) (c : Fin D) : EReal :=
  ∑ e ∈ seg dst v, R (ix2 e c)

/-! ## One node's row -/

/-- The leaky rectifier with slope one tenth. -/
def leaky (b : EReal) : EReal :=
  Scalar.select (Ideal.cmp .ogt b wZero) b (wTenth * b)

/-- A node's merged row: its features `X` through `w1` plus bias plus an already projected sum `A`,
    rectified, through `w2` plus bias. -/
def mrow (X A : Fin 128 → EReal) (w1 : Fin 128 → Fin 128 → EReal) (b1 : Fin 128 → EReal)
    (w2 : Fin 128 → Fin 128 → EReal) (b2 : Fin 128 → EReal) (c : Fin 128) : EReal :=
  (∑ j : Fin 128, leaky (((∑ i : Fin 128, X i * w1 i j) + b1 j) + A j) * w2 j c) + b2 c

/-- The first program's merge stage at row `r` of its 55000 rows, column `c`. -/
def mergeK (X A : A2 55000 128) (w1 : A2 128 128) (b1 : A2 1 128) (w2 : A2 128 128) (b2 : A2 1 128)
    (r : Fin 55000) (c : Fin 128) : EReal :=
  mrow (fun i => X (ix2 r i)) (fun j => A (ix2 r j)) (fun i j => w1 (ix2 i j)) (fun j => b1 (ix2 0 j))
    (fun j c => w2 (ix2 j c)) (fun c => b2 (ix2 0 c)) c

/-- A node's merged row from its 512 joined numbers through the whole 512 -> 128 map. -/
def mrowR (XA : Fin 512 → EReal) (w1 : Fin 512 → Fin 128 → EReal) (b1 : Fin 128 → EReal)
    (w2 : Fin 128 → Fin 128 → EReal) (b2 : Fin 128 → EReal) (c : Fin 128) : EReal :=
  (∑ j : Fin 128, leaky ((∑ i : Fin 512, XA i * w1 i j) + b1 j) * w2 j c) + b2 c

/-- The second program's merge stage at node `n`, column `c`. -/
def mergeR (x : A2 100000 128) (agg : A2 100000 384) (mw1 : A2 128 512) (mb1 : A1 128) (mw2 : A2 128 128) (mb2 : A1 128)
    (n : Fin 100000) (c : Fin 128) : EReal :=
  mrowR (cat4 (fun i => x (ix2 n i)) (fun l => agg (ix2 n l))) (fun i j => mw1 (ix2 j i)) (fun j => mb1 (ix1 j))
    (fun j c => mw2 (ix2 c j)) (fun c => mb2 (ix1 c)) c

end Cert.Sp

end
-- ==== Proof.KEdge.lean ====
import proofs.«420412_j74302934220861_3_alg».proof.Proof.Gen.KernelIdeal.Frame
import proofs.«420412_j74302934220861_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The edge stage's array

The edge stage runs over 25 blocks of 2000 edges. At each block it reads that block's rows of the four
per-edge arrays and the whole of nine small arrays, and writes the block's 2000 x 128 result. So the
array it leaves holds, at edge `e` and column `q`, the row formula `Cert.Sp.edgeK` of row `e` of the
per-edge arrays: block `e / 2000` covers row `e`, and inside a block the body's arithmetic is row by row.
-/

set_option maxRecDepth 16384

open scoped BigOperators

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## Layout operations of the body, read at a row and a column -/

section Layout
variable {α : Type}

/-- The zero offsets of a whole-block access, as a constant function. -/
theorem zeroOffsets : (![0, 0] : Fin 2 → Nat) = fun _ => 0 :=
  funext fun a => match a with | ⟨0, _⟩ => rfl | ⟨1, _⟩ => rfl

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, 0)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The first column of a two-column array, cut out as a one-column array. -/
theorem sliceCol0_apply {a : ℕ} (X : (⟨2, ![a, 2]⟩ : Shape).Idx → α)
    (h : (⟨2, ![a, 2]⟩ : Shape).Slices ![0, 0] ⟨2, ![a, 1]⟩) (p : Fin a) (u : Fin 1) :
    extractStridedSlice ⟨2, ![a, 1]⟩ ![0, 0] X h (ix2 p u) = X (ix2 p (0 : Fin 2)) :=
  slice2_axis1_apply 0 X h p u 0 (by show 0 = 0 + u.val; omega)

/-- The second column of a two-column array, cut out as a one-column array. -/
theorem sliceCol1_apply {a : ℕ} (X : (⟨2, ![a, 2]⟩ : Shape).Idx → α)
    (h : (⟨2, ![a, 2]⟩ : Shape).Slices ![0, 1] ⟨2, ![a, 1]⟩) (p : Fin a) (u : Fin 1) :
    extractStridedSlice ⟨2, ![a, 1]⟩ ![0, 1] X h (ix2 p u) = X (ix2 p (1 : Fin 2)) :=
  slice2_axis1_apply 1 X h p u 1 (by show 1 = 1 + u.val; omega)

end Layout

/-! ## The two one-operand functions of the body at an index -/

theorem cos_apply {s : Shape} {φ : FTy} (a : FVec Ideal s φ) (i : s.Idx) : cos a i = Ideal.cos (a i) := rfl
theorem rsqrt_apply {s : Shape} {φ : FTy} (a : FVec Ideal s φ) (i : s.Idx) : rsqrt a i = Ideal.rsqrt (a i) := rfl

/-! ## The lane sum and the joins of rows -/

/-- The body's sum over the 384 lanes of row `p`, from a zero accumulator (`hφ`: the format is f32 or bf16; `hacc`: the
    accumulator's word is the zero word). -/
theorem laneSum_apply (src : FVec Ideal S2000x384 .f32) (hφ : FTy.f32 = FTy.f32 ∨ FTy.f32 = FTy.bf16)
    (hacc : (0x00000000#32 : BitVec 32) = 0x00000000#32) (p : Fin 2000) :
    multiReduction .add [1] S2000 src 0x00000000#32 reduces_S2000x384_S2000 hφ hacc (ix1 p)
      = ∑ k : Fin 384, src (ix2 p k) := by
  refine (Ideal.multiReduction_add_single src 0x00000000#32 reduces_S2000x384_S2000 hφ hacc (ix1 p)).trans ?_
  show ∑ k : Fin 384, src (reduces_S2000x384_S2000.lift (ix1 p) k) = _
  refine Finset.sum_congr rfl fun k _ => congrArg src (funext fun c => Fin.ext ?_)
  match c with
  | ⟨0, _⟩ => rfl
  | ⟨1, _⟩ => rfl

/-- Three 128-wide blocks joined along the lanes, read at row `p`: the three rows joined. -/
theorem join3_apply (x₁ x₂ x₃ : S2000x128.Idx → EReal)
    (h : Shape.Concatenates [S2000x128, S2000x128, S2000x128] S2000x384 1) (p : Fin 2000) (k : Fin 384) :
    concatenate S2000x384 1 [⟨S2000x128, x₁⟩, ⟨S2000x128, x₂⟩, ⟨S2000x128, x₃⟩] h (ix2 p k)
      = Cert.Sp.cat3 (fun c => x₁ (ix2 p c)) (fun c => x₂ (ix2 p c)) (fun c => x₃ (ix2 p c)) k := by
  unfold Cert.Sp.cat3
  split
  · next h1 =>
    refine concatenate_apply_piece (t := S2000x384) (1 : Fin 2) [⟨S2000x128, x₁⟩, ⟨S2000x128, x₂⟩, ⟨S2000x128, x₃⟩] h (ix2 p k) 0 (by show 0 < 3; omega) S2000x128 x₁ rfl rfl 0 rfl
      (ix2 p ⟨k.val, h1⟩) (fun b hb => ?_) ?_
    · match b with
      | ⟨0, _⟩ => rfl
      | ⟨1, _⟩ => exact absurd rfl hb
    · show 0 + k.val = k.val
      omega
  · next h1 =>
    split
    · next h2 =>
      refine concatenate_apply_piece (t := S2000x384) (1 : Fin 2) [⟨S2000x128, x₁⟩, ⟨S2000x128, x₂⟩, ⟨S2000x128, x₃⟩] h (ix2 p k) 1 (by show 1 < 3; omega) S2000x128 x₂ rfl rfl 128 rfl
        (ix2 p ⟨k.val - 128, by omega⟩) (fun b hb => ?_) ?_
      · match b with
        | ⟨0, _⟩ => rfl
        | ⟨1, _⟩ => exact absurd rfl hb
      · show 128 + (k.val - 128) = k.val
        omega
    · next h2 =>
      refine concatenate_apply_piece (t := S2000x384) (1 : Fin 2) [⟨S2000x128, x₁⟩, ⟨S2000x128, x₂⟩, ⟨S2000x128, x₃⟩] h (ix2 p k) 2 (by show 2 < 3; omega) S2000x128 x₃ rfl rfl 256 rfl
        (ix2 p ⟨k.val - 256, by omega⟩) (fun b hb => ?_) ?_
      · match b with
        | ⟨0, _⟩ => rfl
        | ⟨1, _⟩ => exact absurd rfl hb
      · show 256 + (k.val - 256) = k.val
        omega

/-- Two 128-wide blocks joined along the lanes, read at row `p`: the two rows joined. -/
theorem join2_apply (x₁ x₂ : S2000x128.Idx → EReal)
    (h : Shape.Concatenates [S2000x128, S2000x128] S2000x256 1) (p : Fin 2000) (k : Fin 256) :
    concatenate S2000x256 1 [⟨S2000x128, x₁⟩, ⟨S2000x128, x₂⟩] h (ix2 p k)
      = Cert.Sp.cat2 (fun c => x₁ (ix2 p c)) (fun c => x₂ (ix2 p c)) k := by
  unfold Cert.Sp.cat2
  split
  · next h1 =>
    refine concatenate_apply_piece (t := S2000x256) (1 : Fin 2) [⟨S2000x128, x₁⟩, ⟨S2000x128, x₂⟩] h (ix2 p k) 0 (by show 0 < 2; omega) S2000x128 x₁ rfl rfl 0 rfl
      (ix2 p ⟨k.val, h1⟩) (fun b hb => ?_) ?_
    · match b with
      | ⟨0, _⟩ => rfl
      | ⟨1, _⟩ => exact absurd rfl hb
    · show 0 + k.val = k.val
      omega
  · next h1 =>
    refine concatenate_apply_piece (t := S2000x256) (1 : Fin 2) [⟨S2000x128, x₁⟩, ⟨S2000x128, x₂⟩] h (ix2 p k) 1 (by show 1 < 2; omega) S2000x128 x₂ rfl rfl 128 rfl
      (ix2 p ⟨k.val - 128, by omega⟩) (fun b hb => ?_) ?_
    · match b with
      | ⟨0, _⟩ => rfl
      | ⟨1, _⟩ => exact absurd rfl hb
    · show 128 + (k.val - 128) = k.val
      omega

/-! ## The three matrix products of the body, read at a row and a column

Each is a product into a zero accumulator, so at the ideal values it is the plain sum over the contraction axis; the
four lemmas before each say which coordinates of the two operands the output index and the contraction index name. -/

theorem timeMap_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem timeMap_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem timeMap_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem timeMap_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The 256 -> 128 product: row `p` of the left block against column `c` of the right. -/
theorem timeMap_apply (l : FVec Ideal S2000x256 .bf16) (r : FVec Ideal S256x128 .bf16) (p : Fin 2000) (c : Fin 128) :
    matmul dot_S2000x256_S256x128_S2000x128_1_0_0_1_n_n none l r (constant (F := Ideal) S2000x128 .f32 0x00000000#32) (ix2 p c)
      = ∑ k : Fin 256, l (ix2 p k) * r (ix2 k c) := by
  show FloatOps.matmul dot_S2000x256_S256x128_S2000x128_1_0_0_1_n_n none l r (constant (F := Ideal) S2000x128 .f32 0x00000000#32) (ix2 p c) = _
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p c) ((contrEquiv1 dot_S2000x256_S256x128_S2000x128_1_0_0_1_n_n 256 rfl rfl).symm k) = ix2 p k := funext fun a => Fin.ext (by
    match a with
    | ⟨0, _⟩ => exact timeMap_lhs_0 _ _
    | ⟨1, _⟩ => exact (timeMap_lhs_1 _ _).trans hk)
  have er : dot_S2000x256_S256x128_S2000x128_1_0_0_1_n_n.rhsIdx (ix2 p c) ((contrEquiv1 dot_S2000x256_S256x128_S2000x128_1_0_0_1_n_n 256 rfl rfl).symm k) = ix2 k c := funext fun a => Fin.ext (by
    match a with
    | ⟨0, _⟩ => exact (timeMap_rhs_0 _ _).trans hk
    | ⟨1, _⟩ => exact timeMap_rhs_1 _ _)
  rw [el, er]

theorem mixMap_lhs_0 (i : S2000x384.Idx) (q : dot_S2000x384_S384x384_S2000x384_1_0_0_1_n_n.contr.Idx) :
    (dot_S2000x384_S384x384_S2000x384_1_0_0_1_n_n.lhsIdx i q 0).val = (i 0).val := by
  unfold DotDims.lhsIdx
  rw [dif_neg (show ¬(0 : Fin S2000x384.rank) ∈ dot_S2000x384_S384x384_S2000x384_1_0_0_1_n_n.lhsBatch by decide), dif_pos (show (0 : Fin S2000x384.rank) ∈ dot_S2000x384_S384x384_S2000x384_1_0_0_1_n_n.lhsNonContracting by decide)]
  rfl
theorem mixMap_lhs_1 (i : S2000x384.Idx) (q : dot_S2000x384_S384x384_S2000x384_1_0_0_1_n_n.contr.Idx) :
    (dot_S2000x384_S384x384_S2000x384_1_0_0_1_n_n.lhsIdx i q 1).val = (q ⟨0, by decide⟩).val :=
  dot_S2000x384_S384x384_S2000x384_1_0_0_1_n_n.lhsIdx_val_of_single rfl i q
theorem mixMap_rhs_0 (i : S2000x384.Idx) (q : dot_S2000x384_S384x384_S2000x384_1_0_0_1_n_n.contr.Idx) :
    (dot_S2000x384_S384x384_S2000x384_1_0_0_1_n_n.rhsIdx i q 0).val = (q ⟨0, by decide⟩).val :=
  dot_S2000x384_S384x384_S2000x384_1_0_0_1_n_n.rhsIdx_val_of_single rfl i q
theorem mixMap_rhs_1 (i : S2000x384.Idx) (q : dot_S2000x384_S384x384_S2000x384_1_0_0_1_n_n.contr.Idx) :
    (dot_S2000x384_S384x384_S2000x384_1_0_0_1_n_n.rhsIdx i q 1).val = (i 1).val := by
  unfold DotDims.rhsIdx
  rw [dif_neg (show ¬(1 : Fin S384x384.rank) ∈ dot_S2000x384_S384x384_S2000x384_1_0_0_1_n_n.rhsBatch by decide), dif_pos (show (1 : Fin S384x384.rank) ∈ dot_S2000x384_S384x384_S2000x384_1_0_0_1_n_n.rhsNonContracting by decide)]
  rfl

/-- The 384 -> 384 product: row `p` of the left block against column `c` of the right. -/
theorem mixMap_apply (l : FVec Ideal S2000x384 .bf16) (r : FVec Ideal S384x384 .bf16) (p : Fin 2000) (c : Fin 384) :
    matmul dot_S2000x384_S384x384_S2000x384_1_0_0_1_n_n none l r (constant (F := Ideal) S2000x384 .f32 0x00000000#32) (ix2 p c)
      = ∑ k : Fin 384, l (ix2 p k) * r (ix2 k c) := by
  show FloatOps.matmul dot_S2000x384_S384x384_S2000x384_1_0_0_1_n_n none l r (constant (F := Ideal) S2000x384 .f32 0x00000000#32) (ix2 p c) = _
  rw [Ideal.matmul_constant_zero_apply, ← Equiv.sum_comp (contrEquiv1 dot_S2000x384_S384x384_S2000x384_1_0_0_1_n_n 384 rfl rfl).symm]
  refine Finset.sum_congr rfl fun k _ => ?_
  have hk := contrEquiv1_symm_val dot_S2000x384_S384x384_S2000x384_1_0_0_1_n_n 384 rfl rfl k
  have el : dot_S2000x384_S384x384_S2000x384_1_0_0_1_n_n.lhsIdx (ix2 p c) ((contrEquiv1 dot_S2000x384_S384x384_S2000x384_1_0_0_1_n_n 384 rfl rfl).symm k) = ix2 p k := funext fun a => Fin.ext (by
    match a with
    | ⟨0, _⟩ => exact mixMap_lhs_0 _ _
    | ⟨1, _⟩ => exact (mixMap_lhs_1 _ _).trans hk)
  have er : dot_S2000x384_S384x384_S2000x384_1_0_0_1_n_n.rhsIdx (ix2 p c) ((contrEquiv1 dot_S2000x384_S384x384_S2000x384_1_0_0_1_n_n 384 rfl rfl).symm k) = ix2 k c := funext fun a => Fin.ext (by
    match a with
    | ⟨0, _⟩ => exact (mixMap_rhs_0 _ _).trans hk
    | ⟨1, _⟩ => exact mixMap_rhs_1 _ _)
  rw [el, er]

theorem outMap_lhs_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
theorem outMap_lhs_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
theorem outMap_rhs_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
theorem outMap_rhs_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The 384 -> 128 product: row `p` of the left block against column `c` of the right. -/
theorem outMap_apply (l : FVec Ideal S2000x384 .bf16) (r : FVec Ideal S384x128 .bf16) (p : Fin 2000) (c : Fin 128) :
    matmul dot_S2000x384_S384x128_S2000x128_1_0_0_1_n_n none l r (constant (F := Ideal) S2000x128 .f32 0x00000000#32) (ix2 p c)
      = ∑ k : Fin 384, l (ix2 p k) * r (ix2 k c) := by
  show FloatOps.matmul dot_S2000x384_S384x128_S2000x128_1_0_0_1_n_n none l r (constant (F := Ideal) S2000x128 .f32 0x00000000#32) (ix2 p c) = _
  rw [Ideal.matmul_constant_zero_apply, ← Equiv.sum_comp (contrEquiv1 dot_S2000x384_S384x128_S2000x128_1_0_0_1_n_n 384 rfl rfl).symm]
  refine Finset.sum_congr rfl fun k _ => ?_
  have hk := contrEquiv1_symm_val dot_S2000x384_S384x128_S2000x128_1_0_0_1_n_n 384 rfl rfl k
  have el : dot_S2000x384_S384x128_S2000x128_1_0_0_1_n_n.lhsIdx (ix2 p c) ((contrEquiv1 dot_S2000x384_S384x128_S2000x128_1_0_0_1_n_n 384 rfl rfl).symm k) = ix2 p k := funext fun a => Fin.ext (by
    match a with
    | ⟨0, _⟩ => exact outMap_lhs_0 _ _
    | ⟨1, _⟩ => exact (outMap_lhs_1 _ _).trans hk)
  have er : dot_S2000x384_S384x128_S2000x128_1_0_0_1_n_n.rhsIdx (ix2 p c) ((contrEquiv1 dot_S2000x384_S384x128_S2000x128_1_0_0_1_n_n 384 rfl rfl).symm k) = ix2 k c := funext fun a => Fin.ext (by
    match a with
    | ⟨0, _⟩ => exact (outMap_rhs_0 _ _).trans hk
    | ⟨1, _⟩ => exact outMap_rhs_1 _ _)
  rw [el, er]

/-! ## The body's three input-side payloads, read at a row

The residual row is [destination features | the constant encoded time | user embedding]; the key row is
[source features | the encoded time of this edge | user embedding]; the square map is passed on unchanged (at the ideal
values a change of float format is the identity). -/

/-- The residual block at row `p`. -/
theorem residual_apply (x7 : Vec Ideal S1x128 .f32) (x1 x3 : Vec Ideal S2000x128 .f32) (p : Fin 2000) (k : Fin 384) :
    k0_pay3 (F := Ideal) x7 x1 x3 (ix2 p k)
      = Cert.Sp.cat3 (fun c => x1 (ix2 p c)) (fun c => x7 (ix2 0 c)) (fun c => x3 (ix2 p c)) k := by
  unfold k0_pay3 k0_pay2
  dsimp only
  simp only [shapeCast_self]
  rw [join3_apply]
  simp only [broadcastTo_1b_ab_apply]

/-- The key block at row `p`. -/
theorem key_apply (x0 : Vec Ideal S2000x2 .f32) (x4 : Vec Ideal S1x128 .f32) (x5 : Vec Ideal S256x128 .f32)
    (x6 : Vec Ideal S1x128 .f32) (x2 : Vec Ideal S2000x128 .bf16) (x3 : Vec Ideal S2000x128 .f32) (p : Fin 2000) (k : Fin 384) :
    k0_pay4 (F := Ideal) x0 x4 x5 x6 x2 x3 (ix2 p k)
      = Cert.Sp.cat3 (fun c => x2 (ix2 p c))
          (Cert.Sp.jtRow (x0 (ix2 p 0)) (x0 (ix2 p 1)) (fun c => x4 (ix2 0 c)) (fun k c => x5 (ix2 k c)) (fun c => x6 (ix2 0 c)))
          (fun c => x3 (ix2 p c)) k := by
  unfold k0_pay4 k0_pay2
  dsimp only
  simp only [shapeCast_self]
  rw [join3_apply]
  simp only [truncf_apply, addf_apply, timeMap_apply, join2_apply, cos_apply, mulf_apply, broadcastTo_a1_ab_apply,
    broadcastTo_1b_ab_apply, sliceCol0_apply, sliceCol1_apply, shapeCast_self]
  rfl

/-- The square map is handed to the product as it was loaded. -/
theorem square_apply (x8 : Vec Ideal S384x384 .f32) (i j : Fin 384) :
    k0_pay5 (F := Ideal) x8 (ix2 i j) = x8 (ix2 i j) := by
  unfold k0_pay5
  simp only [shapeCast_self, truncf_apply]

/-! ## The body's stored payload, read at a row and a column

With `hp` the row before normalisation (key row through the square map, plus bias, plus residual row): the mean is the
lane sum over 384, the deviation `hp - mean` is formed twice by the body and is one expression, the variance is the lane
sum of its squares over 384, and the normalised row (times gain, plus bias) goes through the 384 -> 128 map. -/

/-- The stored block at row `p`, column `q`. -/
theorem stored_apply (Q : FVec Ideal S2000x384 .f32) (K : FVec Ideal S2000x384 .bf16) (W : FVec Ideal S384x384 .bf16)
    (fb lg lbn : Vec Ideal S1x384 .f32) (PT : Vec Ideal S384x128 .f32) (p : Fin 2000) (q : Fin 128) :
    k0_pay1 (F := Ideal) Q K W fb lg lbn PT (ix2 p q)
      = ∑ j : Fin 384, Cert.Sp.lnRow
            (Cert.Sp.hpK (fun i => K (ix2 p i)) (fun i => Q (ix2 p i)) (fun i j => W (ix2 i j)) (fun j => fb (ix2 0 j)))
            (fun j => lg (ix2 0 j)) (fun j => lbn (ix2 0 j)) j * PT (ix2 j q) := by
  unfold k0_pay1
  simp only [outMap_apply, truncf_apply, shapeCast_self, addf_apply, mulf_apply, subf_apply, divf_apply, rsqrt_apply,
    broadcastTo_1b_ab_apply, broadcastTo_a1_ab_apply, shapeCast_a_a1_apply, broadcast_apply, mixMap_apply]
  -- the mean's lane sum, then the variance's, then the mean's again inside the variance
  rw [laneSum_apply, laneSum_apply]
  simp only [addf_apply, mulf_apply, subf_apply, divf_apply, broadcastTo_1b_ab_apply, broadcastTo_a1_ab_apply,
    shapeCast_a_a1_apply, broadcast_apply, mixMap_apply]
  rw [laneSum_apply]
  simp only [addf_apply, broadcastTo_1b_ab_apply, mixMap_apply]
  unfold Cert.Sp.lnRow Cert.Sp.hpK
  rfl

/-! ## One edge's result from its own data -/

/-- Column `c` of one edge's result, from that edge's two time stamps, its three feature rows and the shared small
    arrays: the key row through the square map plus bias plus the residual row, normalised, through the 384 -> 128 map. -/
def rowOut (t0 t1 : EReal) (xd xs us fq : Fin 128 → EReal) (linT : Fin 256 → Fin 128 → EReal) (lb it : Fin 128 → EReal)
    (WT : Fin 384 → Fin 384 → EReal) (fb lg lbn : Fin 384 → EReal) (PT : Fin 384 → Fin 128 → EReal) (c : Fin 128) : EReal :=
  ∑ j : Fin 384, Cert.Sp.lnRow
      (Cert.Sp.hpK (Cert.Sp.cat3 xs (Cert.Sp.jtRow t0 t1 fq linT lb) us) (Cert.Sp.cat3 xd it us) WT fb) lg lbn j * PT j c

/-- The specification's row formula is `rowOut` of row `e` of the per-edge arrays. -/
theorem edgeK_eq_rowOut (ET : Cert.Sp.A2 50000 2) (XD XS US : Cert.Sp.A2 50000 128) (fq : Cert.Sp.A2 1 128)
    (linT : Cert.Sp.A2 256 128) (lb it : Cert.Sp.A2 1 128) (WT : Cert.Sp.A2 384 384) (fb lg lbn : Cert.Sp.A2 1 384)
    (PT : Cert.Sp.A2 384 128) (e : Fin 50000) (c : Fin 128) :
    Cert.Sp.edgeK ET XD XS US fq linT lb it WT fb lg lbn PT e c
      = rowOut (ET (ix2 e 0)) (ET (ix2 e 1)) (fun c => XD (ix2 e c)) (fun c => XS (ix2 e c)) (fun c => US (ix2 e c))
          (fun c => fq (ix2 0 c)) (fun k c => linT (ix2 k c)) (fun c => lb (ix2 0 c)) (fun c => it (ix2 0 c))
          (fun i j => WT (ix2 i j)) (fun j => fb (ix2 0 j)) (fun j => lg (ix2 0 j)) (fun j => lbn (ix2 0 j))
          (fun j c => PT (ix2 j c)) c := rfl

/-- What the body leaves in the output block, at row `p` and column `q`, from the thirteen loaded blocks. -/
theorem block_apply (x0 : Vec Ideal S2000x2 .f32) (x1 : Vec Ideal S2000x128 .f32) (x2 : Vec Ideal S2000x128 .bf16)
    (x3 : Vec Ideal S2000x128 .f32) (x4 : Vec Ideal S1x128 .f32) (x5 : Vec Ideal S256x128 .f32) (x6 x7 : Vec Ideal S1x128 .f32)
    (x8 : Vec Ideal S384x384 .f32) (x9 x10 x11 : Vec Ideal S1x384 .f32) (x12 : Vec Ideal S384x128 .f32)
    (p : Fin 2000) (q : Fin 128) :
    out0_13 (F := Ideal) x0 x1 x2 x3 x4 x5 x6 x7 x8 x9 x10 x11 x12 (ix2 p q)
      = rowOut (x0 (ix2 p 0)) (x0 (ix2 p 1)) (fun c => x1 (ix2 p c)) (fun c => x2 (ix2 p c)) (fun c => x3 (ix2 p c))
          (fun c => x4 (ix2 0 c)) (fun k c => x5 (ix2 k c)) (fun c => x6 (ix2 0 c)) (fun c => x7 (ix2 0 c))
          (fun i j => x8 (ix2 i j)) (fun j => x9 (ix2 0 j)) (fun j => x10 (ix2 0 j)) (fun j => x11 (ix2 0 j))
          (fun j c => x12 (ix2 j c)) q := by
  unfold out0_13
  rw [View.canon_unit_zero zeroOffsets]
  simp only [View.ld_unit_zero (S := S2000x2) zeroOffsets, View.ld_unit_zero (S := S2000x128) zeroOffsets,
    View.ld_unit_zero (S := S1x128) zeroOffsets, View.ld_unit_zero (S := S256x128) zeroOffsets,
    View.ld_unit_zero (S := S384x384) zeroOffsets, View.ld_unit_zero (S := S1x384) zeroOffsets,
    View.ld_unit_zero (S := S384x128) zeroOffsets]
  rw [stored_apply]
  simp only [key_apply, residual_apply, square_apply]
  rfl

variable (V : (c : Dev nD) → (b : Ref sig .tc) → Buf (Elt Ideal) ((c : Thread nD τ).loc b))

/-! ## The blocks the 25 points read and write

Point `t` reads rows `2000 t … 2000 t + 1999` of the four per-edge arrays and the whole of the nine small arrays, and
writes the same rows of the result. -/

/-- The index maps, decided over the 25 points: the four per-edge windows and the output window sit at block `(t, 0)`,
    the nine small windows at block `(0, 0)`. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = t.val ∧ win0_13.index t (1 : Fin 2) = 0) :=
  (by decide +kernel : ∀ t : Fin grid0.N, _)

/-- There are 25 points. -/
theorem point_lt (t : Fin cfg0.N) : t.val < 25 := by
  have h : cfg0.N = 25 := N_0
  have := t.isLt
  omega

/-! ## The thirteen input blocks as parts of their arrays

An element of a window's block sits in the array, on each axis, at the block index times the block size plus its own
coordinate; with the decided block indices that is row `2000 t + p` for the per-edge arrays and the same place for the
small ones. -/

/-- The time-stamp block at point `t`, row `p`, is row `2000 t + p` of the time-stamp array. -/
theorem read_times (c : Dev nD) (t : Fin cfg0.N) (p : Fin 2000) (e : Fin 50000) (he : e.val = t.val * 2000 + p.val)
    (j : Fin 2) :
    (iblk0 (F := Ideal) V c 0 t : Vec Ideal S2000x2 .f32) (ix2 p j) = (V c main_v6 : S50000x2.Idx → EReal) (ix2 e j) := by
  obtain ⟨⟨h0, h1⟩, -, -, -, -, -, -, -, -, -, -, -, -, -⟩ := index_facts t
  unfold iblk0
  rw [View.read_apply]
  show V c main_v6 _ = V c main_v6 _
  congr 1
  funext a
  apply Fin.ext
  match a with
  | ⟨0, _⟩ => show win0_0.index t 0 * 2000 + 1 * p.val = e.val; rw [h0, he]; omega
  | ⟨1, _⟩ => show win0_0.index t 1 * 2 + 1 * j.val = j.val; rw [h1]; omega

/-- The destination-feature block at point `t`, row `p`, is row `2000 t + p` of its array. -/
theorem read_dst (c : Dev nD) (t : Fin cfg0.N) (p : Fin 2000) (e : Fin 50000) (he : e.val = t.val * 2000 + p.val)
    (j : Fin 128) :
    (iblk0 (F := Ideal) V c 1 t : Vec Ideal S2000x128 .f32) (ix2 p j) = (V c main_v20 : S50000x128.Idx → EReal) (ix2 e j) := by
  obtain ⟨-, ⟨h0, h1⟩, -, -, -, -, -, -, -, -, -, -, -, -⟩ := index_facts t
  unfold iblk0
  rw [View.read_apply]
  show V c main_v20 _ = V c main_v20 _
  congr 1
  funext a
  apply Fin.ext
  match a with
  | ⟨0, _⟩ => show win0_1.index t 0 * 2000 + 1 * p.val = e.val; rw [h0, he]; omega
  | ⟨1, _⟩ => show win0_1.index t 1 * 128 + 1 * j.val = j.val; rw [h1]; omega

/-- The source-feature block at point `t`, row `p`, is row `2000 t + p` of its array. -/
theorem read_src (c : Dev nD) (t : Fin cfg0.N) (p : Fin 2000) (e : Fin 50000) (he : e.val = t.val * 2000 + p.val)
    (j : Fin 128) :
    (iblk0 (F := Ideal) V c 2 t : Vec Ideal S2000x128 .bf16) (ix2 p j) = (V c main_v28 : S50000x128.Idx → EReal) (ix2 e j) := by
  obtain ⟨-, -, ⟨h0, h1⟩, -, -, -, -, -, -, -, -, -, -, -⟩ := index_facts t
  unfold iblk0
  rw [View.read_apply]
  show V c main_v28 _ = V c main_v28 _
  congr 1
  funext a
  apply Fin.ext
  match a with
  | ⟨0, _⟩ => show win0_2.index t 0 * 2000 + 1 * p.val = e.val; rw [h0, he]; omega
  | ⟨1, _⟩ => show win0_2.index t 1 * 128 + 1 * j.val = j.val; rw [h1]; omega

/-- The user-embedding block at point `t`, row `p`, is row `2000 t + p` of its array. -/
theorem read_user (c : Dev nD) (t : Fin cfg0.N) (p : Fin 2000) (e : Fin 50000) (he : e.val = t.val * 2000 + p.val)
    (j : Fin 128) :
    (iblk0 (F := Ideal) V c 3 t : Vec Ideal S2000x128 .f32) (ix2 p j) = (V c main_v35 : S50000x128.Idx → EReal) (ix2 e j) := by
  obtain ⟨-, -, -, ⟨h0, h1⟩, -, -, -, -, -, -, -, -, -, -⟩ := index_facts t
  unfold iblk0
  rw [View.read_apply]
  show V c main_v35 _ = V c main_v35 _
  congr 1
  funext a
  apply Fin.ext
  match a with
  | ⟨0, _⟩ => show win0_3.index t 0 * 2000 + 1 * p.val = e.val; rw [h0, he]; omega
  | ⟨1, _⟩ => show win0_3.index t 1 * 128 + 1 * j.val = j.val; rw [h1]; omega

/-- The frequency block at every point is the frequency array. -/
theorem read_freq (c : Dev nD) (t : Fin cfg0.N) (i : Fin 1) (j : Fin 128) :
    (iblk0 (F := Ideal) V c 4 t : Vec Ideal S1x128 .f32) (ix2 i j) = (V c main_arg19 : S1x128.Idx → EReal) (ix2 i j) := by
  obtain ⟨-, -, -, -, ⟨h0, h1⟩, -, -, -, -, -, -, -, -, -⟩ := index_facts t
  unfold iblk0
  rw [View.read_apply]
  show V c main_arg19 _ = V c main_arg19 _
  congr 1
  funext a
  apply Fin.ext
  match a with
  | ⟨0, _⟩ => show win0_4.index t 0 * 1 + 1 * i.val = i.val; rw [h0]; omega
  | ⟨1, _⟩ => show win0_4.index t 1 * 128 + 1 * j.val = j.val; rw [h1]; omega

/-- The 256 -> 128 map's block at every point is the map. -/
theorem read_timeMap (c : Dev nD) (t : Fin cfg0.N) (i : Fin 256) (j : Fin 128) :
    (iblk0 (F := Ideal) V c 5 t : Vec Ideal S256x128 .f32) (ix2 i j) = (V c main_v41 : S256x128.Idx → EReal) (ix2 i j) := by
  obtain ⟨-, -, -, -, -, ⟨h0, h1⟩, -, -, -, -, -, -, -, -⟩ := index_facts t
  unfold iblk0
  rw [View.read_apply]
  show V c main_v41 _ = V c main_v41 _
  congr 1
  funext a
  apply Fin.ext
  match a with
  | ⟨0, _⟩ => show win0_5.index t 0 * 256 + 1 * i.val = i.val; rw [h0]; omega
  | ⟨1, _⟩ => show win0_5.index t 1 * 128 + 1 * j.val = j.val; rw [h1]; omega

/-- The 256 -> 128 map's bias block at every point is the bias. -/
theorem read_timeBias (c : Dev nD) (t : Fin cfg0.N) (i : Fin 1) (j : Fin 128) :
    (iblk0 (F := Ideal) V c 6 t : Vec Ideal S1x128 .f32) (ix2 i j) = (V c main_v42 : S1x128.Idx → EReal) (ix2 i j) := by
  obtain ⟨-, -, -, -, -, -, ⟨h0, h1⟩, -, -, -, -, -, -, -⟩ := index_facts t
  unfold iblk0
  rw [View.read_apply]
  show V c main_v42 _ = V c main_v42 _
  congr 1
  funext a
  apply Fin.ext
  match a with
  | ⟨0, _⟩ => show win0_6.index t 0 * 1 + 1 * i.val = i.val; rw [h0]; omega
  | ⟨1, _⟩ => show win0_6.index t 1 * 128 + 1 * j.val = j.val; rw [h1]; omega

/-- The constant encoded-time block at every point is that row. -/
theorem read_constTime (c : Dev nD) (t : Fin cfg0.N) (i : Fin 1) (j : Fin 128) :
    (iblk0 (F := Ideal) V c 7 t : Vec Ideal S1x128 .f32) (ix2 i j) = (V c main_v40 : S1x128.Idx → EReal) (ix2 i j) := by
  obtain ⟨-, -, -, -, -, -, -, ⟨h0, h1⟩, -, -, -, -, -, -⟩ := index_facts t
  unfold iblk0
  rw [View.read_apply]
  show V c main_v40 _ = V c main_v40 _
  congr 1
  funext a
  apply Fin.ext
  match a with
  | ⟨0, _⟩ => show win0_7.index t 0 * 1 + 1 * i.val = i.val; rw [h0]; omega
  | ⟨1, _⟩ => show win0_7.index t 1 * 128 + 1 * j.val = j.val; rw [h1]; omega

/-- The square map's block at every point is the map. -/
theorem read_square (c : Dev nD) (t : Fin cfg0.N) (i : Fin 384) (j : Fin 384) :
    (iblk0 (F := Ideal) V c 8 t : Vec Ideal S384x384 .f32) (ix2 i j) = (V c main_v44 : S384x384.Idx → EReal) (ix2 i j) := by
  obtain ⟨-, -, -, -, -, -, -, -, ⟨h0, h1⟩, -, -, -, -, -⟩ := index_facts t
  unfold iblk0
  rw [View.read_apply]
  show V c main_v44 _ = V c main_v44 _
  congr 1
  funext a
  apply Fin.ext
  match a with
  | ⟨0, _⟩ => show win0_8.index t 0 * 384 + 1 * i.val = i.val; rw [h0]; omega
  | ⟨1, _⟩ => show win0_8.index t 1 * 384 + 1 * j.val = j.val; rw [h1]; omega

/-- The square map's bias block at every point is the bias. -/
theorem read_bias (c : Dev nD) (t : Fin cfg0.N) (i : Fin 1) (j : Fin 384) :
    (iblk0 (F := Ideal) V c 9 t : Vec Ideal S1x384 .f32) (ix2 i j) = (V c main_v45 : S1x384.Idx → EReal) (ix2 i j) := by
  obtain ⟨-, -, -, -, -, -, -, -, -, ⟨h0, h1⟩, -, -, -, -⟩ := index_facts t
  unfold iblk0
  rw [View.read_apply]
  show V c main_v45 _ = V c main_v45 _
  congr 1
  funext a
  apply Fin.ext
  match a with
  | ⟨0, _⟩ => show win0_9.index t 0 * 1 + 1 * i.val = i.val; rw [h0]; omega
  | ⟨1, _⟩ => show win0_9.index t 1 * 384 + 1 * j.val = j.val; rw [h1]; omega

/-- The normalisation's gain block at every point is the gain. -/
theorem read_gain (c : Dev nD) (t : Fin cfg0.N) (i : Fin 1) (j : Fin 384) :
    (iblk0 (F := Ideal) V c 10 t : Vec Ideal S1x384 .f32) (ix2 i j) = (V c main_v46 : S1x384.Idx → EReal) (ix2 i j) := by
  obtain ⟨-, -, -, -, -, -, -, -, -, -, ⟨h0, h1⟩, -, -, -⟩ := index_facts t
  unfold iblk0
  rw [View.read_apply]
  show V c main_v46 _ = V c main_v46 _
  congr 1
  funext a
  apply Fin.ext
  match a with
  | ⟨0, _⟩ => show win0_10.index t 0 * 1 + 1 * i.val = i.val; rw [h0]; omega
  | ⟨1, _⟩ => show win0_10.index t 1 * 384 + 1 * j.val = j.val; rw [h1]; omega

/-- The normalisation's bias block at every point is that bias. -/
theorem read_shift (c : Dev nD) (t : Fin cfg0.N) (i : Fin 1) (j : Fin 384) :
    (iblk0 (F := Ideal) V c 11 t : Vec Ideal S1x384 .f32) (ix2 i j) = (V c main_v47 : S1x384.Idx → EReal) (ix2 i j) := by
  obtain ⟨-, -, -, -, -, -, -, -, -, -, -, ⟨h0, h1⟩, -, -⟩ := index_facts t
  unfold iblk0
  rw [View.read_apply]
  show V c main_v47 _ = V c main_v47 _
  congr 1
  funext a
  apply Fin.ext
  match a with
  | ⟨0, _⟩ => show win0_11.index t 0 * 1 + 1 * i.val = i.val; rw [h0]; omega
  | ⟨1, _⟩ => show win0_11.index t 1 * 384 + 1 * j.val = j.val; rw [h1]; omega

/-- The 384 -> 128 map's block at every point is the map. -/
theorem read_outMap (c : Dev nD) (t : Fin cfg0.N) (i : Fin 384) (j : Fin 128) :
    (iblk0 (F := Ideal) V c 12 t : Vec Ideal S384x128 .f32) (ix2 i j) = (V c main_v49 : S384x128.Idx → EReal) (ix2 i j) := by
  obtain ⟨-, -, -, -, -, -, -, -, -, -, -, -, ⟨h0, h1⟩, -⟩ := index_facts t
  unfold iblk0
  rw [View.read_apply]
  show V c main_v49 _ = V c main_v49 _
  congr 1
  funext a
  apply Fin.ext
  match a with
  | ⟨0, _⟩ => show win0_12.index t 0 * 384 + 1 * i.val = i.val; rw [h0]; omega
  | ⟨1, _⟩ => show win0_12.index t 1 * 128 + 1 * j.val = j.val; rw [h1]; omega

/-! ## What a point writes back, and the array -/

/-- What point `t` leaves at row `p`, column `q` of the output block is the row formula at edge `2000 t + p`. -/
theorem point_apply (c : Dev nD) (t : Fin cfg0.N) (p : Fin 2000) (q : Fin 128) (e : Fin 50000)
    (he : e.val = t.val * 2000 + p.val) :
    out0_13 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) (iblk0 V c 12 t) (ix2 p q)
      = Cert.Sp.edgeK (V c main_v6) (V c main_v20) (V c main_v28) (V c main_v35) (V c main_arg19) (V c main_v41)
          (V c main_v42) (V c main_v40) (V c main_v44) (V c main_v45) (V c main_v46) (V c main_v47) (V c main_v49) e q := by
  refine (block_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t) p q).trans ?_
  rw [edgeK_eq_rowOut]
  simp only [read_times V c t p e he, read_dst V c t p e he, read_src V c t p e he, read_user V c t p e he,
    read_freq V c t, read_timeMap V c t, read_timeBias V c t, read_constTime V c t, read_square V c t, read_bias V c t,
    read_gain V c t, read_shift V c t, read_outMap V c t]

/-- The row formula over the whole result array. -/
abbrev edgeArray (c : Dev nD) : S50000x128.Idx → EReal := fun i =>
  Cert.Sp.edgeK (V c main_v6) (V c main_v20) (V c main_v28) (V c main_v35) (V c main_arg19) (V c main_v41)
    (V c main_v42) (V c main_v40) (V c main_v44) (V c main_v45) (V c main_v46) (V c main_v47) (V c main_v49) (i 0) (i 1)

/-- The row formula over the array, at an index whose two coordinates are `e` and `q`. -/
theorem edgeArray_apply (c : Dev nD) (i : S50000x128.Idx) (e : Fin 50000) (q : Fin 128)
    (h0 : (i 0).val = e.val) (h1 : (i 1).val = q.val) :
    edgeArray V c i
      = Cert.Sp.edgeK (V c main_v6) (V c main_v20) (V c main_v28) (V c main_v35) (V c main_arg19) (V c main_v41)
          (V c main_v42) (V c main_v40) (V c main_v44) (V c main_v45) (V c main_v46) (V c main_v47) (V c main_v49) e q := by
  have hi : i = ix2 e q := funext fun a => Fin.ext (match a with | ⟨0, _⟩ => h0 | ⟨1, _⟩ => h1)
  subst hi
  rfl

/-- What point `t` writes back is block `t` of the row formula over the whole array. -/
theorem flushed_eq (c : Dev nD) (t : Fin cfg0.N) :
    (dat0 (F := Ideal) V c).flushed 13 t = ((cfg0.win 13).blk t).view.read (Elt Ideal) (edgeArray V c) := by
  show (cfg0.win 13).cut (grid0.coords t) ((dat0 (F := Ideal) V c).after 13 t) = _
  rw [after0_13]
  funext j
  obtain ⟨p, q, rfl⟩ : ∃ (p : Fin 2000) (q : Fin 128), j = ix2 p q := ⟨j 0, j 1, eq_ix2 j⟩
  have ht := point_lt t
  obtain ⟨-, -, -, -, -, -, -, -, -, -, -, -, -, ⟨h0, h1⟩⟩ := index_facts t
  refine (point_apply V c t p q ⟨t.val * 2000 + p.val, by omega⟩ rfl).trans ?_
  show _ = edgeArray V c (((cfg0.win 13).blk t).view.emb (ix2 p q))
  refine (edgeArray_apply V c (((cfg0.win 13).blk t).view.emb (ix2 p q)) ⟨t.val * 2000 + p.val, by omega⟩ q ?_ ?_).symm
  · show win0_13.index t 0 * 2000 + 1 * p.val = t.val * 2000 + p.val
    rw [h0]; omega
  · show win0_13.index t 1 * 128 + 1 * q.val = q.val
    rw [h1]; omega

/-- An index of the array is in point `t`'s block iff each coordinate is in the block's range on its axis. -/
theorem mem_block (t : Fin cfg0.N) (i : S50000x128.Idx) :
    i ∈ ((cfg0.win 13).blk t).view.set ↔ ∀ a : Fin 2, win0_13.index t a * S2000x128.size a ≤ (i a).val
      ∧ (i a).val < win0_13.index t a * S2000x128.size a + S2000x128.size a := by
  show i ∈ ((View.whole main_v50).slice (win0_13.rect t)).set ↔ _
  rw [View.set_slice_whole, Rect.mem_set_unit]
  exact Iff.rfl

/-- Every index of the result array is in the block of the point that holds its row: row `r` is in block `r / 2000`. -/
theorem covered (i : S50000x128.Idx) :
    ∃ t : Fin cfg0.N, (cfg0.win 13).flush t = true ∧ i ∈ ((cfg0.win 13).blk t).view.set := by
  have hN : cfg0.N = 25 := N_0
  have hi0 : (i 0).val < 50000 := (i 0).isLt
  have hi1 : (i 1).val < 128 := (i 1).isLt
  let t : Fin cfg0.N := ⟨(i 0).val / 2000, by omega⟩
  obtain ⟨-, -, -, -, -, -, -, -, -, -, -, -, -, ⟨h0, h1⟩⟩ := index_facts t
  have ht : t.val = (i 0).val / 2000 := rfl
  refine ⟨t, flush0_13 t, ?_⟩
  rw [mem_block]
  intro a
  match a with
  | ⟨0, _⟩ =>
    show win0_13.index t 0 * 2000 ≤ (i 0).val ∧ (i 0).val < win0_13.index t 0 * 2000 + 2000
    rw [h0, ht]; omega
  | ⟨1, _⟩ =>
    show win0_13.index t 1 * 128 ≤ (i 1).val ∧ (i 1).val < win0_13.index t 1 * 128 + 128
    rw [h1]; omega

/-- The array the edge stage leaves, at edge `e` and column `q`, is the row formula of the arrays the
    stage was entered with. -/
theorem edge_value (c : Dev nD) (e : Fin 50000) (q : Fin 128) :
    ((dat0 (F := Ideal) V c).arrAt 13 cfg0.N : S50000x128.Idx → EReal) (ix2 e q)
      = Cert.Sp.edgeK (V c main_v6) (V c main_v20) (V c main_v28) (V c main_v35) (V c main_arg19) (V c main_v41)
          (V c main_v42) (V c main_v40) (V c main_v44) (V c main_v45) (V c main_v46) (V c main_v47) (V c main_v49) e q := by
  have hfin := (dat0 (F := Ideal) V c).arrAt_eq_of_cover 13 (edgeArray V c) (fun t _ => flushed_eq V c t) covered
  exact congrFun hfin (ix2 e q)

end Cert.KernelIdeal.EdgeValue

end
-- ==== Proof.KMerge.lean ====
import proofs.«420412_j74302934220861_3_alg».proof.Proof.Gen.KernelIdeal.Frame
import proofs.«420412_j74302934220861_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The merge stage's array

The merge stage runs over 11 blocks of 5000 rows. At each block it reads that block's rows of the
feature array and of the projected-sum array and the whole of four small arrays, and writes the block's
5000 x 128 result. So the array it leaves holds, at row `r` and column `q`, the row formula
`Cert.Sp.mergeK` of row `r`: block `r / 5000` covers row `r`, and the body's arithmetic is row by row.
-/

set_option maxRecDepth 16384

open scoped BigOperators

noncomputable section

namespace Cert.KernelIdeal.MergeValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at one entry -/

/-- In the 5000 x 128 by 128 x 128 product, which contracts the left operand's columns with the right
    operand's rows, the left operand is read at the output's row … -/
theorem mm_lhs_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and at the contraction position as its column; -/
theorem mm_lhs_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right operand at the contraction position as its row … -/
theorem mm_rhs_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and at the output's column. -/
theorem mm_rhs_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into a zero accumulator, at row `p` and column `q`: the sum over the 128
    contraction positions of the left row's entries times the right column's. -/
theorem mm_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun x => Fin.ext (by
      match x with
      | ⟨0, _⟩ => exact mm_lhs_0 _ _
      | ⟨1, _⟩ => exact (mm_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun x => Fin.ext (by
      match x with
      | ⟨0, _⟩ => exact (mm_rhs_0 _ _).trans hk
      | ⟨1, _⟩ => exact mm_rhs_1 _ _)
  rw [el, er]

/-- A 1 x 128 row spread over the 5000 rows reads, at row `p` and column `q`, the row's entry `q`. -/
theorem row_apply (b : S1x128.Idx → EReal) (p : Fin 5000) (q : Fin 128) :
    broadcastTo S5000x128 b broadcasts_S1x128_S5000x128 (ix2 p q) = b (ix2 0 q) := by
  refine broadcastTo_apply b broadcasts_S1x128_S5000x128 (ix2 p q) (ix2 0 q) fun x => ?_
  match x with
  | ⟨0, _⟩ => rfl
  | ⟨1, _⟩ => rfl

/-- The body's result at row `p` and column `q` of a block, from the blocks it loaded: the merged row
    formula of row `p` of the two row blocks and of the four small arrays. Rounding to the narrow
    format does nothing to an extended real, so the two products are plain sums. -/
theorem pay_apply (x : Vec Ideal S5000x128 .f32) (w1 : Vec Ideal S128x128 .f32) (b1 : Vec Ideal S1x128 .f32)
    (g : Vec Ideal S5000x128 .f32) (w2 : Vec Ideal S128x128 .f32) (b2 : Vec Ideal S1x128 .f32)
    (p : Fin 5000) (q : Fin 128) :
    (k1_pay1 (F := Ideal) x w1 b1 g w2 b2 : S5000x128.Idx → EReal) (ix2 p q)
      = Cert.Sp.mrow (fun i => x (ix2 p i)) (fun j => g (ix2 p j)) (fun i j => w1 (ix2 i j)) (fun j => b1 (ix2 0 j))
          (fun j c => w2 (ix2 j c)) (fun c => b2 (ix2 0 c)) q := by
  unfold k1_pay1 Cert.Sp.mrow
  simp only [shapeCast_self]
  rw [addf_apply, mm_apply, row_apply]
  refine congrArg (· + b2 (ix2 0 q)) (Finset.sum_congr rfl fun j _ => ?_)
  rw [truncf_apply, truncf_apply, select_apply, cmpf_apply, mulf_apply, broadcast_apply, broadcast_apply,
    addf_apply, addf_apply, mm_apply, row_apply]
  simp only [truncf_apply]
  rfl

/-! ## The blocks the body reads, as entries of the arrays -/

/-- The zero offsets, however they are spelt. -/
theorem hz : (![0, 0] : Fin 2 → Nat) = fun _ => 0 :=
  funext fun a => match a with | ⟨0, _⟩ => rfl | ⟨1, _⟩ => rfl

/-- The index maps over the 11 points: the two row windows and the result window sit at block `t` of
    the rows and block 0 of the columns; the four small windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the feature window's block at point `t` is row `5000 t + p` of the feature array. -/
theorem xblk_apply (c : Dev nD) (t : Fin cfg1.N) (p : Fin 5000) (i : Fin 128) (h : t.val * 5000 + p.val < 55000) :
    (iblk1 (F := Ideal) V c 0 t : S5000x128.Idx → EReal) (ix2 p i)
      = (V c main_v75 : S55000x128.Idx → EReal) (ix2 ⟨t.val * 5000 + p.val, h⟩ i) := by
  obtain ⟨e0, e1, -⟩ := idx_facts t
  show (V c main_v75 : S55000x128.Idx → EReal) (((cfg1.win 0).blk t).view.emb (ix2 p i)) = _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * i.val = i.val; rw [e1]; omega

/-- Row `p` of the projected-sum window's block at point `t` is row `5000 t + p` of that array. -/
theorem ablk_apply (c : Dev nD) (t : Fin cfg1.N) (p : Fin 5000) (i : Fin 128) (h : t.val * 5000 + p.val < 55000) :
    (iblk1 (F := Ideal) V c 1 t : S5000x128.Idx → EReal) (ix2 p i)
      = (V c main_v76 : S55000x128.Idx → EReal) (ix2 ⟨t.val * 5000 + p.val, h⟩ i) := by
  obtain ⟨-, -, e0, e1, -⟩ := idx_facts t
  show (V c main_v76 : S55000x128.Idx → EReal) (((cfg1.win 1).blk t).view.emb (ix2 p i)) = _
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * i.val = i.val; rw [e1]; omega

/-- The first weight window's block is the whole first weight array at every point. -/
theorem w1blk_apply (c : Dev nD) (t : Fin cfg1.N) (i j : Fin 128) :
    (iblk1 (F := Ideal) V c 2 t : S128x128.Idx → EReal) (ix2 i j) = (V c main_v55 : S128x128.Idx → EReal) (ix2 i j) := by
  obtain ⟨-, -, -, -, e0, e1, -⟩ := idx_facts t
  show (V c main_v55 : S128x128.Idx → EReal) (((cfg1.win 2).blk t).view.emb (ix2 i j)) = _
  refine congrArg _ (funext fun a => Fin.ext ?_)
  match a with
  | ⟨0, _⟩ => show win1_2.index t (0 : Fin 2) * 128 + 1 * i.val = i.val; rw [e0]; omega
  | ⟨1, _⟩ => show win1_2.index t (1 : Fin 2) * 128 + 1 * j.val = j.val; rw [e1]; omega

/-- The first bias window's block is the whole first bias row at every point. -/
theorem b1blk_apply (c : Dev nD) (t : Fin cfg1.N) (j : Fin 128) :
    (iblk1 (F := Ideal) V c 3 t : S1x128.Idx → EReal) (ix2 0 j) = (V c main_v56 : S1x128.Idx → EReal) (ix2 0 j) := by
  obtain ⟨-, -, -, -, -, -, e0, e1, -⟩ := idx_facts t
  show (V c main_v56 : S1x128.Idx → EReal) (((cfg1.win 3).blk t).view.emb (ix2 0 j)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

/-- The second weight window's block is the whole second weight array at every point. -/
theorem w2blk_apply (c : Dev nD) (t : Fin cfg1.N) (i j : Fin 128) :
    (iblk1 (F := Ideal) V c 4 t : S128x128.Idx → EReal) (ix2 i j) = (V c main_v57 : S128x128.Idx → EReal) (ix2 i j) := by
  obtain ⟨-, -, -, -, -, -, -, -, e0, e1, -⟩ := idx_facts t
  show (V c main_v57 : S128x128.Idx → EReal) (((cfg1.win 4).blk t).view.emb (ix2 i j)) = _
  refine congrArg _ (funext fun a => Fin.ext ?_)
  match a with
  | ⟨0, _⟩ => show win1_4.index t (0 : Fin 2) * 128 + 1 * i.val = i.val; rw [e0]; omega
  | ⟨1, _⟩ => show win1_4.index t (1 : Fin 2) * 128 + 1 * j.val = j.val; rw [e1]; omega

/-- The second bias window's block is the whole second bias row at every point. -/
theorem b2blk_apply (c : Dev nD) (t : Fin cfg1.N) (j : Fin 128) :
    (iblk1 (F := Ideal) V c 5 t : S1x128.Idx → EReal) (ix2 0 j) = (V c main_v58 : S1x128.Idx → EReal) (ix2 0 j) := by
  obtain ⟨-, -, -, -, -, -, -, -, -, -, e0, e1, -⟩ := idx_facts t
  show (V c main_v58 : S1x128.Idx → EReal) (((cfg1.win 5).blk t).view.emb (ix2 0 j)) = _
  refine congrArg _ (funext fun a => Fin.ext ?_)
  match a with
  | ⟨0, _⟩ => show win1_5.index t (0 : Fin 2) * 1 + 1 * 0 = 0; rw [e0]
  | ⟨1, _⟩ => show win1_5.index t (1 : Fin 2) * 128 + 1 * j.val = j.val; rw [e1]; omega

/-! ## What each point writes back, and the array -/

/-- The row formula as one function of the result array's index. -/
def mergeArr (c : Dev nD) : S55000x128.Idx → EReal := fun i =>
  Cert.Sp.mergeK (V c main_v75) (V c main_v76) (V c main_v55) (V c main_v56) (V c main_v57) (V c main_v58)
    ⟨(i 0).val, idx2_lt0 i⟩ ⟨(i 1).val, idx2_lt1 i⟩

/-- Entry (`p`, `q`) of the result window's block at point `t` sits at row `5000 t + p`, column `q`. -/
theorem oblk_emb (t : Fin cfg1.N) (p : Fin 5000) (q : Fin 128) (h : t.val * 5000 + p.val < 55000) :
    (((cfg1.win 6).blk t).view.emb (ix2 p q) : S55000x128.Idx) = ix2 ⟨t.val * 5000 + p.val, h⟩ q := by
  obtain ⟨-, -, -, -, -, -, -, -, -, -, -, -, e0, e1⟩ := idx_facts t
  refine funext fun a => Fin.ext ?_
  match a with
  | ⟨0, _⟩ => show win1_6.index t (0 : Fin 2) * 5000 + 1 * p.val = t.val * 5000 + p.val; rw [e0]; omega
  | ⟨1, _⟩ => show win1_6.index t (1 : Fin 2) * 128 + 1 * q.val = q.val; rw [e1]; omega

/-- What point `t` writes back is block `t` of the row formula: the body's one store fills the block
    with its arithmetic of the loaded blocks, and those are the arrays' rows `5000 t …` and the whole
    small arrays. -/
theorem flushed_eq (c : Dev nD) (t : Fin cfg1.N) :
    (dat1 (F := Ideal) V c).flushed 6 t = ((cfg1.win 6).blk t).view.read (Elt Ideal) (mergeArr V c) := by
  have hN : t.val < 11 := lt_of_lt_of_eq t.isLt N_1
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  have h : t.val * 5000 + p.val < 55000 := by have := p.isLt; omega
  show (k1_pay1 (F := Ideal) (iblk1 V c 0 t) (iblk1 V c 2 t) (iblk1 V c 3 t) (iblk1 V c 1 t) (iblk1 V c 4 t)
      (iblk1 V c 5 t) : S5000x128.Idx → EReal) (ix2 p q) = mergeArr V c (((cfg1.win 6).blk t).view.emb (ix2 p q))
  rw [oblk_emb t p q h]
  refine (pay_apply (iblk1 V c 0 t) (iblk1 V c 2 t) (iblk1 V c 3 t) (iblk1 V c 1 t) (iblk1 V c 4 t)
    (iblk1 V c 5 t) p q).trans ?_
  unfold mergeArr Cert.Sp.mergeK
  simp only [xblk_apply V c t p _ h, ablk_apply V c t p _ h, w1blk_apply, b1blk_apply, w2blk_apply, b2blk_apply]

/-- An index of the result array is in point `t`'s block iff each coordinate is in the block's range. -/
theorem mem_blk (t : Fin cfg1.N) (i : S55000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v77).slice (win1_6.rect t)).set ↔ _
  rw [View.set_slice_whole, Rect.mem_set_unit]
  exact Iff.rfl

/-- Every index of the result array is in the block of the point its row divided by 5000 names. -/
theorem covered (i : S55000x128.Idx) :
    ∃ t : Fin cfg1.N, (cfg1.win 6).flush t = true ∧ i ∈ ((cfg1.win 6).blk t).view.set := by
  have hi0 : (i 0).val < 55000 := idx2_lt0 i
  have hi1 : (i 1).val < 128 := idx2_lt1 i
  have hN : cfg1.N = 11 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- The array the merge stage leaves, at row `r` and column `q`, is the row formula of the arrays the
    stage was entered with. -/
theorem merge_value (c : Dev nD) (r : Fin 55000) (q : Fin 128) :
    ((dat1 (F := Ideal) V c).arrAt 6 cfg1.N : S55000x128.Idx → EReal) (ix2 r q)
      = Cert.Sp.mergeK (V c main_v75) (V c main_v76) (V c main_v55) (V c main_v56) (V c main_v57) (V c main_v58) r q := by
  refine (congrFun ((dat1 (F := Ideal) V c).arrAt_eq_of_cover 6 (mergeArr V c) (fun t _ => flushed_eq V c t)
    (covered)) (ix2 r q)).trans ?_
  rfl

end Cert.KernelIdeal.MergeValue

end
-- ==== Proof.KHost0.lean ====
import proofs.«420412_j74302934220861_3_alg».proof.Proof.Gen.KernelIdeal.Frame
import proofs.«420412_j74302934220861_3_alg».proof.Proof.RefRead
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-!
# The arrays the edge stage is entered with

Before its edge stage the first program gathers the per-edge arrays (time stamps by edge id, destination
and source features, user embeddings by the gathered user index), computes the constant encoded time, and
lays the weights out: the 256 -> 128 map transposed, the product of the two 384 x 384 maps transposed,
biases and gains as 1 x n rows, the 384-wide part of the 512 -> 128 map transposed. The gathers and the
constant encoded time are the very operations the second program applies to the same arguments, so they are
stated as the second program's stage functions of the arguments; the layouts are read at an index.
-/

set_option maxRecDepth 16384

open scoped BigOperators

noncomputable section

namespace Cert.KernelIdeal.Host0

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The gathered time stamps are the second program's gather of the same arguments. -/
theorem v6_eq (c : Dev nD) : (V1 m ρ c main_v6 : S50000x2.Idx → EReal)
    = Cert.ReferenceIdeal.ReadP.val_main_v157 (F := Ideal) (m ((c : Thread nD τ).loc main_arg2)) (m ((c : Thread nD τ).loc main_arg9)) := by
  -- both sides apply the same operations to the same arguments: a negative index has the extent added, then the gather
  show StableHlo.after hostOps0 _ (Proc.devRef .tc main_v6) = _
  after_results_simp
  rfl
/-- The gathered destination features. -/
theorem v20_eq (c : Dev nD) : (V1 m ρ c main_v20 : S50000x128.Idx → EReal)
    = Cert.ReferenceIdeal.ReadP.val_main_v203 (F := Ideal) (m ((c : Thread nD τ).loc main_arg0)) (m ((c : Thread nD τ).loc main_arg8)) := by
  -- the same operations on the same arguments again: the index wrapped, then the gather of rows
  show StableHlo.after hostOps0 _ (Proc.devRef .tc main_v20) = _
  after_results_simp
  rfl
/-- The gathered source features (kept in full precision for the merge stage). -/
theorem v27_eq (c : Dev nD) : (V1 m ρ c main_v27 : S50000x128.Idx → EReal)
    = Cert.ReferenceIdeal.ReadP.val_main_v212 (F := Ideal) (m ((c : Thread nD τ).loc main_arg0)) (m ((c : Thread nD τ).loc main_arg7)) := by
  -- the same operations on the same arguments again: the index wrapped, then the gather of rows
  show StableHlo.after hostOps0 _ (Proc.devRef .tc main_v27) = _
  after_results_simp
  rfl
/-- The gathered source features in the narrower format: the same extended reals. -/
theorem v28_eq (c : Dev nD) : (V1 m ρ c main_v28 : S50000x128.Idx → EReal)
    = Cert.ReferenceIdeal.ReadP.val_main_v212 (F := Ideal) (m ((c : Thread nD τ).loc main_arg0)) (m ((c : Thread nD τ).loc main_arg7)) := by
  -- narrowing the format changes no extended real, so this is the same gather as the one above
  show StableHlo.after hostOps0 _ (Proc.devRef .tc main_v28) = _
  after_results_simp
  rfl
/-- The gathered user embeddings. -/
theorem v35_eq (c : Dev nD) : (V1 m ρ c main_v35 : S50000x128.Idx → EReal)
    = Cert.ReferenceIdeal.ReadP.val_main_v196 (F := Ideal) (m ((c : Thread nD τ).loc main_arg1)) (m ((c : Thread nD τ).loc main_arg3)) (m ((c : Thread nD τ).loc main_arg9)) := by
  -- both sides gather an index by the wrapped index, wrap the result, and gather rows by it
  show StableHlo.after hostOps0 _ (Proc.devRef .tc main_v35) = _
  after_results_simp
  rfl
/-- The constant encoded time. -/
theorem v40_eq (c : Dev nD) : (V1 m ρ c main_v40 : S1x128.Idx → EReal)
    = Cert.ReferenceIdeal.ReadP.val_main_v189 (F := Ideal) (m ((c : Thread nD τ).loc main_arg20)) (m ((c : Thread nD τ).loc main_arg21)) := by
  -- both sides are the row of ones times the transposed 128 x 256 matrix, plus the 128-vector as a row
  show StableHlo.after hostOps0 _ (Proc.devRef .tc main_v40) = _
  after_results_simp
  rfl
/-- The frequencies are an argument no operation writes. -/
theorem arg19_eq (c : Dev nD) : (V1 m ρ c main_arg19 : S1x128.Idx → EReal) = (m ((c : Thread nD τ).loc main_arg19)) := by
  show StableHlo.after hostOps0 _ (Proc.devRef .tc main_arg19) = _
  after_results_simp
/-- The 256 -> 128 map transposed. -/
theorem v41_apply (c : Dev nD) (k : Fin 256) (q : Fin 128) :
    (V1 m ρ c main_v41 : S256x128.Idx → EReal) (ix2 k q) = ((m ((c : Thread nD τ).loc main_arg20)) : S128x256.Idx → EReal) (ix2 q k) := by
  show StableHlo.after hostOps0 _ (Proc.devRef .tc main_v41) _ = _
  after_results_simp
  exact transpose_apply [1, 0] _ transposes_S128x256_S256x128_1_0 (ix2 k q) (ix2 q k) (fun b => match b with
    | ⟨0, _⟩ => rfl
    | ⟨1, _⟩ => rfl)
/-- Its bias as a row. -/
theorem v42_apply (c : Dev nD) (q : Fin 128) :
    (V1 m ρ c main_v42 : S1x128.Idx → EReal) (ix2 0 q) = ((m ((c : Thread nD τ).loc main_arg21)) : S128.Idx → EReal) (ix1 q) := by
  show StableHlo.after hostOps0 _ (Proc.devRef .tc main_v42) _ = _
  after_results_simp
  -- a 1 x 128 row and a 128-vector have the same row-major order: position 0 * 128 + q is position q
  refine shapeCast_apply (s := S128) (t := S1x128) _ shapeCasts_S128_S1x128 (ix2 0 q) (ix1 q) ?_
  rw [Shape.rowMajor_val_one, Shape.rowMajor_val_two]
  show q.val = 0 * 128 + q.val
  omega
/-- The operand indices of the 384 x 384 by 384 x 384 product at output index `j` and contraction index `q`, one axis at a time. -/
private theorem dot_lhs_0 (j : S384x384.Idx) (q : dot_S384x384_S384x384_S384x384_1_0_0_1_n_n.contr.Idx) :
    (dot_S384x384_S384x384_S384x384_1_0_0_1_n_n.lhsIdx j q 0).val = (j 0).val := by
  unfold DotDims.lhsIdx
  rw [dif_neg (show ¬(0 : Fin S384x384.rank) ∈ dot_S384x384_S384x384_S384x384_1_0_0_1_n_n.lhsBatch by decide), dif_pos (show (0 : Fin S384x384.rank) ∈ dot_S384x384_S384x384_S384x384_1_0_0_1_n_n.lhsNonContracting by decide)]
  rfl
private theorem dot_lhs_1 (j : S384x384.Idx) (q : dot_S384x384_S384x384_S384x384_1_0_0_1_n_n.contr.Idx) :
    (dot_S384x384_S384x384_S384x384_1_0_0_1_n_n.lhsIdx j q 1).val = (q ⟨0, by decide⟩).val :=
  dot_S384x384_S384x384_S384x384_1_0_0_1_n_n.lhsIdx_val_of_single rfl j q
private theorem dot_rhs_0 (j : S384x384.Idx) (q : dot_S384x384_S384x384_S384x384_1_0_0_1_n_n.contr.Idx) :
    (dot_S384x384_S384x384_S384x384_1_0_0_1_n_n.rhsIdx j q 0).val = (q ⟨0, by decide⟩).val :=
  dot_S384x384_S384x384_S384x384_1_0_0_1_n_n.rhsIdx_val_of_single rfl j q
private theorem dot_rhs_1 (j : S384x384.Idx) (q : dot_S384x384_S384x384_S384x384_1_0_0_1_n_n.contr.Idx) :
    (dot_S384x384_S384x384_S384x384_1_0_0_1_n_n.rhsIdx j q 1).val = (j 1).val := by
  unfold DotDims.rhsIdx
  rw [dif_neg (show ¬(1 : Fin S384x384.rank) ∈ dot_S384x384_S384x384_S384x384_1_0_0_1_n_n.rhsBatch by decide), dif_pos (show (1 : Fin S384x384.rank) ∈ dot_S384x384_S384x384_S384x384_1_0_0_1_n_n.rhsNonContracting by decide)]
  rfl

/-- The product of two 384 x 384 matrices of extended reals, read at an entry: the sum over the contracted axis. -/
private theorem dot_apply (y0 y1 : FVec Ideal S384x384 .f32) (a b : Fin 384) :
    (Host.dotGeneral dot_S384x384_S384x384_S384x384_1_0_0_1_n_n none y0 y1 : FVec Ideal S384x384 .f32) (ix2 a b)
      = ∑ l : Fin 384, y0 (ix2 a l) * y1 (ix2 l b) := by
  simp only [Host.dotGeneral]
  rw [Ideal.dotGeneral_apply, ← Equiv.sum_comp (ValueIdx.contrEquiv1 dot_S384x384_S384x384_S384x384_1_0_0_1_n_n 384 rfl rfl).symm]
  refine Finset.sum_congr rfl fun l _ => ?_
  have hl := ValueIdx.contrEquiv1_symm_val dot_S384x384_S384x384_S384x384_1_0_0_1_n_n 384 rfl rfl l
  have el : dot_S384x384_S384x384_S384x384_1_0_0_1_n_n.lhsIdx (ix2 a b) ((ValueIdx.contrEquiv1 dot_S384x384_S384x384_S384x384_1_0_0_1_n_n 384 rfl rfl).symm l) = ix2 a l := funext fun d => Fin.ext (by
    match d with
    | ⟨0, _⟩ => exact dot_lhs_0 _ _
    | ⟨1, _⟩ => exact (dot_lhs_1 _ _).trans hl)
  have er : dot_S384x384_S384x384_S384x384_1_0_0_1_n_n.rhsIdx (ix2 a b) ((ValueIdx.contrEquiv1 dot_S384x384_S384x384_S384x384_1_0_0_1_n_n 384 rfl rfl).symm l) = ix2 l b := funext fun d => Fin.ext (by
    match d with
    | ⟨0, _⟩ => exact (dot_rhs_0 _ _).trans hl
    | ⟨1, _⟩ => exact dot_rhs_1 _ _)
  rw [el, er]

/-- The two 384 x 384 maps as launched, and the array the stage is entered with for their product, as matrices of
    extended reals. -/
abbrev wvArr (c : Dev nD) : S384x384.Idx → EReal := (m ((c : Thread nD τ).loc main_arg10))
abbrev ffwArr (c : Dev nD) : S384x384.Idx → EReal := (m ((c : Thread nD τ).loc main_arg11))
abbrev wtArr (c : Dev nD) : S384x384.Idx → EReal := V1 m ρ c main_v44
/-- The product of the two 384 x 384 maps, transposed: entry (i, j) is the sum over l of ffn_w[j, l] * wv[l, i]. -/
theorem v44_apply (c : Dev nD) (i j : Fin 384) :
    wtArr m ρ c (ix2 i j) = ∑ l : Fin 384, ffwArr m c (ix2 j l) * wvArr m c (ix2 l i) := by
  show StableHlo.after hostOps0 _ (Proc.devRef .tc main_v44) _ = _
  after_results_simp
  -- the transpose reads the product at (j, i); the product there is the sum over the contracted axis
  refine (transpose_apply [1, 0] _ transposes_S384x384_S384x384_1_0 (ix2 i j) (ix2 j i) (fun b => match b with
    | ⟨0, _⟩ => rfl
    | ⟨1, _⟩ => rfl)).trans ?_
  exact dot_apply _ _ j i
/-- The bias of the second 384 x 384 map, the layer norm's gain and its bias, as rows. -/
theorem v45_apply (c : Dev nD) (j : Fin 384) :
    (V1 m ρ c main_v45 : S1x384.Idx → EReal) (ix2 0 j) = ((m ((c : Thread nD τ).loc main_arg12)) : S384.Idx → EReal) (ix1 j) := by
  show StableHlo.after hostOps0 _ (Proc.devRef .tc main_v45) _ = _
  after_results_simp
  refine shapeCast_apply (s := S384) (t := S1x384) _ shapeCasts_S384_S1x384 (ix2 0 j) (ix1 j) ?_
  rw [Shape.rowMajor_val_one, Shape.rowMajor_val_two]
  show j.val = 0 * 384 + j.val
  omega
theorem v46_apply (c : Dev nD) (j : Fin 384) :
    (V1 m ρ c main_v46 : S1x384.Idx → EReal) (ix2 0 j) = ((m ((c : Thread nD τ).loc main_arg13)) : S384.Idx → EReal) (ix1 j) := by
  show StableHlo.after hostOps0 _ (Proc.devRef .tc main_v46) _ = _
  after_results_simp
  refine shapeCast_apply (s := S384) (t := S1x384) _ shapeCasts_S384_S1x384 (ix2 0 j) (ix1 j) ?_
  rw [Shape.rowMajor_val_one, Shape.rowMajor_val_two]
  show j.val = 0 * 384 + j.val
  omega
theorem v47_apply (c : Dev nD) (j : Fin 384) :
    (V1 m ρ c main_v47 : S1x384.Idx → EReal) (ix2 0 j) = ((m ((c : Thread nD τ).loc main_arg14)) : S384.Idx → EReal) (ix1 j) := by
  show StableHlo.after hostOps0 _ (Proc.devRef .tc main_v47) _ = _
  after_results_simp
  refine shapeCast_apply (s := S384) (t := S1x384) _ shapeCasts_S384_S1x384 (ix2 0 j) (ix1 j) ?_
  rw [Shape.rowMajor_val_one, Shape.rowMajor_val_two]
  show j.val = 0 * 384 + j.val
  omega
/-- The 384-wide part of the 512 -> 128 map, transposed: entry (l, q) is mw1[q, 128 + l]. -/
theorem v49_apply (c : Dev nD) (l : Fin 384) (q : Fin 128) :
    (V1 m ρ c main_v49 : S384x128.Idx → EReal) (ix2 l q)
      = ((m ((c : Thread nD τ).loc main_arg15)) : S128x512.Idx → EReal) (ix2 q ⟨128 + l.val, by omega⟩) := by
  show StableHlo.after hostOps0 _ (Proc.devRef .tc main_v49) _ = _
  after_results_simp
  -- the transpose reads the slice at (q, l); the slice starts at column 128
  refine (transpose_apply [1, 0] _ transposes_S128x384_S384x128_1_0 (ix2 l q) (ix2 q l) (fun b => match b with
    | ⟨0, _⟩ => rfl
    | ⟨1, _⟩ => rfl)).trans ?_
  exact extractStridedSlice_apply ![0, 128] _ slices_S128x512_S128x384_0_128 (ix2 q l) (ix2 q ⟨128 + l.val, by omega⟩) (fun a => match a with
    | ⟨0, _⟩ => by show q.val = 0 + q.val; omega
    | ⟨1, _⟩ => by show 128 + l.val = 128 + l.val; rfl)

end Cert.KernelIdeal.Host0

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.LibIndexWords.lean ====
import Idealize.ShloMosaic.PureOps.Vector
import Idealize.ShloMosaic.Lib.StableHlo.Predicate

/-!
# Index words: 32-bit words whose signed value is a small natural number

An index into a table of `N` rows travels as a 32-bit two's-complement word `x`. When its signed value
`x.toInt` is already a row number `k < N`, the arithmetic a program wraps around it does nothing:

* clipping into a range that holds it, `minimum(hi, maximum(lo, x))`, gives `x` back (`clip_of_mem`);
* the wrap of a negative index, `select(x < 0, x + n, x)`, takes the second branch (`wrap_of_nonneg`);
* the clamp of a start index into the table, `min x.toInt.toNat (N - 1)`, is `k` (`clamp_of_eq`,
  `clamp_fin_of_eq`).

Each is stated at one element, for the operations on words (`IntOp.maxsi`, `IntOp.minsi`, `IntOp.cmpi`,
`IntOp.addi`, `Scalar.select`) that the elementwise operations on arrays apply at every index; the
array forms follow by function extensionality (`clip_vec_of_mem`, `wrap_vec_of_nonneg`). The last
section moves between a word and its value: the word of a small natural number has that value, and a
word is determined by its signed value.
-/

namespace Cert.LibIndexWords

open Idealize.ShloMosaic

/-! ## The signed order, read on the signed values -/

/-- `a` is not strictly below `b` in the signed order exactly when `b.toInt ≤ a.toInt`. -/
theorem slt_eq_false_of_le {a b : BitVec 32} (h : b.toInt ≤ a.toInt) : a.slt b = false := by
  simp only [BitVec.slt, decide_eq_false_iff_not, not_lt]
  exact h

/-! ## Clipping -/

/-- Clipping into a range leaves a word of that range alone. With `lo ≤ x ≤ hi` as signed values,
    `maximum(lo, x)` keeps `x` (it would take `lo` only if `x` were strictly below it) and then
    `minimum(hi, x)` keeps `x` (it would take `hi` only if `hi` were strictly below `x`). -/
theorem clip_of_mem (x lo hi : BitVec 32) (hlo : lo.toInt ≤ x.toInt) (hhi : x.toInt ≤ hi.toInt) :
    IntOp.minsi hi (IntOp.maxsi lo x) = x := by
  have hmax : IntOp.maxsi lo x = x := by
    unfold IntOp.maxsi
    rw [slt_eq_false_of_le hlo]
    rfl
  rw [hmax]
  unfold IntOp.minsi
  rw [slt_eq_false_of_le hhi]
  rfl

/-- The same with the range given by a row count: a word whose value is a row number `k < N` is left
    alone by the clip to `[0, N - 1]`, whatever word `hi` carries the value `N - 1`. -/
theorem clip_of_fin {N : Nat} (x hi : BitVec 32) (k : Fin N) (hx : x.toInt = (k.val : ℤ))
    (hhi : hi.toInt = ((N - 1 : ℕ) : ℤ)) : IntOp.minsi hi (IntOp.maxsi 0#32 x) = x := by
  have h0 : (0#32 : BitVec 32).toInt = 0 := by decide
  have hk := k.isLt
  exact clip_of_mem x 0#32 hi (by rw [h0, hx]; omega) (by rw [hx, hhi]; omega)

/-- Clipping a whole array of words, each within the bounds at its own position, gives the array back. -/
theorem clip_vec_of_mem {s : Shape} (x lo hi : IVec s 32)
    (h : ∀ i, (lo i).toInt ≤ (x i).toInt ∧ (x i).toInt ≤ (hi i).toInt) : minsi hi (maxsi lo x) = x :=
  funext fun i => clip_of_mem (x i) (lo i) (hi i) (h i).1 (h i).2

/-! ## Wrapping a negative index -/

/-- The wrap `select(x < 0, x + n, x)` of a word that is not negative is the word: the signed comparison
    with zero answers the bit `0`, and the selection on bit `0` takes its second branch. -/
theorem wrap_of_nonneg (x n : BitVec 32) (hx : 0 ≤ x.toInt) :
    Scalar.select (IntOp.cmpi .slt x 0#32) (IntOp.addi x n) x = x := by
  have h0 : (0#32 : BitVec 32).toInt = 0 := by decide
  have hlt : x.slt 0#32 = false := slt_eq_false_of_le (by rw [h0]; exact hx)
  unfold IntOp.cmpi Scalar.select
  rw [hlt]
  rfl

/-- Wrapping a whole array of words, none of them negative, gives the array back; `zero` is any array
    that holds the word `0` everywhere (a broadcast constant) and `n` any array of offsets. -/
theorem wrap_vec_of_nonneg {s : Shape} (x zero n : IVec s 32) (hz : ∀ i, zero i = 0#32)
    (hx : ∀ i, 0 ≤ (x i).toInt) : select (cmpi .slt x zero) (addi x n) x = x :=
  funext fun i => by
    show Scalar.select (IntOp.cmpi .slt (x i) (zero i)) (IntOp.addi (x i) (n i)) (x i) = x i
    rw [hz i]
    exact wrap_of_nonneg (x i) (n i) (hx i)

/-! ## Clamping a start index into a table -/

/-- A start index whose signed value is a row number `k` of a table of `N` rows is clamped to `k`: read
    as a natural number it is `k`, and `k ≤ N - 1`. -/
theorem clamp_of_eq (x : BitVec 32) (N : Nat) (k : Fin N) (hx : x.toInt = (k.val : ℤ)) :
    min x.toInt.toNat (N - 1) = k.val := by
  have hk := k.isLt
  rw [hx, Int.toNat_natCast]
  exact Nat.min_eq_left (by omega)

/-- The clamped start index, as a row of the table, is `k` (whatever the proof that it is a row). -/
theorem clamp_fin_of_eq (x : BitVec 32) (N : Nat) (k : Fin N) (hx : x.toInt = (k.val : ℤ))
    (h : min x.toInt.toNat (N - 1) < N) : (⟨min x.toInt.toNat (N - 1), h⟩ : Fin N) = k :=
  Fin.ext (clamp_of_eq x N k hx)

/-! ## Between a word and its value -/

/-- The word of a natural number below `2 ^ 31` has that number as its signed value
    (`StableHlo.Predicate.toInt_ofNat_small`). -/
theorem toInt_ofNat_of_lt (n : ℕ) (hn : n < 2 ^ 31) : (BitVec.ofNat 32 n).toInt = (n : ℤ) :=
  StableHlo.Predicate.toInt_ofNat_small n hn

/-- The word of a row number of a table of at most `2 ^ 31` rows has that row number as its signed value. -/
theorem toInt_ofNat_fin {N : Nat} (hN : N ≤ 2 ^ 31) (k : Fin N) : (BitVec.ofNat 32 k.val).toInt = (k.val : ℤ) :=
  toInt_ofNat_of_lt k.val (lt_of_lt_of_le k.isLt hN)

/-- At ten thousand rows. -/
theorem toInt_ofNat_fin10000 (k : Fin 10000) : (BitVec.ofNat 32 k.val).toInt = (k.val : ℤ) :=
  toInt_ofNat_fin (by decide) k

/-- A word is determined by its signed value. -/
theorem eq_of_toInt_eq {x y : BitVec 32} (h : x.toInt = y.toInt) : x = y := BitVec.eq_of_toInt_eq h

/-- A word whose signed value is a natural number below `2 ^ 31` is the word of that number. -/
theorem eq_ofNat_of_toInt_eq {x : BitVec 32} {n : ℕ} (hn : n < 2 ^ 31) (hx : x.toInt = (n : ℤ)) :
    x = BitVec.ofNat 32 n :=
  eq_of_toInt_eq (by rw [hx, toInt_ofNat_of_lt n hn])

/-- A word whose signed value lies in `[0, N)` names a row of a table of `N` rows: its value read as a
    natural number is below `N`, and is the signed value again. -/
theorem toInt_eq_fin_of_mem {x : BitVec 32} {N : Nat} (h0 : 0 ≤ x.toInt) (hN : x.toInt < (N : ℤ)) :
    ∃ k : Fin N, x.toInt = (k.val : ℤ) :=
  ⟨⟨x.toInt.toNat, by omega⟩, by simp only [Int.toNat_of_nonneg h0]⟩

end Cert.LibIndexWords
-- ==== Proof.KHost1.lean ====
import proofs.«420412_j74302934220861_3_alg».proof.Proof.Gen.KernelIdeal.Frame
import proofs.«420412_j74302934220861_3_alg».proof.Proof.Spec
import proofs.«420412_j74302934220861_3_alg».proof.Proof.LibScatterGatherRows
import proofs.«420412_j74302934220861_3_alg».proof.Proof.LibIndexWords
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

/-!
# The arrays the merge stage is entered with

Between its two stages the first program sums the edge stage's 128-wide rows into the 5000 destination
nodes, and lays out 55000 rows for the merge stage: first the 5000 nodes themselves (their features, their
summed rows), then one row per edge for the edge's source node (its gathered features; its summed row if the
source node is among the first 5000, read at the source word clipped to 4999, times a mask that is one exactly
then, else zero). The four weight arrays are slices and transposes of arguments. Everything is read at an index, from the
contents `X` the edge stage leaves (`X` any valuation: the operations of this stretch read only the buffers named in
the hypotheses).
-/

set_option maxRecDepth 16384

open scoped BigOperators

noncomputable section

namespace Cert.KernelIdeal.Host1

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

/-- The stretch's fold from an arbitrary valuation `X` of the buffers at its start. -/
abbrev after1 (X : Valuation τ sig (Elt Ideal)) : Valuation τ sig (Elt Ideal) := StableHlo.after hostOps1 X

variable (X : Valuation τ sig (Elt Ideal))

/-! ## The projected sums -/

/-- The column of index words, read at a row: the word of that row. -/
theorem col_apply {α : Type} (x : S50000.Idx → α) (e : Fin 50000) :
    broadcastInDim S50000x1 ![0] bcast_S50000_S50000x1_0 x (ix2 e 0) = x (ix1 e) :=
  broadcastInDim_apply _ bcast_S50000_S50000x1_0 x (ix2 e 0) (ix1 e) (fun a => match a with
    | ⟨0, _⟩ => by show e.val = if (50000 : Nat) = 1 then 0 else e.val; rw [if_neg (by decide)])

/-- The projected sums, as the scatter-add of the edge stage's rows into a zero array by the column of destination words. -/
theorem v53_eq :
    (after1 X (Proc.devRef .tc main_v53) : S5000x128.Idx → EReal)
      = Host.scatterAdd (F := Ideal) scatter_S5000x128_S50000x1_S50000x128_1_0_0_1
          (broadcastInDim S5000x128 ![] bcast_S_S5000x128 (constant (F := Ideal) S_ .f32 0x00000000#32))
          (broadcastInDim S50000x1 ![0] bcast_S50000_S50000x1_0 (X (Proc.devRef .tc main_arg8) : S50000.Idx → BitVec 32))
          (X (Proc.devRef .tc main_v50) : S50000x128.Idx → EReal) := by
  show StableHlo.after hostOps1 X (Proc.devRef .tc main_v53) = _
  after_results

/-- The projected sums: node `v`, column `q` holds the sum of the edge stage's rows over the edges whose destination
    word is `v` (the array `O` being what the buffer of the edge stage's result holds, `dst` the destination words). -/
theorem v53_apply (v : Fin 5000) (q : Fin 128) :
    (after1 X (Proc.devRef .tc main_v53) : S5000x128.Idx → EReal) (ix2 v q)
      = Cert.Sp.segsum (X (Proc.devRef .tc main_arg8) : S50000.Idx → BitVec 32)
          (X (Proc.devRef .tc main_v50) : S50000x128.Idx → EReal) v.val q := by
  rw [v53_eq]
  refine (Cert.LibScatterGatherRows.scatterAdd_rows (φ := .f32) scatter_S5000x128_S50000x1_S50000x128_1_0_0_1 rfl rfl rfl rfl _ _ _ v q).trans ?_
  -- the operand is the zero array: its element is the word 0 read as a number
  have h0 : broadcastInDim S5000x128 ![] bcast_S_S5000x128 (constant (F := Ideal) S_ .f32 0x00000000#32) (ix2 v q) = (0 : EReal) :=
    (broadcastInDim_apply _ bcast_S_S5000x128 _ (ix2 v q) (fun a => a.elim0) (fun a => a.elim0)).trans Ideal.ofBits_zero_f32
  rw [h0, zero_add]
  -- the index column at row `e` is the destination word of edge `e`
  unfold Cert.Sp.segsum Cert.Sp.seg
  refine Finset.sum_congr (Finset.filter_congr (fun e _ => ?_)) (fun _ _ => rfl)
  rw [col_apply]

/-! ## The merge stage's feature array -/

/-- The first 5000 rows of the feature argument, as a slice. -/
theorem v74_eq :
    (after1 X (Proc.devRef .tc main_v74) : S5000x128.Idx → EReal)
      = extractStridedSlice S5000x128 ![0, 0] (X (Proc.devRef .tc main_arg0) : S100000x128.Idx → EReal) slices_S100000x128_S5000x128_0_0 := by
  show StableHlo.after hostOps1 X (Proc.devRef .tc main_v74) = _
  after_results_simp

/-- No operation of the stretch writes the gathered source features. -/
theorem v27_eq :
    (after1 X (Proc.devRef .tc main_v27) : S50000x128.Idx → EReal) = (X (Proc.devRef .tc main_v27) : S50000x128.Idx → EReal) := by
  show StableHlo.after hostOps1 X (Proc.devRef .tc main_v27) = _
  after_results_simp

/-- The feature array is the sliced features on top of the gathered source features. -/
theorem v75_step :
    concatenate S55000x128 0
        [⟨S5000x128, (after1 X (Proc.devRef .tc main_v74) : S5000x128.Idx → EReal)⟩,
         ⟨S50000x128, (after1 X (Proc.devRef .tc main_v27) : S50000x128.Idx → EReal)⟩]
        concatenates_S5000x128_S50000x128_S55000x128_d0
      = (after1 X (Proc.devRef .tc main_v75) : S55000x128.Idx → EReal) := by
  show concatenate S55000x128 0
        [⟨S5000x128, StableHlo.after hostOps1 X (Proc.devRef .tc main_v74)⟩,
         ⟨S50000x128, StableHlo.after hostOps1 X (Proc.devRef .tc main_v27)⟩] _
      = StableHlo.after hostOps1 X (Proc.devRef .tc main_v75)
  simp only [after_cons, after_nil]
  rw [binary_result_ne (r := main_v75)]
  rotate_left
  · decide
  rw [binary_result]
  rw [binary_result_ne (r := main_v74)]
  rotate_left
  · decide
  rw [binary_result_ne (r := main_v74)]
  rotate_left
  · decide
  rw [binary_result_ne (r := main_v27)]
  rotate_left
  · decide
  rw [binary_result_ne (r := main_v27)]
  decide

/-- The first 5000 rows of the merge stage's feature array are the first 5000 nodes' features. -/
theorem v75_head (v : Fin 5000) (q : Fin 128) :
    (after1 X (Proc.devRef .tc main_v75) : S55000x128.Idx → EReal) (ix2 ⟨v.val, by omega⟩ q)
      = (X (Proc.devRef .tc main_arg0) : S100000x128.Idx → EReal) (ix2 ⟨v.val, by omega⟩ q) := by
  rw [← v75_step, v74_eq]
  refine (concatenate_pair_apply_left (0 : Fin S55000x128.rank) _ _ concatenates_S5000x128_S50000x128_S55000x128_d0
    (ix2 ⟨v.val, by omega⟩ q) rfl (ix2 v q) (fun b => match b with
      | ⟨0, _⟩ => rfl
      | ⟨1, _⟩ => rfl)).trans ?_
  exact extractStridedSlice_apply ![0, 0] _ slices_S100000x128_S5000x128_0_0 (ix2 v q) (ix2 ⟨v.val, by omega⟩ q) (fun a => match a with
    | ⟨0, _⟩ => by show v.val = 0 + v.val; omega
    | ⟨1, _⟩ => by show q.val = 0 + q.val; omega)
/-- Its other 50000 rows are the gathered source features. -/
theorem v75_src (e : Fin 50000) (q : Fin 128) :
    (after1 X (Proc.devRef .tc main_v75) : S55000x128.Idx → EReal) (ix2 ⟨5000 + e.val, by omega⟩ q)
      = (X (Proc.devRef .tc main_v27) : S50000x128.Idx → EReal) (ix2 e q) := by
  rw [← v75_step, v27_eq]
  exact concatenate_pair_apply_right (0 : Fin S55000x128.rank) _ _ concatenates_S5000x128_S50000x128_S55000x128_d0
    (ix2 ⟨5000 + e.val, by omega⟩ q) rfl rfl (ix2 e q) (fun b => match b with
      | ⟨0, _⟩ => fun h => absurd rfl h
      | ⟨1, _⟩ => fun _ => rfl)
    (by show e.val + 5000 = 5000 + e.val; omega)

/-! ## The merge stage's summed array -/

/-- The source words clipped from above at 4999. -/
def clipw (X : Valuation τ sig (Elt Ideal)) : S50000.Idx → BitVec 32 :=
  minsi (X (Proc.devRef .tc main_arg7) : S50000.Idx → BitVec 32) (broadcastInDim S50000 ![] bcast_S_S50000 (constantI S_ 32 4999#32))

/-- The clipped words with a negative one wrapped by 5000. -/
def wrapw (X : Valuation τ sig (Elt Ideal)) : S50000.Idx → BitVec 32 :=
  select (cmpi .slt (clipw X) (broadcastInDim S50000 ![] bcast_S_S50000 (constantI S_ 32 0#32)))
    (addi (clipw X) (broadcastInDim S50000 ![] bcast_S_S50000 (constantI S_ 32 5000#32))) (clipw X)

/-- The bit "the source word, read signed, is below 5000". -/
def ltbit (X : Valuation τ sig (Elt Ideal)) : S50000.Idx → BitVec 1 :=
  cmpi .slt (X (Proc.devRef .tc main_arg7) : S50000.Idx → BitVec 32) (broadcastInDim S50000 ![] bcast_S_S50000 (constantI S_ 32 5000#32))
theorem clipw_apply (e : Fin 50000) :
    clipw X (ix1 e) = IntOp.minsi ((X (Proc.devRef .tc main_arg7) : S50000.Idx → BitVec 32) (ix1 e)) 4999#32 := rfl
theorem wrapw_apply (e : Fin 50000) :
    wrapw X (ix1 e) = Scalar.select (IntOp.cmpi .slt (clipw X (ix1 e)) 0#32) (IntOp.addi (clipw X (ix1 e)) 5000#32) (clipw X (ix1 e)) := rfl
theorem ltbit_apply (e : Fin 50000) :
    ltbit X (ix1 e) = IntOp.cmpi .slt ((X (Proc.devRef .tc main_arg7) : S50000.Idx → BitVec 32) (ix1 e)) 5000#32 := rfl

/-- The gathered and masked rows, as the operations' term over the projected sums. -/
theorem v73_eq :
    (after1 X (Proc.devRef .tc main_v73) : S50000x128.Idx → EReal)
      = mulf (F := Ideal)
          (Host.gather gather_S5000x128_S50000x1_S50000x128_1_0_n_n_0_1_1128
            (after1 X (Proc.devRef .tc main_v53) : S5000x128.Idx → EReal)
            (broadcastInDim S50000x1 ![0] bcast_S50000_S50000x1_0 (wrapw X)))
          (broadcastInDim S50000x128 ![0, 1] bcast_S50000x1_S50000x128_0_1
            (broadcastInDim S50000x1 ![0] bcast_S50000_S50000x1_0 (uitofp (F := Ideal) .f32 (ltbit X)))) := by
  unfold wrapw clipw ltbit
  show StableHlo.after hostOps1 X (Proc.devRef .tc main_v73) = mulf (F := Ideal)
          (Host.gather gather_S5000x128_S50000x1_S50000x128_1_0_n_n_0_1_1128
            (StableHlo.after hostOps1 X (Proc.devRef .tc main_v53)) _) _
  after_results_simp

/-- The summed array is the projected sums on top of the gathered and masked rows. -/
theorem v76_step :
    concatenate S55000x128 0
        [⟨S5000x128, (after1 X (Proc.devRef .tc main_v53) : S5000x128.Idx → EReal)⟩,
         ⟨S50000x128, (after1 X (Proc.devRef .tc main_v73) : S50000x128.Idx → EReal)⟩]
        concatenates_S5000x128_S50000x128_S55000x128_d0
      = (after1 X (Proc.devRef .tc main_v76) : S55000x128.Idx → EReal) := by
  show concatenate S55000x128 0
        [⟨S5000x128, StableHlo.after hostOps1 X (Proc.devRef .tc main_v53)⟩,
         ⟨S50000x128, StableHlo.after hostOps1 X (Proc.devRef .tc main_v73)⟩] _
      = StableHlo.after hostOps1 X (Proc.devRef .tc main_v76)
  simp only [after_cons, after_nil]
  rw [binary_result]
  rw [binary_result_ne (r := main_v53)]
  rotate_left
  · decide
  rw [binary_result_ne (r := main_v73)]
  decide

/-- The first 5000 rows of the merge stage's summed array are the projected sums. -/
theorem v76_head (v : Fin 5000) (q : Fin 128) :
    (after1 X (Proc.devRef .tc main_v76) : S55000x128.Idx → EReal) (ix2 ⟨v.val, by omega⟩ q)
      = (after1 X (Proc.devRef .tc main_v53) : S5000x128.Idx → EReal) (ix2 v q) := by
  rw [← v76_step]
  exact concatenate_pair_apply_left (0 : Fin S55000x128.rank) _ _ concatenates_S5000x128_S50000x128_S55000x128_d0
    (ix2 ⟨v.val, by omega⟩ q) rfl (ix2 v q) (fun b => match b with
      | ⟨0, _⟩ => rfl
      | ⟨1, _⟩ => rfl)

/-- The mask at row `e`, any column: the bit "source word below 5000" of that row, as a number. -/
theorem mask_apply (e : Fin 50000) (q : Fin 128) :
    broadcastInDim S50000x128 ![0, 1] bcast_S50000x1_S50000x128_0_1
        (broadcastInDim S50000x1 ![0] bcast_S50000_S50000x1_0 (uitofp (F := Ideal) .f32 (ltbit X))) (ix2 e q)
      = (((ltbit X (ix1 e)).toNat : ℝ) : EReal) := by
  refine (broadcastInDim_apply _ bcast_S50000x1_S50000x128_0_1 _ (ix2 e q) (ix2 e 0) (fun a => match a with
    | ⟨0, _⟩ => by show e.val = if (50000 : Nat) = 1 then 0 else e.val; rw [if_neg (by decide)]
    | ⟨1, _⟩ => by show (0 : Nat) = if (1 : Nat) = 1 then 0 else q.val; rw [if_pos rfl])).trans ?_
  rw [col_apply]
  rfl

/-- Two rows with the same number are the same row. -/
theorem row_congr (A : S5000x128.Idx → EReal) (a b : Fin 5000) (q : Fin 128) (h : a.val = b.val) :
    A (ix2 a q) = A (ix2 b q) := by
  rw [Fin.ext h]

/-- The projected sums, as an array of extended reals. -/
abbrev sums (X : Valuation τ sig (Elt Ideal)) : S5000x128.Idx → EReal := after1 X (Proc.devRef .tc main_v53)

/-- Row `5000 + e` of the summed array: the projected sums' row `r` named by the wrapped source word, clamped into
    the 5000 rows, times the mask. -/
theorem v76_src (e : Fin 50000) (q : Fin 128) (r : Fin 5000)
    (hr : min (wrapw X (ix1 e)).toInt.toNat (5000 - 1) = r.val) :
    (after1 X (Proc.devRef .tc main_v76) : S55000x128.Idx → EReal) (ix2 ⟨5000 + e.val, by omega⟩ q)
      = sums X (ix2 r q) * (((ltbit X (ix1 e)).toNat : ℝ) : EReal) := by
  rw [← v76_step]
  refine (concatenate_pair_apply_right (0 : Fin S55000x128.rank) _ _ concatenates_S5000x128_S50000x128_S55000x128_d0
    (ix2 ⟨5000 + e.val, by omega⟩ q) rfl rfl (ix2 e q) (fun b => match b with
      | ⟨0, _⟩ => fun h => absurd rfl h
      | ⟨1, _⟩ => fun _ => rfl)
    (by show e.val + 5000 = 5000 + e.val; omega)).trans ?_
  rw [v73_eq]
  refine (mulf_apply (φ := .f32) _ _ (ix2 e q)).trans ?_
  have hg : Host.gather gather_S5000x128_S50000x1_S50000x128_1_0_n_n_0_1_1128 (sums X)
        (broadcastInDim S50000x1 ![0] bcast_S50000_S50000x1_0 (wrapw X)) (ix2 e q) = sums X (ix2 r q) := by
    refine (Cert.LibScatterGatherRows.gather_rows_ideal (φ := .f32) gather_S5000x128_S50000x1_S50000x128_1_0_n_n_0_1_1128
      rfl rfl rfl rfl rfl (sums X) _ e q (by decide)).trans ?_
    refine row_congr (sums X) _ r q ?_
    show min (broadcastInDim S50000x1 ![0] bcast_S50000_S50000x1_0 (wrapw X) (ix2 e 0)).toInt.toNat (5000 - 1) = r.val
    rw [col_apply]
    exact hr
  rw [mask_apply, hg]

/-- Row `5000 + e` of the summed array, when edge `e`'s source word is a node number `n` below 5000: node `n`'s projected sum. -/
theorem v76_src_lt (e : Fin 50000) (n : Fin 5000)
    (hn : ((X (Proc.devRef .tc main_arg7) : S50000.Idx → BitVec 32) (ix1 e)).toInt = (n.val : ℤ)) (q : Fin 128) :
    (after1 X (Proc.devRef .tc main_v76) : S55000x128.Idx → EReal) (ix2 ⟨5000 + e.val, by omega⟩ q)
      = (after1 X (Proc.devRef .tc main_v53) : S5000x128.Idx → EReal) (ix2 n q) := by
  have h4999 : (4999#32 : BitVec 32).toInt = 4999 := by decide
  have h5000 : (5000#32 : BitVec 32).toInt = 5000 := by decide
  have hnlt := n.isLt
  -- the clip at 4999 keeps the word's value: the smaller of the word and 4999 is the word, or both are 4999
  have hc : (clipw X (ix1 e)).toInt = (n.val : ℤ) := by
    rw [clipw_apply]
    unfold IntOp.minsi
    split
    · exact hn
    · next h =>
      have h' : ¬ ((X (Proc.devRef .tc main_arg7) : S50000.Idx → BitVec 32) (ix1 e)).toInt < (4999#32 : BitVec 32).toInt := by
        simpa [BitVec.slt] using h
      rw [hn, h4999] at h'
      rw [h4999]
      omega
  -- a word that is not negative is not wrapped
  have hw : wrapw X (ix1 e) = clipw X (ix1 e) := by
    rw [wrapw_apply]
    exact Cert.LibIndexWords.wrap_of_nonneg _ _ (by rw [hc]; omega)
  -- the word is below 5000: the bit is one
  have hb : ltbit X (ix1 e) = 1#1 := by
    rw [ltbit_apply]
    unfold IntOp.cmpi
    show BitVec.ofBool (BitVec.slt _ _) = 1#1
    rw [StableHlo.Predicate.ofBool_eq_one_iff]
    simp only [BitVec.slt, decide_eq_true_eq]
    rw [hn, h5000]
    omega
  -- the clamp of the word into the 5000 rows is `n`, and the mask is the number one
  rw [v76_src X e q n (by rw [hw]; exact Cert.LibIndexWords.clamp_of_eq _ 5000 n hc), hb]
  rw [show (1#1 : BitVec 1).toNat = 1 from rfl, Nat.cast_one, EReal.coe_one, mul_one]
/-- Row `5000 + e` of the summed array, when edge `e`'s source word read signed is at least 5000: zero. -/
theorem v76_src_ge (e : Fin 50000)
    (hn : (5000 : ℤ) ≤ ((X (Proc.devRef .tc main_arg7) : S50000.Idx → BitVec 32) (ix1 e)).toInt) (q : Fin 128) :
    (after1 X (Proc.devRef .tc main_v76) : S55000x128.Idx → EReal) (ix2 ⟨5000 + e.val, by omega⟩ q) = (0 : EReal) := by
  rw [v76_src X e q ⟨min (wrapw X (ix1 e)).toInt.toNat (5000 - 1), by omega⟩ rfl]
  have h5000 : (5000#32 : BitVec 32).toInt = 5000 := by decide
  -- the word is not below 5000: the bit is zero, and every extended real times zero is zero
  have hb : ltbit X (ix1 e) = 0#1 := by
    rw [ltbit_apply]
    unfold IntOp.cmpi
    show BitVec.ofBool (BitVec.slt _ _) = 0#1
    rw [Cert.LibIndexWords.slt_eq_false_of_le (by rw [h5000]; exact hn)]
    rfl
  rw [hb]
  rw [show (0#1 : BitVec 1).toNat = 0 from rfl, Nat.cast_zero, EReal.coe_zero, mul_zero]

/-! ## The merge stage's weights -/

/-- The 128-wide part of the 512 -> 128 map, transposed: entry (i, j) is mw1[j, i]. -/
theorem v55_apply (i j : Fin 128) :
    (after1 X (Proc.devRef .tc main_v55) : S128x128.Idx → EReal) (ix2 i j)
      = (X (Proc.devRef .tc main_arg15) : S128x512.Idx → EReal) (ix2 j ⟨i.val, by omega⟩) := by
  have e : (after1 X (Proc.devRef .tc main_v55) : S128x128.Idx → EReal)
      = transpose S128x128 [1, 0]
          (extractStridedSlice S128x128 ![0, 0] (X (Proc.devRef .tc main_arg15) : S128x512.Idx → EReal) slices_S128x512_S128x128_0_0)
          transposes_S128x128_S128x128_1_0 := by
    show StableHlo.after hostOps1 X (Proc.devRef .tc main_v55) = _
    after_results
  rw [e]
  refine (transpose_apply [1, 0] _ transposes_S128x128_S128x128_1_0 (ix2 i j) (ix2 j i) (fun b => match b with
    | ⟨0, _⟩ => rfl
    | ⟨1, _⟩ => rfl)).trans ?_
  exact extractStridedSlice_apply ![0, 0] _ slices_S128x512_S128x128_0_0 (ix2 j i) (ix2 j ⟨i.val, by omega⟩) (fun a => match a with
    | ⟨0, _⟩ => by show j.val = 0 + j.val; omega
    | ⟨1, _⟩ => by show i.val = 0 + i.val; omega)
theorem v56_apply (j : Fin 128) :
    (after1 X (Proc.devRef .tc main_v56) : S1x128.Idx → EReal) (ix2 0 j)
      = (X (Proc.devRef .tc main_arg16) : S128.Idx → EReal) (ix1 j) := by
  have e : (after1 X (Proc.devRef .tc main_v56) : S1x128.Idx → EReal)
      = shapeCast S1x128 (X (Proc.devRef .tc main_arg16) : S128.Idx → EReal) shapeCasts_S128_S1x128 := by
    show StableHlo.after hostOps1 X (Proc.devRef .tc main_v56) = _
    after_results
    rfl
  rw [e]
  exact shapeCast_apply _ shapeCasts_S128_S1x128 (ix2 0 j) (ix1 j)
    (by rewrite [Shape.rowMajor_val_two, Shape.rowMajor_val_one]; show j.val = 0 * 128 + j.val; omega)
/-- The 128 -> 128 map transposed: entry (j, q) is mw2[q, j]. -/
theorem v57_apply (j q : Fin 128) :
    (after1 X (Proc.devRef .tc main_v57) : S128x128.Idx → EReal) (ix2 j q)
      = (X (Proc.devRef .tc main_arg17) : S128x128.Idx → EReal) (ix2 q j) := by
  have e : (after1 X (Proc.devRef .tc main_v57) : S128x128.Idx → EReal)
      = transpose S128x128 [1, 0] (X (Proc.devRef .tc main_arg17) : S128x128.Idx → EReal) transposes_S128x128_S128x128_1_0 := by
    show StableHlo.after hostOps1 X (Proc.devRef .tc main_v57) = _
    after_results
  rw [e]
  exact transpose_apply [1, 0] _ transposes_S128x128_S128x128_1_0 (ix2 j q) (ix2 q j) (fun b => match b with
    | ⟨0, _⟩ => rfl
    | ⟨1, _⟩ => rfl)
theorem v58_apply (q : Fin 128) :
    (after1 X (Proc.devRef .tc main_v58) : S1x128.Idx → EReal) (ix2 0 q)
      = (X (Proc.devRef .tc main_arg18) : S128.Idx → EReal) (ix1 q) := by
  have e : (after1 X (Proc.devRef .tc main_v58) : S1x128.Idx → EReal)
      = shapeCast S1x128 (X (Proc.devRef .tc main_arg18) : S128.Idx → EReal) shapeCasts_S128_S1x128 := by
    show StableHlo.after hostOps1 X (Proc.devRef .tc main_v58) = _
    after_results
    rfl
  rw [e]
  exact shapeCast_apply _ shapeCasts_S128_S1x128 (ix2 0 q) (ix1 q)
    (by rewrite [Shape.rowMajor_val_two, Shape.rowMajor_val_one]; show q.val = 0 * 128 + q.val; omega)

end Cert.KernelIdeal.Host1

end
-- ==== Proof.Tail.lean ====
import proofs.«420412_j74302934220861_3_alg».proof.Proof.RefRead

/-!
# The closing stage both programs share

Both programs end alike: the 50000 merged source rows are summed into their 5000 destination nodes and
divided by the node's edge count (at least one), sent through a 128 x 128 map plus bias, added to the node's
own merged row through another 128 x 128 map, and divided by the row's Euclidean length (at least 1e-12).
That chain is written here once, as one function of the two arrays going in; nothing below ever opens it.
-/

noncomputable section

namespace Cert.Tail

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The closing stage: `gsrc` the merged rows of the edges' source nodes, `ghead` the merged rows of the first
    5000 nodes, `dst` the edges' destination words, `wl`, `bl`, `wr` the stage's two maps and bias. -/
def sageTail (gsrc : (⟨S50000x128, .f32⟩ : BufTy).Contents (Elt F)) (ghead : (⟨S5000x128, .f32⟩ : BufTy).Contents (Elt F))
    (dst : (⟨S50000, .i32⟩ : BufTy).Contents (Elt F)) (wl : (⟨S128x128, .f32⟩ : BufTy).Contents (Elt F))
    (bl : (⟨S128, .f32⟩ : BufTy).Contents (Elt F)) (wr : (⟨S128x128, .f32⟩ : BufTy).Contents (Elt F)) :
    (⟨S5000x128, .f32⟩ : BufTy).Contents (Elt F) :=
  have s : (⟨S5000x128, .f32⟩ : BufTy).Contents (Elt F) :=
    Host.scatterAdd scatter_S5000x128_S50000x1_S50000x128_1_0_0_1
      (broadcastInDim S5000x128 ![] bcast_S_S5000x128 (constant S_ .f32 0x00000000#32))
      (broadcastInDim S50000x1 ![0] bcast_S50000_S50000x1_0 dst) gsrc
  have cnt : (⟨S5000, .f32⟩ : BufTy).Contents (Elt F) :=
    Host.scatterAdd scatter_S5000_S50000x1_S50000_n_0_0_1
      (broadcastInDim S5000 ![] bcast_S_S5000 (constant S_ .f32 0x00000000#32))
      (broadcastInDim S50000x1 ![0] bcast_S50000_S50000x1_0 dst)
      (broadcastInDim S50000 ![] bcast_S_S50000 (constant S_ .f32 0x3F800000#32))
  have den : (⟨S5000x128, .f32⟩ : BufTy).Contents (Elt F) :=
    broadcastInDim S5000x128 ![0, 1] bcast_S5000x1_S5000x128_0_1
      (broadcastInDim S5000x1 ![0] bcast_S5000_S5000x1_0
        (maximumf cnt (broadcastInDim S5000 ![] bcast_S_S5000 (constant S_ .f32 0x3F800000#32))))
  have o : (⟨S5000x128, .f32⟩ : BufTy).Contents (Elt F) :=
    addf
      (addf
        (Host.dotGeneral dot_S5000x128_S128x128_S5000x128_1_0_0_1_n_n none (Host.divf s den)
          (transpose S128x128 [1, 0] wl transposes_S128x128_S128x128_1_0))
        (broadcastInDim S5000x128 ![0, 1] bcast_S1x128_S5000x128_0_1 (broadcastInDim S1x128 ![1] bcast_S128_S1x128_1 bl)))
      (Host.dotGeneral dot_S5000x128_S128x128_S5000x128_1_0_0_1_n_n none ghead
        (transpose S128x128 [1, 0] wr transposes_S128x128_S128x128_1_0))
  Host.divf o
    (broadcastInDim S5000x128 ![0, 1] bcast_S5000x1_S5000x128_0_1
      (maximumf
        (Host.sqrt (broadcastInDim S5000x1 ![0] bcast_S5000_S5000x1_0
          (Host.reduceAdd (mulf o o) (constant S_ .f32 0x00000000#32) reducesTo_S5000x128_S5000_d1 h_S_)))
        (broadcastInDim S5000x1 ![] bcast_S_S5000x1 (constant S_ .f32 0x2B8CBCCC#32))))

/-- The second program's result is the closing stage of its gathered merged rows and of the first 5000
    merged rows. -/
theorem ref_tail (x0 : (⟨S100000x128, .f32⟩ : BufTy).Contents (Elt F)) (x1 : (⟨S10000x128, .f32⟩ : BufTy).Contents (Elt F)) (x2 : (⟨S1000000x2, .f32⟩ : BufTy).Contents (Elt F)) (x3 : (⟨S1000000, .i32⟩ : BufTy).Contents (Elt F)) (x7 x8 x9 : (⟨S50000, .i32⟩ : BufTy).Contents (Elt F)) (x10 x11 : (⟨S384x384, .f32⟩ : BufTy).Contents (Elt F)) (x12 x13 x14 : (⟨S384, .f32⟩ : BufTy).Contents (Elt F)) (x15 : (⟨S128x512, .f32⟩ : BufTy).Contents (Elt F)) (x16 : (⟨S128, .f32⟩ : BufTy).Contents (Elt F)) (x17 : (⟨S128x128, .f32⟩ : BufTy).Contents (Elt F)) (x18 : (⟨S128, .f32⟩ : BufTy).Contents (Elt F)) (x19 : (⟨S1x128, .f32⟩ : BufTy).Contents (Elt F)) (x20 : (⟨S128x256, .f32⟩ : BufTy).Contents (Elt F)) (x21 : (⟨S128, .f32⟩ : BufTy).Contents (Elt F)) (x25 : (⟨S128x128, .f32⟩ : BufTy).Contents (Elt F)) (x26 : (⟨S128, .f32⟩ : BufTy).Contents (Elt F)) (x27 : (⟨S128x128, .f32⟩ : BufTy).Contents (Elt F)) :
    val_main_v300 (F := F) x0 x1 x2 x3 x7 x8 x9 x10 x11 x12 x13 x14 x15 x16 x17 x18 x19 x20 x21 x25 x26 x27
      = sageTail (val_main_v271 (F := F) x0 x1 x2 x3 x7 x8 x9 x10 x11 x12 x13 x14 x15 x16 x17 x18 x19 x20 x21) (val_main_v289 (F := F) x0 x1 x2 x3 x7 x8 x9 x10 x11 x12 x13 x14 x15 x16 x17 x18 x19 x20 x21) x8 x25 x26 x27 := rfl

end Cert.Tail

end
-- ==== Proof.KHost2.lean ====
import proofs.«420412_j74302934220861_3_alg».proof.Proof.Gen.KernelIdeal.Frame
import proofs.«420412_j74302934220861_3_alg».proof.Proof.Tail
import Idealize.ShloMosaic.Lib.Pipeline.Value
import Idealize.ShloMosaic.Lib.ValueIdx
import Idealize.ShloMosaic.Lib.ValueLayout
import Idealize.ShloMosaic.Lib.StableHlo.Run

/-!
# The first program's closing stretch

After its merge stage the first program cuts the 55000 merged rows into the first 5000 (the nodes' own rows) and the
other 50000 (the edges' source rows) and applies the closing stage both programs share to them.
-/

set_option maxRecDepth 16384

noncomputable section

namespace Cert.KernelIdeal.Host2

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

variable {F : FTy → Type} [FloatOps F]

/-- The first 5000 of 55000 rows. -/
abbrev headRows (G : S55000x128.Idx → F .f32) : S5000x128.Idx → F .f32 :=
  extractStridedSlice S5000x128 ![0, 0] G slices_S55000x128_S5000x128_0_0
/-- The other 50000 rows. -/
abbrev srcRows (G : S55000x128.Idx → F .f32) : S50000x128.Idx → F .f32 :=
  extractStridedSlice S50000x128 ![5000, 0] G slices_S55000x128_S50000x128_5000_0

theorem headRows_apply (G : S55000x128.Idx → F .f32) (v : Fin 5000) (q : Fin 128) :
    headRows G (ix2 v q) = G (ix2 ⟨v.val, by omega⟩ q) :=
  -- a cut along the rows from offset 0: row v of the cut is row 0 + v of the array, the column unchanged
  slice2_axis0_apply 0 G slices_S55000x128_S5000x128_0_0 v q ⟨v.val, by omega⟩ (Nat.zero_add _).symm
theorem srcRows_apply (G : S55000x128.Idx → F .f32) (e : Fin 50000) (q : Fin 128) :
    srcRows G (ix2 e q) = G (ix2 ⟨5000 + e.val, by omega⟩ q) :=
  -- a cut along the rows from offset 5000: row e of the cut is row 5000 + e of the array, the column unchanged
  slice2_axis0_apply 5000 G slices_S55000x128_S50000x128_5000_0 e q ⟨5000 + e.val, by omega⟩ rfl

/-- The result buffer after the closing stretch, from any valuation `X` of the buffers at its start: the shared closing
    stage of the two cuts of the merge stage's array, the destination words and the stage's three weight arguments. -/
theorem v107_eq (X : Valuation τ sig (Elt F)) :
    (StableHlo.after hostOps2 X (Proc.devRef .tc main_v107) : S5000x128.Idx → F .f32)
      = Cert.Tail.sageTail (F := F) (srcRows (X (Proc.devRef .tc main_v77))) (headRows (X (Proc.devRef .tc main_v77)))
          (X (Proc.devRef .tc main_arg8)) (X (Proc.devRef .tc main_arg25)) (X (Proc.devRef .tc main_arg26))
          (X (Proc.devRef .tc main_arg27)) := by
  -- Each operation of the stretch writes one buffer as a function of buffers written earlier or present at the start;
  -- reading the result buffer back through them gives the composed operations over the start's buffers, and that
  -- composition is the shared closing stage term for term (the two programs' shape records have the same content).
  show StableHlo.after hostOps2 X (Proc.devRef .tc main_v107) = _
  after_results_simp
  unfold Cert.Tail.sageTail
  rfl

end Cert.KernelIdeal.Host2

end
-- ==== Proof.REdge.lean ====
import proofs.«420412_j74302934220861_3_alg».proof.Proof.RefRead
import proofs.«420412_j74302934220861_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The second program's edge rows

The second program builds every edge's normalised 384-row with whole-array operations. Read at edge `e`
and lane `j`, its array is the row formula `Cert.Sp.edgeHR` of row `e` of the four gathered per-edge arrays
(time stamps, destination features, source features, user embeddings) and of the weights.
-/

set_option maxRecDepth 16384

open scoped BigOperators

noncomputable section

namespace Cert.ReferenceIdeal.EdgeRows

open Cert.ReferenceIdeal Cert.ReferenceIdeal.Gen Idealize.ShloMosaic Idealize.ShloMosaic.TcCoe Idealize.ShloMosaic.ValueIdx Idealize.SL.Sem Idealize.ShloMosaic.StableHlo
open Cert.ReferenceIdeal.ReadP

section Stages

variable (x0 : (⟨S100000x128, .f32⟩ : BufTy).Contents (Elt Ideal)) (x1 : (⟨S10000x128, .f32⟩ : BufTy).Contents (Elt Ideal))
  (x2 : (⟨S1000000x2, .f32⟩ : BufTy).Contents (Elt Ideal)) (x3 : (⟨S1000000, .i32⟩ : BufTy).Contents (Elt Ideal))
  (x7 x8 x9 : (⟨S50000, .i32⟩ : BufTy).Contents (Elt Ideal)) (x10 x11 : (⟨S384x384, .f32⟩ : BufTy).Contents (Elt Ideal))
  (x12 x13 x14 : (⟨S384, .f32⟩ : BufTy).Contents (Elt Ideal)) (x19 : (⟨S1x128, .f32⟩ : BufTy).Contents (Elt Ideal))
  (x20 : (⟨S128x256, .f32⟩ : BufTy).Contents (Elt Ideal)) (x21 : (⟨S128, .f32⟩ : BufTy).Contents (Elt Ideal))

/-! ## The time encoding -/

/-- The first block of cosines: the first time stamp of the edge times the column's frequency. -/
theorem cos0_at (e : Fin 50000) (c : Fin 128) :
    val_main_v171 (F := Ideal) x2 x9 x19 (ix2 e c)
      = Ideal.cos (val_main_v157 (F := Ideal) x2 x9 (ix2 e 0) * x19 (ix2 0 c)) := by
  have e1 : idx_main_v165 (idx_main_v168 (ix2 e c)) = ix2 e 0 :=
    funext fun a => Fin.ext (by match a with | ⟨0, _⟩ => rfl | ⟨1, _⟩ => rfl)
  have e2 : idx_main_v166 (idx_main_v167 (idx_main_v169 (ix2 e c))) = ix2 0 c :=
    funext fun a => Fin.ext (by match a with | ⟨0, _⟩ => rfl | ⟨1, _⟩ => exact Nat.mod_eq_of_lt c.isLt)
  rw [val_main_v171_apply, val_main_v170_apply, val_main_v168_apply, val_main_v165_apply, val_main_v169_apply,
    val_main_v167_apply, val_main_v166_apply, e1, e2]
  rfl

/-- The second block of cosines: the second time stamp of the edge times the column's frequency. -/
theorem cos1_at (e : Fin 50000) (c : Fin 128) :
    val_main_v178 (F := Ideal) x2 x9 x19 (ix2 e c)
      = Ideal.cos (val_main_v157 (F := Ideal) x2 x9 (ix2 e 1) * x19 (ix2 0 c)) := by
  have e1 : idx_main_v172 (idx_main_v175 (ix2 e c)) = ix2 e 1 :=
    funext fun a => Fin.ext (by match a with | ⟨0, _⟩ => rfl | ⟨1, _⟩ => rfl)
  have e2 : idx_main_v173 (idx_main_v174 (idx_main_v176 (ix2 e c))) = ix2 0 c :=
    funext fun a => Fin.ext (by match a with | ⟨0, _⟩ => rfl | ⟨1, _⟩ => exact Nat.mod_eq_of_lt c.isLt)
  rw [val_main_v178_apply, val_main_v177_apply, val_main_v175_apply, val_main_v172_apply, val_main_v176_apply,
    val_main_v174_apply, val_main_v173_apply, e1, e2]
  rfl

/-! ## Blocks of 128 columns laid side by side -/

/-- Two 50000 x 128 arrays joined along the columns, read at row `e`: the two rows joined. -/
theorem join2_at (y1 y2 : (⟨S50000x128, .f32⟩ : BufTy).Contents (Elt Ideal)) (e : Fin 50000) (k : Fin 256) :
    concatenate S50000x256 1 [⟨S50000x128, y1⟩, ⟨S50000x128, y2⟩] concatenates_S50000x128_S50000x128_S50000x256_d1 (ix2 e k)
      = Cert.Sp.cat2 (fun c => y1 (ix2 e c)) (fun c => y2 (ix2 e c)) k := by
  unfold Cert.Sp.cat2
  split
  · next h =>
    exact concatenate_pair_apply_left 1 y1 y2 _ (ix2 e k) rfl (ix2 e ⟨k.val, h⟩) (fun b => by
      match b with
      | ⟨0, _⟩ => rfl
      | ⟨1, _⟩ => rfl)
  · next h =>
    exact concatenate_pair_apply_right 1 y1 y2 _ (ix2 e k) rfl rfl (ix2 e ⟨k.val - 128, by omega⟩)
      (fun b hb => by
        match b with
        | ⟨0, _⟩ => rfl
        | ⟨1, _⟩ => exact absurd rfl hb)
      (by show k.val - 128 + 128 = k.val; omega)

/-- Three 50000 x 128 arrays joined along the columns, read at row `e`: the three rows joined. -/
theorem join3_at (y1 y2 y3 : (⟨S50000x128, .f32⟩ : BufTy).Contents (Elt Ideal)) (e : Fin 50000) (j : Fin 384) :
    concatenate S50000x384 1 [⟨S50000x128, y1⟩, ⟨S50000x128, y2⟩, ⟨S50000x128, y3⟩]
        concatenates_S50000x128_S50000x128_S50000x128_S50000x384_d1 (ix2 e j)
      = Cert.Sp.cat3 (fun c => y1 (ix2 e c)) (fun c => y2 (ix2 e c)) (fun c => y3 (ix2 e c)) j := by
  unfold Cert.Sp.cat3
  split
  · next h =>
    exact concatenate_apply_piece 1 _ _ (ix2 e j) 0 (by show 0 < 3; omega) S50000x128 y1 rfl rfl 0 rfl (ix2 e ⟨j.val, h⟩)
      (fun b hb => by
        match b with
        | ⟨0, _⟩ => rfl
        | ⟨1, _⟩ => exact absurd rfl hb)
      (by show 0 + j.val = j.val; omega)
  · next h =>
    split
    · next h2 =>
      exact concatenate_apply_piece 1 _ _ (ix2 e j) 1 (by show 1 < 3; omega) S50000x128 y2 rfl rfl 128 rfl (ix2 e ⟨j.val - 128, by omega⟩)
        (fun b hb => by
          match b with
          | ⟨0, _⟩ => rfl
          | ⟨1, _⟩ => exact absurd rfl hb)
        (by show 128 + (j.val - 128) = j.val; omega)
    · next h2 =>
      exact concatenate_apply_piece 1 _ _ (ix2 e j) 2 (by show 2 < 3; omega) S50000x128 y3 rfl rfl 256 rfl (ix2 e ⟨j.val - 256, by omega⟩)
        (fun b hb => by
          match b with
          | ⟨0, _⟩ => rfl
          | ⟨1, _⟩ => exact absurd rfl hb)
        (by show 256 + (j.val - 256) = j.val; omega)

/-- The time encoding of an edge, 256 wide. -/
theorem tenc_at (e : Fin 50000) (k : Fin 256) :
    val_main_v179 (F := Ideal) x2 x9 x19 (ix2 e k)
      = Cert.Sp.tenc (val_main_v157 (F := Ideal) x2 x9 (ix2 e 0)) (val_main_v157 (F := Ideal) x2 x9 (ix2 e 1))
          (fun c => x19 (ix2 0 c)) k := by
  unfold val_main_v179 Cert.Sp.tenc
  rw [join2_at]
  simp only [cos0_at, cos1_at]

/-- The encoded time of an edge: the time encoding through the 256 -> 128 map, plus its bias. -/
theorem jt_at (e : Fin 50000) (c : Fin 128) :
    val_main_v184 (F := Ideal) x2 x9 x19 x20 x21 (ix2 e c)
      = Cert.Sp.jtRow (val_main_v157 (F := Ideal) x2 x9 (ix2 e 0)) (val_main_v157 (F := Ideal) x2 x9 (ix2 e 1))
          (fun c => x19 (ix2 0 c)) (fun k c => x20 (ix2 c k)) (fun c => x21 (ix1 c)) c := by
  have el : ∀ k : Fin 256, lidx_main_v181 (ix2 e c) k = ix2 e k := fun k =>
    funext fun a => Fin.ext (by match a with | ⟨0, _⟩ => rfl | ⟨1, _⟩ => rfl)
  have er : ∀ k : Fin 256, idx_main_v180 (ridx_main_v181 (ix2 e c) k) = ix2 c k := fun k =>
    funext fun a => Fin.ext (by match a with | ⟨0, _⟩ => rfl | ⟨1, _⟩ => rfl)
  have eb : idx_main_v182 (idx_main_v183 (ix2 e c)) = ix1 c :=
    funext fun a => Fin.ext (by match a with | ⟨0, _⟩ => rfl)
  unfold Cert.Sp.jtRow
  rw [val_main_v184_apply, val_main_v181_apply, val_main_v183_apply, val_main_v182_apply, eb, Ideal.addf_def]
  refine congrArg (· + x21 (ix1 c)) (Finset.sum_congr rfl fun k _ => ?_)
  rw [val_main_v180_apply, el k, er k, tenc_at]

/-! ## The two 384-wide rows of an edge -/

/-- The residual row: destination features, the constant encoded time, the user's embedding. -/
theorem q_at (e : Fin 50000) (j : Fin 384) :
    val_main_v205 (F := Ideal) x0 x1 x3 x8 x9 x20 x21 (ix2 e j)
      = Cert.Sp.qvec (val_main_v203 (F := Ideal) x0 x8) (val_main_v196 (F := Ideal) x1 x3 x9)
          (val_main_v189 (F := Ideal) x20 x21) e j := by
  have eb : ∀ c : Fin 128, idx_main_v204 (ix2 e c) = ix2 0 c := fun c =>
    funext fun a => Fin.ext (by match a with | ⟨0, _⟩ => rfl | ⟨1, _⟩ => rfl)
  unfold val_main_v205 Cert.Sp.qvec
  rw [join3_at]
  simp only [val_main_v204_apply, eb]

/-- The key row: source features, the edge's encoded time, the user's embedding. -/
theorem k_at (e : Fin 50000) (j : Fin 384) :
    val_main_v213 (F := Ideal) x0 x1 x2 x3 x7 x9 x19 x20 x21 (ix2 e j)
      = Cert.Sp.kvec (val_main_v212 (F := Ideal) x0 x7) (val_main_v196 (F := Ideal) x1 x3 x9)
          (Cert.Sp.jtRow (val_main_v157 (F := Ideal) x2 x9 (ix2 e 0)) (val_main_v157 (F := Ideal) x2 x9 (ix2 e 1))
            (fun c => x19 (ix2 0 c)) (fun k c => x20 (ix2 c k)) (fun c => x21 (ix1 c))) e j := by
  unfold val_main_v213 Cert.Sp.kvec
  rw [join3_at]
  simp only [jt_at]

/-! ## The two 384 x 384 maps, the bias and the residual -/

/-- The key row through the first map. -/
theorem kwv_at (e : Fin 50000) (l : Fin 384) :
    val_main_v215 (F := Ideal) x0 x1 x2 x3 x7 x9 x10 x19 x20 x21 (ix2 e l)
      = ∑ i : Fin 384, val_main_v213 (F := Ideal) x0 x1 x2 x3 x7 x9 x19 x20 x21 (ix2 e i) * x10 (ix2 l i) := by
  have el : ∀ i : Fin 384, lidx_main_v215 (ix2 e l) i = ix2 e i := fun i =>
    funext fun a => Fin.ext (by match a with | ⟨0, _⟩ => rfl | ⟨1, _⟩ => rfl)
  have er : ∀ i : Fin 384, idx_main_v214 (ridx_main_v215 (ix2 e l) i) = ix2 l i := fun i =>
    funext fun a => Fin.ext (by match a with | ⟨0, _⟩ => rfl | ⟨1, _⟩ => rfl)
  rw [val_main_v215_apply]
  refine Finset.sum_congr rfl fun i _ => ?_
  rw [val_main_v214_apply, el i, er i]

/-- The row before normalisation. -/
theorem hp_at (e : Fin 50000) (j : Fin 384) :
    val_main_v221 (F := Ideal) x0 x1 x2 x3 x7 x8 x9 x10 x11 x12 x19 x20 x21 (ix2 e j)
      = Cert.Sp.hpR
          (Cert.Sp.kvec (val_main_v212 (F := Ideal) x0 x7) (val_main_v196 (F := Ideal) x1 x3 x9)
            (Cert.Sp.jtRow (val_main_v157 (F := Ideal) x2 x9 (ix2 e 0)) (val_main_v157 (F := Ideal) x2 x9 (ix2 e 1))
              (fun c => x19 (ix2 0 c)) (fun k c => x20 (ix2 c k)) (fun c => x21 (ix1 c))) e)
          (Cert.Sp.qvec (val_main_v203 (F := Ideal) x0 x8) (val_main_v196 (F := Ideal) x1 x3 x9)
            (val_main_v189 (F := Ideal) x20 x21) e)
          (fun i l => x10 (ix2 l i)) (fun l j => x11 (ix2 j l)) (fun j => x12 (ix1 j)) j := by
  have el : ∀ l : Fin 384, lidx_main_v217 (ix2 e j) l = ix2 e l := fun l =>
    funext fun a => Fin.ext (by match a with | ⟨0, _⟩ => rfl | ⟨1, _⟩ => rfl)
  have er : ∀ l : Fin 384, idx_main_v216 (ridx_main_v217 (ix2 e j) l) = ix2 j l := fun l =>
    funext fun a => Fin.ext (by match a with | ⟨0, _⟩ => rfl | ⟨1, _⟩ => rfl)
  have eb : idx_main_v218 (idx_main_v219 (ix2 e j)) = ix1 j :=
    funext fun a => Fin.ext (by match a with | ⟨0, _⟩ => rfl)
  unfold Cert.Sp.hpR
  rw [val_main_v221_apply, val_main_v220_apply, val_main_v217_apply, val_main_v219_apply, val_main_v218_apply, eb, q_at,
    Ideal.addf_def, Ideal.addf_def]
  refine congrArg (fun s => s + x12 (ix1 j) + _) (Finset.sum_congr rfl fun l _ => ?_)
  rw [val_main_v216_apply, el l, er l, kwv_at]
  refine congrArg (· * x11 (ix2 j l)) (Finset.sum_congr rfl fun i _ => ?_)
  rw [k_at]

/-! ## The layer norm -/

/-- The mean of an edge's row. -/
theorem mean_at (e : Fin 50000) :
    val_main_v225 (F := Ideal) x0 x1 x2 x3 x7 x8 x9 x10 x11 x12 x19 x20 x21 (ix2 e 0)
      = Ideal.div (∑ k : Fin 384, val_main_v221 (F := Ideal) x0 x1 x2 x3 x7 x8 x9 x10 x11 x12 x19 x20 x21 (ix2 e k))
          Cert.Sp.w384 := by
  have ek : ∀ k : Fin 384, idx_main_v222 (idx_main_v223 (ix2 e 0)) k = ix2 e k := fun k =>
    funext fun a => Fin.ext (by match a with | ⟨0, _⟩ => rfl | ⟨1, _⟩ => rfl)
  rw [val_main_v225_apply, val_main_v223_apply, val_main_v222_apply, val_main_v224_apply, val_main_cst_37_apply,
    val_main_cst_36_apply, Ideal.hostDivf_def, Ideal.ofBits_def, Ideal.ofBits_def, Ideal.ofBits_zero_f32, zero_add]
  simp only [ek]

/-- The variance of an edge's row: the mean of the squared distances from the mean. -/
theorem var_at (e : Fin 50000) :
    val_main_v232 (F := Ideal) x0 x1 x2 x3 x7 x8 x9 x10 x11 x12 x19 x20 x21 (ix2 e 0)
      = Ideal.div (∑ k : Fin 384,
          (val_main_v221 (F := Ideal) x0 x1 x2 x3 x7 x8 x9 x10 x11 x12 x19 x20 x21 (ix2 e k)
              - Ideal.div (∑ k : Fin 384, val_main_v221 (F := Ideal) x0 x1 x2 x3 x7 x8 x9 x10 x11 x12 x19 x20 x21 (ix2 e k)) Cert.Sp.w384)
            * (val_main_v221 (F := Ideal) x0 x1 x2 x3 x7 x8 x9 x10 x11 x12 x19 x20 x21 (ix2 e k)
              - Ideal.div (∑ k : Fin 384, val_main_v221 (F := Ideal) x0 x1 x2 x3 x7 x8 x9 x10 x11 x12 x19 x20 x21 (ix2 e k)) Cert.Sp.w384))
          Cert.Sp.w384 := by
  have ek : ∀ k : Fin 384, idx_main_v229 (idx_main_v230 (ix2 e 0)) k = ix2 e k := fun k =>
    funext fun a => Fin.ext (by match a with | ⟨0, _⟩ => rfl | ⟨1, _⟩ => rfl)
  have em : ∀ k : Fin 384, idx_main_v226 (ix2 e k) = ix2 e 0 := fun k =>
    funext fun a => Fin.ext (by match a with | ⟨0, _⟩ => rfl | ⟨1, _⟩ => rfl)
  rw [val_main_v232_apply, val_main_v230_apply, val_main_v229_apply, val_main_v231_apply, val_main_cst_39_apply,
    val_main_cst_38_apply, Ideal.hostDivf_def, Ideal.ofBits_def, Ideal.ofBits_def, Ideal.ofBits_zero_f32, zero_add]
  refine congrArg (Ideal.div · Cert.Sp.w384) (Finset.sum_congr rfl fun k _ => ?_)
  rw [ek k, val_main_v228_apply, val_main_v227_apply, val_main_v226_apply, em k, mean_at, Ideal.mulf_def, Ideal.subf_def]

/-- The normalised row, over the row before normalisation. -/
theorem ln_at (e : Fin 50000) (j : Fin 384) :
    val_main_v245 (F := Ideal) x0 x1 x2 x3 x7 x8 x9 x10 x11 x12 x13 x14 x19 x20 x21 (ix2 e j)
      = Cert.Sp.lnRow (fun k => val_main_v221 (F := Ideal) x0 x1 x2 x3 x7 x8 x9 x10 x11 x12 x19 x20 x21 (ix2 e k))
          (fun j => x13 (ix1 j)) (fun j => x14 (ix1 j)) j := by
  have em : idx_main_v233 (ix2 e j) = ix2 e 0 :=
    funext fun a => Fin.ext (by match a with | ⟨0, _⟩ => rfl | ⟨1, _⟩ => rfl)
  have es : idx_main_v238 (ix2 e j) = ix2 e 0 :=
    funext fun a => Fin.ext (by match a with | ⟨0, _⟩ => rfl | ⟨1, _⟩ => rfl)
  have eg : idx_main_v240 (idx_main_v241 (ix2 e j)) = ix1 j :=
    funext fun a => Fin.ext (by match a with | ⟨0, _⟩ => rfl)
  have eb : idx_main_v243 (idx_main_v244 (ix2 e j)) = ix1 j :=
    funext fun a => Fin.ext (by match a with | ⟨0, _⟩ => rfl)
  unfold Cert.Sp.lnRow
  rw [val_main_v245_apply, val_main_v242_apply, val_main_v239_apply, val_main_v234_apply, val_main_v233_apply, em,
    val_main_v238_apply, es, val_main_v237_apply, val_main_v236_apply, val_main_v235_apply, val_main_cst_40_apply,
    val_main_v241_apply, val_main_v240_apply, eg, val_main_v244_apply, val_main_v243_apply, eb, var_at, mean_at,
    Ideal.addf_def, Ideal.addf_def, Ideal.mulf_def, Ideal.mulf_def, Ideal.subf_def, Ideal.hostUnary_rsqrt_def,
    Ideal.ofBits_def]

end Stages

/-- The normalised rows, at edge `e` and lane `j`. -/
theorem ref_edge (x0 : (⟨S100000x128, .f32⟩ : BufTy).Contents (Elt Ideal)) (x1 : (⟨S10000x128, .f32⟩ : BufTy).Contents (Elt Ideal)) (x2 : (⟨S1000000x2, .f32⟩ : BufTy).Contents (Elt Ideal)) (x3 : (⟨S1000000, .i32⟩ : BufTy).Contents (Elt Ideal)) (x7 x8 x9 : (⟨S50000, .i32⟩ : BufTy).Contents (Elt Ideal)) (x10 x11 : (⟨S384x384, .f32⟩ : BufTy).Contents (Elt Ideal)) (x12 x13 x14 : (⟨S384, .f32⟩ : BufTy).Contents (Elt Ideal)) (x15 : (⟨S128x512, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S1x128, .f32⟩ : BufTy).Contents (Elt Ideal)) (x20 : (⟨S128x256, .f32⟩ : BufTy).Contents (Elt Ideal)) (x21 : (⟨S128, .f32⟩ : BufTy).Contents (Elt Ideal)) (e : Fin 50000) (j : Fin 384) :
    val_main_v245 (F := Ideal) x0 x1 x2 x3 x7 x8 x9 x10 x11 x12 x13 x14 x19 x20 x21 (ix2 e j)
      = Cert.Sp.edgeHR (val_main_v157 (F := Ideal) x2 x9) (val_main_v203 (F := Ideal) x0 x8) (val_main_v212 (F := Ideal) x0 x7)
          (val_main_v196 (F := Ideal) x1 x3 x9) x19 x20 x21 (val_main_v189 (F := Ideal) x20 x21) x10 x11 x12 x13 x14 e j := by
  have hp : (fun k => val_main_v221 (F := Ideal) x0 x1 x2 x3 x7 x8 x9 x10 x11 x12 x19 x20 x21 (ix2 e k))
      = Cert.Sp.hpR
          (Cert.Sp.kvec (val_main_v212 (F := Ideal) x0 x7) (val_main_v196 (F := Ideal) x1 x3 x9)
            (Cert.Sp.jtRow (val_main_v157 (F := Ideal) x2 x9 (ix2 e 0)) (val_main_v157 (F := Ideal) x2 x9 (ix2 e 1))
              (fun c => x19 (ix2 0 c)) (fun k c => x20 (ix2 c k)) (fun c => x21 (ix1 c))) e)
          (Cert.Sp.qvec (val_main_v203 (F := Ideal) x0 x8) (val_main_v196 (F := Ideal) x1 x3 x9)
            (val_main_v189 (F := Ideal) x20 x21) e)
          (fun i l => x10 (ix2 l i)) (fun l j => x11 (ix2 j l)) (fun j => x12 (ix1 j)) :=
    funext fun k => hp_at x0 x1 x2 x3 x7 x8 x9 x10 x11 x12 x19 x20 x21 e k
  unfold Cert.Sp.edgeHR
  rw [ln_at, hp]

end Cert.ReferenceIdeal.EdgeRows

end
-- ==== Proof.RMerge.lean ====
import proofs.«420412_j74302934220861_3_alg».proof.Proof.RefRead
import proofs.«420412_j74302934220861_3_alg».proof.Proof.Spec
import proofs.«420412_j74302934220861_3_alg».proof.Proof.LibScatterGatherRows
import proofs.«420412_j74302934220861_3_alg».proof.Proof.LibIndexWords
import Idealize.ShloMosaic.Lib.Pipeline.Value
import Idealize.ShloMosaic.Lib.ValueIdx
import Idealize.ShloMosaic.Lib.ValueLayout
import Idealize.ShloMosaic.PureOps.Ideal.Laws

/-!
# The second program's node rows

The second program sums the edges' normalised 384-rows into all 100000 nodes, joins each node's 128
features with its 384 summed numbers, and merges. Read at an index: the summed array is a sum over the
edges whose destination word is the node; the merged array is the row formula `Cert.Sp.mergeR`; the rows
gathered by source word are the merged rows of the source nodes, and the first 5000 rows are kept.
-/

set_option maxRecDepth 16384

open scoped BigOperators

noncomputable section

namespace Cert.ReferenceIdeal.NodeRows

open Cert.ReferenceIdeal Cert.ReferenceIdeal.Gen Idealize.ShloMosaic Idealize.ShloMosaic.TcCoe Idealize.ShloMosaic.ValueIdx Idealize.SL.Sem Idealize.ShloMosaic.StableHlo
open Cert.ReferenceIdeal.ReadP

/-- The summed rows: node `n`, lane `j` holds the sum of the normalised rows' lane `j` over the edges whose
    destination word, read signed, is `n`. -/
theorem ref_agg (x0 : (⟨S100000x128, .f32⟩ : BufTy).Contents (Elt Ideal)) (x1 : (⟨S10000x128, .f32⟩ : BufTy).Contents (Elt Ideal)) (x2 : (⟨S1000000x2, .f32⟩ : BufTy).Contents (Elt Ideal)) (x3 : (⟨S1000000, .i32⟩ : BufTy).Contents (Elt Ideal)) (x7 x8 x9 : (⟨S50000, .i32⟩ : BufTy).Contents (Elt Ideal)) (x10 x11 : (⟨S384x384, .f32⟩ : BufTy).Contents (Elt Ideal)) (x12 x13 x14 : (⟨S384, .f32⟩ : BufTy).Contents (Elt Ideal)) (x15 : (⟨S128x512, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S1x128, .f32⟩ : BufTy).Contents (Elt Ideal)) (x20 : (⟨S128x256, .f32⟩ : BufTy).Contents (Elt Ideal)) (x21 : (⟨S128, .f32⟩ : BufTy).Contents (Elt Ideal)) (n : Fin 100000) (j : Fin 384) :
    val_main_v248 (F := Ideal) x0 x1 x2 x3 x7 x8 x9 x10 x11 x12 x13 x14 x19 x20 x21 (ix2 n j)
      = Cert.Sp.segsum x8 (val_main_v245 (F := Ideal) x0 x1 x2 x3 x7 x8 x9 x10 x11 x12 x13 x14 x19 x20 x21) n.val j := by
  unfold val_main_v248
  generalize val_main_v245 (F := Ideal) x0 x1 x2 x3 x7 x8 x9 x10 x11 x12 x13 x14 x19 x20 x21 = R
  -- the destination word of edge `e`, as the index column carries it
  have hw : ∀ e : Fin 50000, val_main_v247 (F := Ideal) x8 (ix2 e 0) = x8 (ix1 e) := fun e => by
    have hi : idx_main_v247 (ix2 e 0) = ix1 e :=
      funext fun a => Fin.ext (by match a with | ⟨0, _⟩ => rfl)
    rw [val_main_v247_apply, hi]
  -- the scatter-add at (n, j): the zero operand plus the sum over the edges whose word is `n`
  rw [Cert.LibScatterGatherRows.scatterAdd_rows (φ := .f32) _ rfl rfl rfl rfl (val_main_v246 (F := Ideal))
      (val_main_v247 (F := Ideal) x8) R n j,
    val_main_v246_apply, val_main_cst_41_apply, Ideal.ofBits_def, Ideal.ofBits_zero_f32, zero_add]
  unfold Cert.Sp.segsum Cert.Sp.seg
  simp only [hw]

/-- Row `n` of the joined array: the node's 128 features followed by its 384 summed numbers. -/
theorem joined_apply (x0 : (⟨S100000x128, .f32⟩ : BufTy).Contents (Elt Ideal)) (x1 : (⟨S10000x128, .f32⟩ : BufTy).Contents (Elt Ideal)) (x2 : (⟨S1000000x2, .f32⟩ : BufTy).Contents (Elt Ideal)) (x3 : (⟨S1000000, .i32⟩ : BufTy).Contents (Elt Ideal)) (x7 x8 x9 : (⟨S50000, .i32⟩ : BufTy).Contents (Elt Ideal)) (x10 x11 : (⟨S384x384, .f32⟩ : BufTy).Contents (Elt Ideal)) (x12 x13 x14 : (⟨S384, .f32⟩ : BufTy).Contents (Elt Ideal)) (x19 : (⟨S1x128, .f32⟩ : BufTy).Contents (Elt Ideal)) (x20 : (⟨S128x256, .f32⟩ : BufTy).Contents (Elt Ideal)) (x21 : (⟨S128, .f32⟩ : BufTy).Contents (Elt Ideal)) (n : Fin 100000) (i : Fin 512) :
    val_main_v249 (F := Ideal) x0 x1 x2 x3 x7 x8 x9 x10 x11 x12 x13 x14 x19 x20 x21 (ix2 n i)
      = Cert.Sp.cat4 (fun c => x0 (ix2 n c)) (fun l => val_main_v248 (F := Ideal) x0 x1 x2 x3 x7 x8 x9 x10 x11 x12 x13 x14 x19 x20 x21 (ix2 n l)) i := by
  unfold val_main_v249 Cert.Sp.cat4
  generalize val_main_v248 (F := Ideal) x0 x1 x2 x3 x7 x8 x9 x10 x11 x12 x13 x14 x19 x20 x21 = G
  split
  · next h =>
    -- a column below 128 falls in the first piece, at the same coordinates
    exact concatenate_pair_apply_left _ x0 G _ (ix2 n i) rfl (ix2 n ⟨i.val, h⟩)
      (fun b => by match b with | ⟨0, _⟩ => rfl | ⟨1, _⟩ => rfl)
  · next h =>
    -- a column from 128 on falls in the second piece, 128 columns earlier
    exact concatenate_pair_apply_right _ x0 G _ (ix2 n i) rfl rfl (ix2 n ⟨i.val - 128, by omega⟩)
      (fun b hb => by
        match b, hb with
        | ⟨0, _⟩, _ => rfl
        | ⟨1, _⟩, hb => exact absurd rfl hb)
      (by show (i.val - 128) + 128 = i.val; omega)

/-- The first linear map at node `n`, column `k`, before the rectifier: the joined row through the 512 -> 128
    map (given as 128 x 512, read transposed) plus the bias. -/
theorem preact_apply (x0 : (⟨S100000x128, .f32⟩ : BufTy).Contents (Elt Ideal)) (x1 : (⟨S10000x128, .f32⟩ : BufTy).Contents (Elt Ideal)) (x2 : (⟨S1000000x2, .f32⟩ : BufTy).Contents (Elt Ideal)) (x3 : (⟨S1000000, .i32⟩ : BufTy).Contents (Elt Ideal)) (x7 x8 x9 : (⟨S50000, .i32⟩ : BufTy).Contents (Elt Ideal)) (x10 x11 : (⟨S384x384, .f32⟩ : BufTy).Contents (Elt Ideal)) (x12 x13 x14 : (⟨S384, .f32⟩ : BufTy).Contents (Elt Ideal)) (x15 : (⟨S128x512, .f32⟩ : BufTy).Contents (Elt Ideal)) (x16 : (⟨S128, .f32⟩ : BufTy).Contents (Elt Ideal)) (x19 : (⟨S1x128, .f32⟩ : BufTy).Contents (Elt Ideal)) (x20 : (⟨S128x256, .f32⟩ : BufTy).Contents (Elt Ideal)) (x21 : (⟨S128, .f32⟩ : BufTy).Contents (Elt Ideal)) (n : Fin 100000) (k : Fin 128) :
    val_main_v254 (F := Ideal) x0 x1 x2 x3 x7 x8 x9 x10 x11 x12 x13 x14 x15 x16 x19 x20 x21 (ix2 n k)
      = (∑ i : Fin 512, Cert.Sp.cat4 (fun c => x0 (ix2 n c))
            (fun l => val_main_v248 (F := Ideal) x0 x1 x2 x3 x7 x8 x9 x10 x11 x12 x13 x14 x19 x20 x21 (ix2 n l)) i * x15 (ix2 k i))
          + x16 (ix1 k) := by
  have hl : ∀ i : Fin 512, lidx_main_v251 (ix2 n k) i = ix2 n i := fun i =>
    funext fun a => Fin.ext (by match a with | ⟨0, _⟩ => rfl | ⟨1, _⟩ => rfl)
  have hr : ∀ i : Fin 512, idx_main_v250 (ridx_main_v251 (ix2 n k) i) = ix2 k i := fun i =>
    funext fun a => Fin.ext (by match a with | ⟨0, _⟩ => rfl | ⟨1, _⟩ => rfl)
  have hb : idx_main_v252 (idx_main_v253 (ix2 n k)) = ix1 k :=
    funext fun a => Fin.ext (by match a with | ⟨0, _⟩ => rfl)
  rw [val_main_v254_apply, val_main_v251_apply, val_main_v253_apply, val_main_v252_apply, hb, Ideal.addf_def]
  congr 1
  refine Finset.sum_congr rfl fun i _ => ?_
  rw [val_main_v250_apply, hl, hr, joined_apply]

/-- The rectified value at node `n`, column `k`: the leaky rectifier of the value before it. -/
theorem act_apply (x0 : (⟨S100000x128, .f32⟩ : BufTy).Contents (Elt Ideal)) (x1 : (⟨S10000x128, .f32⟩ : BufTy).Contents (Elt Ideal)) (x2 : (⟨S1000000x2, .f32⟩ : BufTy).Contents (Elt Ideal)) (x3 : (⟨S1000000, .i32⟩ : BufTy).Contents (Elt Ideal)) (x7 x8 x9 : (⟨S50000, .i32⟩ : BufTy).Contents (Elt Ideal)) (x10 x11 : (⟨S384x384, .f32⟩ : BufTy).Contents (Elt Ideal)) (x12 x13 x14 : (⟨S384, .f32⟩ : BufTy).Contents (Elt Ideal)) (x15 : (⟨S128x512, .f32⟩ : BufTy).Contents (Elt Ideal)) (x16 : (⟨S128, .f32⟩ : BufTy).Contents (Elt Ideal)) (x19 : (⟨S1x128, .f32⟩ : BufTy).Contents (Elt Ideal)) (x20 : (⟨S128x256, .f32⟩ : BufTy).Contents (Elt Ideal)) (x21 : (⟨S128, .f32⟩ : BufTy).Contents (Elt Ideal)) (n : Fin 100000) (k : Fin 128) :
    val_main_v259 (F := Ideal) x0 x1 x2 x3 x7 x8 x9 x10 x11 x12 x13 x14 x15 x16 x19 x20 x21 (ix2 n k)
      = Cert.Sp.leaky (val_main_v254 (F := Ideal) x0 x1 x2 x3 x7 x8 x9 x10 x11 x12 x13 x14 x15 x16 x19 x20 x21 (ix2 n k)) := by
  rw [val_main_v259_apply, val_main_v256_apply, val_main_v258_apply, val_main_v255_apply, val_main_v257_apply,
    val_main_cst_42_apply, val_main_cst_43_apply]
  generalize val_main_v254 (F := Ideal) x0 x1 x2 x3 x7 x8 x9 x10 x11 x12 x13 x14 x15 x16 x19 x20 x21 (ix2 n k) = b
  unfold Cert.Sp.leaky
  rw [Ideal.cmpf_def, Ideal.mulf_def, Ideal.ofBits_def, Ideal.ofBits_def]

/-- The merged rows, at node `n` and column `q`. -/
theorem ref_merge (x0 : (⟨S100000x128, .f32⟩ : BufTy).Contents (Elt Ideal)) (x1 : (⟨S10000x128, .f32⟩ : BufTy).Contents (Elt Ideal)) (x2 : (⟨S1000000x2, .f32⟩ : BufTy).Contents (Elt Ideal)) (x3 : (⟨S1000000, .i32⟩ : BufTy).Contents (Elt Ideal)) (x7 x8 x9 : (⟨S50000, .i32⟩ : BufTy).Contents (Elt Ideal)) (x10 x11 : (⟨S384x384, .f32⟩ : BufTy).Contents (Elt Ideal)) (x12 x13 x14 : (⟨S384, .f32⟩ : BufTy).Contents (Elt Ideal)) (x15 : (⟨S128x512, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S1x128, .f32⟩ : BufTy).Contents (Elt Ideal)) (x20 : (⟨S128x256, .f32⟩ : BufTy).Contents (Elt Ideal)) (x21 : (⟨S128, .f32⟩ : BufTy).Contents (Elt Ideal)) (n : Fin 100000) (q : Fin 128) :
    val_main_v264 (F := Ideal) x0 x1 x2 x3 x7 x8 x9 x10 x11 x12 x13 x14 x15 x16 x17 x18 x19 x20 x21 (ix2 n q)
      = Cert.Sp.mergeR x0 (val_main_v248 (F := Ideal) x0 x1 x2 x3 x7 x8 x9 x10 x11 x12 x13 x14 x19 x20 x21) x15 x16 x17 x18 n q := by
  have hl : ∀ k : Fin 128, lidx_main_v261 (ix2 n q) k = ix2 n k := fun k =>
    funext fun a => Fin.ext (by match a with | ⟨0, _⟩ => rfl | ⟨1, _⟩ => rfl)
  have hr : ∀ k : Fin 128, idx_main_v260 (ridx_main_v261 (ix2 n q) k) = ix2 q k := fun k =>
    funext fun a => Fin.ext (by match a with | ⟨0, _⟩ => rfl | ⟨1, _⟩ => rfl)
  have hb : idx_main_v262 (idx_main_v263 (ix2 n q)) = ix1 q :=
    funext fun a => Fin.ext (by match a with | ⟨0, _⟩ => rfl)
  rw [val_main_v264_apply, val_main_v261_apply, val_main_v263_apply, val_main_v262_apply, hb, Ideal.addf_def]
  unfold Cert.Sp.mergeR Cert.Sp.mrowR
  congr 1
  refine Finset.sum_congr rfl fun k _ => ?_
  rw [val_main_v260_apply, hl, hr, act_apply, preact_apply]

/-- The wrapped source word at edge `e` (where the merged rows are gathered). -/
theorem srcword_gather (x7 : (⟨S50000, .i32⟩ : BufTy).Contents (Elt Ideal)) (e : Fin 50000) (n : Fin 100000)
    (hn : (x7 (ix1 e)).toInt = (n.val : ℤ)) :
    val_main_v270 (F := Ideal) x7 (ix2 e 0) = x7 (ix1 e) := by
  have hi : idx_main_v270 (ix2 e 0) = ix1 e :=
    funext fun a => Fin.ext (by match a with | ⟨0, _⟩ => rfl)
  rw [val_main_v270_apply, val_main_v269_apply, hi]
  exact Cert.LibIndexWords.wrap_of_nonneg _ _ (by rw [hn]; exact Int.natCast_nonneg _)

/-- The rows gathered by source word: where the source word of edge `e`, read signed, is the node number
    `n`, the gathered row is node `n`'s merged row. -/
theorem ref_gather (x0 : (⟨S100000x128, .f32⟩ : BufTy).Contents (Elt Ideal)) (x1 : (⟨S10000x128, .f32⟩ : BufTy).Contents (Elt Ideal)) (x2 : (⟨S1000000x2, .f32⟩ : BufTy).Contents (Elt Ideal)) (x3 : (⟨S1000000, .i32⟩ : BufTy).Contents (Elt Ideal)) (x7 x8 x9 : (⟨S50000, .i32⟩ : BufTy).Contents (Elt Ideal)) (x10 x11 : (⟨S384x384, .f32⟩ : BufTy).Contents (Elt Ideal)) (x12 x13 x14 : (⟨S384, .f32⟩ : BufTy).Contents (Elt Ideal)) (x15 : (⟨S128x512, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S1x128, .f32⟩ : BufTy).Contents (Elt Ideal)) (x20 : (⟨S128x256, .f32⟩ : BufTy).Contents (Elt Ideal)) (x21 : (⟨S128, .f32⟩ : BufTy).Contents (Elt Ideal)) (e : Fin 50000) (n : Fin 100000) (hn : (x7 (ix1 e)).toInt = (n.val : ℤ)) (q : Fin 128) :
    val_main_v271 (F := Ideal) x0 x1 x2 x3 x7 x8 x9 x10 x11 x12 x13 x14 x15 x16 x17 x18 x19 x20 x21 (ix2 e q) = val_main_v264 (F := Ideal) x0 x1 x2 x3 x7 x8 x9 x10 x11 x12 x13 x14 x15 x16 x17 x18 x19 x20 x21 (ix2 n q) := by
  unfold val_main_v271
  generalize val_main_v264 (F := Ideal) x0 x1 x2 x3 x7 x8 x9 x10 x11 x12 x13 x14 x15 x16 x17 x18 x19 x20 x21 = T
  rw [Cert.LibScatterGatherRows.gather_rows_ideal (φ := .f32) _ rfl rfl rfl rfl rfl T _ e q (by decide)]
  refine congrArg (fun r : Fin 100000 => T (ix2 r q)) (Fin.ext ?_)
  show min (val_main_v270 (F := Ideal) x7 (ix2 e 0)).toInt.toNat (100000 - 1) = n.val
  rw [srcword_gather x7 e n hn]
  exact Cert.LibIndexWords.clamp_of_eq _ 100000 n hn

/-- The first 5000 merged rows are kept as they are. -/
theorem ref_head (x0 : (⟨S100000x128, .f32⟩ : BufTy).Contents (Elt Ideal)) (x1 : (⟨S10000x128, .f32⟩ : BufTy).Contents (Elt Ideal)) (x2 : (⟨S1000000x2, .f32⟩ : BufTy).Contents (Elt Ideal)) (x3 : (⟨S1000000, .i32⟩ : BufTy).Contents (Elt Ideal)) (x7 x8 x9 : (⟨S50000, .i32⟩ : BufTy).Contents (Elt Ideal)) (x10 x11 : (⟨S384x384, .f32⟩ : BufTy).Contents (Elt Ideal)) (x12 x13 x14 : (⟨S384, .f32⟩ : BufTy).Contents (Elt Ideal)) (x15 : (⟨S128x512, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S1x128, .f32⟩ : BufTy).Contents (Elt Ideal)) (x20 : (⟨S128x256, .f32⟩ : BufTy).Contents (Elt Ideal)) (x21 : (⟨S128, .f32⟩ : BufTy).Contents (Elt Ideal)) (v : Fin 5000) (q : Fin 128) :
    val_main_v289 (F := Ideal) x0 x1 x2 x3 x7 x8 x9 x10 x11 x12 x13 x14 x15 x16 x17 x18 x19 x20 x21 (ix2 v q) = val_main_v264 (F := Ideal) x0 x1 x2 x3 x7 x8 x9 x10 x11 x12 x13 x14 x15 x16 x17 x18 x19 x20 x21 (ix2 ⟨v.val, by omega⟩ q) := by
  have hi : idx_main_v289 (ix2 v q) = ix2 ⟨v.val, by omega⟩ q :=
    funext fun a => Fin.ext (by match a with | ⟨0, _⟩ => rfl | ⟨1, _⟩ => rfl)
  rw [val_main_v289_apply, hi]

/-- The wrapped source word at edge `e` (where the source features are gathered): a word whose signed
    value is a node number is not negative, so the wrap of a negative index leaves it as it is. -/
theorem srcword_xsrc (x7 : (⟨S50000, .i32⟩ : BufTy).Contents (Elt Ideal)) (e : Fin 50000) (n : Fin 100000)
    (hn : (x7 (ix1 e)).toInt = (n.val : ℤ)) :
    val_main_v211 (F := Ideal) x7 (ix2 e 0) = x7 (ix1 e) := by
  have hi : idx_main_v211 (ix2 e 0) = ix1 e :=
    funext fun a => Fin.ext (by match a with | ⟨0, _⟩ => rfl)
  rw [val_main_v211_apply, val_main_v210_apply, hi]
  exact Cert.LibIndexWords.wrap_of_nonneg _ _ (by rw [hn]; exact Int.natCast_nonneg _)

/-- The source-feature rows gathered by source word: where the source word of edge `e` is the node number `n`,
    the gathered feature row is node `n`'s. -/
theorem ref_xsrc (x0 : (⟨S100000x128, .f32⟩ : BufTy).Contents (Elt Ideal)) (x7 : (⟨S50000, .i32⟩ : BufTy).Contents (Elt Ideal))
    (e : Fin 50000) (n : Fin 100000) (hn : (x7 (ix1 e)).toInt = (n.val : ℤ)) (q : Fin 128) :
    val_main_v212 (F := Ideal) x0 x7 (ix2 e q) = x0 (ix2 n q) := by
  unfold val_main_v212
  -- the row gather reads the table at the clamped word; the word is the node number, so the clamp is `n`
  rw [Cert.LibScatterGatherRows.gather_rows_ideal (φ := .f32) _ rfl rfl rfl rfl rfl x0 _ e q (by decide)]
  refine congrArg (fun r : Fin 100000 => x0 (ix2 r q)) (Fin.ext ?_)
  show min (val_main_v211 (F := Ideal) x7 (ix2 e 0)).toInt.toNat (100000 - 1) = n.val
  rw [srcword_xsrc x7 e n hn]
  exact Cert.LibIndexWords.clamp_of_eq _ 100000 n hn

end Cert.ReferenceIdeal.NodeRows

end
-- ==== Proof.Algebra.lean ====
import proofs.«420412_j74302934220861_3_alg».proof.Proof.Spec
import Mathlib.Data.EReal.Operations
import Mathlib.Analysis.SpecialFunctions.Trigonometric.Basic

/-!
# The laws that join the two readings

Over the extended reals a finite sum distributes over a product only when the numbers are finite, so each
law below that moves a factor across a sum asks that the entries be real numbers (`IsR`), and the first
part shows that the rows the programs build from real inputs are real.
-/

open scoped BigOperators

noncomputable section

namespace Cert.Alg

open Idealize.ShloMosaic Idealize.ShloMosaic.ValueIdx Cert.Sp

/-- An extended real that is a real number. -/
def IsR (x : EReal) : Prop := ∃ r : ℝ, x = (r : EReal)

/-! ## Real numbers are closed under the operations the rows use -/

theorem isR_coe (r : ℝ) : IsR (r : EReal) := ⟨r, rfl⟩
theorem isR_zero : IsR (0 : EReal) := ⟨0, rfl⟩
theorem isR_add {x y : EReal} (hx : IsR x) (hy : IsR y) : IsR (x + y) := by
  obtain ⟨a, rfl⟩ := hx
  obtain ⟨b, rfl⟩ := hy
  exact ⟨a + b, (EReal.coe_add a b).symm⟩
theorem isR_sub {x y : EReal} (hx : IsR x) (hy : IsR y) : IsR (x - y) := by
  obtain ⟨a, rfl⟩ := hx
  obtain ⟨b, rfl⟩ := hy
  exact ⟨a - b, (EReal.coe_sub a b).symm⟩
theorem isR_mul {x y : EReal} (hx : IsR x) (hy : IsR y) : IsR (x * y) := by
  obtain ⟨a, rfl⟩ := hx
  obtain ⟨b, rfl⟩ := hy
  exact ⟨a * b, (EReal.coe_mul a b).symm⟩
theorem isR_sum {ι : Type} (s : Finset ι) (f : ι → EReal) (hf : ∀ i ∈ s, IsR (f i)) : IsR (∑ i ∈ s, f i) := by
  classical
  induction s using Finset.induction_on with
  | empty => rw [Finset.sum_empty]; exact isR_zero
  | insert a s ha ih =>
    rw [Finset.sum_insert ha]
    exact isR_add (hf a (Finset.mem_insert_self a s)) (ih (fun i hi => hf i (Finset.mem_insert_of_mem hi)))
theorem isR_cos {x : EReal} (hx : IsR x) : IsR (Ideal.cos x) := by
  obtain ⟨a, rfl⟩ := hx
  exact ⟨Real.cos a, Ideal.cos_coe a⟩
/-- The word for 384 denotes the real number 384. -/
theorem w384_eq : w384 = ((384 : ℝ) : EReal) := by
  simp [Ideal.ofBits, Ideal.ieee, -EReal.coe_mul]; norm_num

/-- The word for the layer norm's epsilon denotes a positive real number. -/
theorem wEps_pos : ∃ r : ℝ, 0 < r ∧ wEps = (r : EReal) := by
  refine ⟨_, ?_, by simp [Ideal.ofBits, Ideal.ieee, -EReal.coe_mul]; rfl⟩
  positivity

/-- The shared words are real numbers. -/
theorem isR_w384 : IsR w384 := ⟨384, w384_eq⟩
theorem isR_wEps : IsR wEps := by
  obtain ⟨r, _, h⟩ := wEps_pos
  exact ⟨r, h⟩
theorem isR_wTenth : IsR wTenth := by
  refine ⟨_, by simp [Ideal.ofBits, Ideal.ieee, -EReal.coe_mul]; rfl⟩
theorem isR_wZero : IsR wZero := ⟨0, by simp [Ideal.ofBits, Ideal.ieee]⟩
theorem isR_cat2 {a b : Fin 128 → EReal} (ha : ∀ c, IsR (a c)) (hb : ∀ c, IsR (b c)) (k : Fin 256) : IsR (cat2 a b k) := by
  unfold cat2
  split_ifs
  · exact ha _
  · exact hb _
theorem isR_cat3 {a b c : Fin 128 → EReal} (ha : ∀ i, IsR (a i)) (hb : ∀ i, IsR (b i)) (hc : ∀ i, IsR (c i)) (k : Fin 384) :
    IsR (cat3 a b c k) := by
  unfold cat3
  split_ifs
  · exact ha _
  · exact hb _
  · exact hc _
theorem isR_leaky {b : EReal} (hb : IsR b) : IsR (leaky b) := by
  unfold leaky Scalar.select
  split_ifs
  · exact hb
  · exact isR_mul isR_wTenth hb

/-- The encoded time of an edge is real when its data are. -/
theorem isR_jtRow {t0 t1 : EReal} {f : Fin 128 → EReal} {linT : Fin 256 → Fin 128 → EReal} {lb : Fin 128 → EReal}
    (h0 : IsR t0) (h1 : IsR t1) (hf : ∀ c, IsR (f c)) (hl : ∀ k c, IsR (linT k c)) (hb : ∀ c, IsR (lb c)) (c : Fin 128) :
    IsR (jtRow t0 t1 f linT lb c) := by
  unfold jtRow tenc
  refine isR_add (isR_sum _ _ (fun k _ => isR_mul (isR_cat2 ?_ ?_ k) (hl k c))) (hb c)
  · exact fun i => isR_cos (isR_mul h0 (hf i))
  · exact fun i => isR_cos (isR_mul h1 (hf i))

/-- The row before normalisation (second reading) is real when its data are. -/
theorem isR_hpR {kv qv : Fin 384 → EReal} {wvT ffT : Fin 384 → Fin 384 → EReal} {fb : Fin 384 → EReal}
    (hk : ∀ i, IsR (kv i)) (hq : ∀ i, IsR (qv i)) (hw : ∀ i l, IsR (wvT i l)) (hf : ∀ l j, IsR (ffT l j))
    (hb : ∀ j, IsR (fb j)) (j : Fin 384) : IsR (hpR kv qv wvT ffT fb j) := by
  unfold hpR
  refine isR_add (isR_add (isR_sum _ _ (fun l _ => isR_mul ?_ (hf l j))) (hb j)) (hq j)
  exact isR_sum _ _ (fun i _ => isR_mul (hk i) (hw i l))

/-- The inclusion of the reals in the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A real number divided by 384 is a real number. -/
theorem isR_div384 {x : EReal} (hx : IsR x) : IsR (Ideal.div x w384) := by
  rw [w384_eq, Ideal.div_coe (by norm_num : (384 : ℝ) ≠ 0)]
  exact isR_mul hx (isR_coe _)

/-- The reciprocal root of a positive real number is a real number. -/
theorem isR_rsqrt_of_pos {r : ℝ} (h : 0 < r) : IsR (Ideal.rsqrt (r : EReal)) := by
  rw [Ideal.rsqrt_coe, if_neg (not_lt.mpr h.le), if_neg h.ne']
  exact isR_coe _

/-- Layer normalisation of a real row with real gain and bias is real: the variance is a nonnegative
    real, so the variance plus the (positive) epsilon has a real reciprocal root. -/
theorem isR_lnRow {hp g b : Fin 384 → EReal} (hhp : ∀ j, IsR (hp j)) (hg : ∀ j, IsR (g j)) (hb : ∀ j, IsR (b j))
    (j : Fin 384) : IsR (lnRow hp g b j) := by
  unfold lnRow
  -- the mean is a real number m
  obtain ⟨m, hm⟩ : IsR (Ideal.div (∑ k : Fin 384, hp k) w384) :=
    isR_div384 (isR_sum _ _ (fun k _ => hhp k))
  rw [hm]
  -- each deviation from the mean is a real number d k
  have hd : ∀ k, IsR (hp k - (m : EReal)) := fun k => isR_sub (hhp k) (isR_coe m)
  choose d hd using hd
  simp only [hd]
  -- the sum of their squares is the real sum of the squares of the d k, which is not negative
  have hsq : (∑ k : Fin 384, ((d k : ℝ) : EReal) * ((d k : ℝ) : EReal)) = ((∑ k : Fin 384, d k * d k : ℝ) : EReal) := by
    rw [coe_sum]
    exact Finset.sum_congr rfl (fun k _ => (EReal.coe_mul (d k) (d k)).symm)
  have hnn : 0 ≤ ∑ k : Fin 384, d k * d k := Finset.sum_nonneg (fun k _ => mul_self_nonneg (d k))
  obtain ⟨ε, hε, hw⟩ := wEps_pos
  rw [hsq, w384_eq, Ideal.div_coe (by norm_num : (384 : ℝ) ≠ 0), hw, ← EReal.coe_mul, ← EReal.coe_add]
  -- so the variance plus epsilon is a positive real, whose reciprocal root is real
  have hpos : 0 < (∑ k : Fin 384, d k * d k) * (1 / 384) + ε := by positivity
  exact isR_add (isR_mul (isR_mul (isR_coe _) (isR_rsqrt_of_pos hpos)) (hg j)) (hb j)

/-- A merged row is real when its data are. -/
theorem isR_mrow {X A : Fin 128 → EReal} {w1 : Fin 128 → Fin 128 → EReal} {b1 : Fin 128 → EReal}
    {w2 : Fin 128 → Fin 128 → EReal} {b2 : Fin 128 → EReal}
    (hX : ∀ i, IsR (X i)) (hA : ∀ j, IsR (A j)) (hw1 : ∀ i j, IsR (w1 i j)) (hb1 : ∀ j, IsR (b1 j))
    (hw2 : ∀ j c, IsR (w2 j c)) (hb2 : ∀ c, IsR (b2 c)) (c : Fin 128) : IsR (mrow X A w1 b1 w2 b2 c) := by
  unfold mrow
  refine isR_add (isR_sum _ _ (fun j _ => isR_mul (isR_leaky ?_) (hw2 j c))) (hb2 c)
  exact isR_add (isR_add (isR_sum _ _ (fun i _ => isR_mul (hX i) (hw1 i j))) (hb1 j)) (hA j)

/-! ## Two linear maps one after the other, or their product -/

/-- For a real key row and real matrices, the row through `wv` and then through `ffw` is the row through
    the product `ffw * wv`: the two sums over the middle index and the input index change places. -/
theorem hpK_eq_hpR (kv qv : Fin 384 → EReal) (wv ffw : Fin 384 → Fin 384 → EReal) (fb : Fin 384 → EReal)
    (hk : ∀ i, IsR (kv i)) (hwv : ∀ l i, IsR (wv l i)) (hff : ∀ j l, IsR (ffw j l)) (j : Fin 384) :
    hpK kv qv (fun i j => ∑ l : Fin 384, ffw j l * wv l i) fb j
      = hpR kv qv (fun i l => wv l i) (fun l j => ffw j l) fb j := by
  unfold hpK hpR
  congr 2
  -- name the real numbers behind the entries
  choose k hk using hk
  choose v hv using hwv
  choose f hf using hff
  simp only [hk, hv, hf, ← EReal.coe_mul, ← coe_sum]
  -- in the reals: distribute, change the order of the two sums, compare term by term
  congr 1
  simp only [Finset.mul_sum, Finset.sum_mul]
  rw [Finset.sum_comm]
  exact Finset.sum_congr rfl (fun l _ => Finset.sum_congr rfl (fun i _ => by ring))

/-! ## A linear map and a sum over edges change places -/

/-- Summing real rows over a set of edges and then applying a real linear functional is applying the
    functional to each row and then summing. -/
theorem proj_sum {ι : Type} (S : Finset ι) (H : ι → Fin 384 → EReal) (w : Fin 384 → EReal)
    (hH : ∀ e j, IsR (H e j)) (hw : ∀ j, IsR (w j)) :
    ∑ j : Fin 384, (∑ e ∈ S, H e j) * w j = ∑ e ∈ S, ∑ j : Fin 384, H e j * w j := by
  -- name the real numbers behind the entries
  choose h hh using hH
  choose u hu using hw
  simp only [hh, hu, ← EReal.coe_mul, ← coe_sum]
  -- in the reals: distribute and change the order of the two sums
  congr 1
  simp only [Finset.sum_mul]
  exact Finset.sum_comm

/-! ## The 512-wide map is its 128-wide part plus its 384-wide part -/

/-- A sum over the 512 joined entries is the sum over the first 128 plus the sum over the last 384. -/
theorem sum_cat4 (a : Fin 128 → EReal) (b : Fin 384 → EReal) (w : Fin 512 → EReal) :
    ∑ i : Fin 512, cat4 a b i * w i
      = (∑ i : Fin 128, a i * w ⟨i.val, by omega⟩) + ∑ l : Fin 384, b l * w ⟨128 + l.val, by omega⟩ := by
  -- split the index set 512 = 128 + 384 into its first 128 and its last 384 members
  refine (Fin.sum_univ_add (a := 128) (b := 384) (fun i : Fin 512 => cat4 a b i * w i)).trans ?_
  refine congrArg₂ (· + ·) (Finset.sum_congr rfl (fun i _ => ?_)) (Finset.sum_congr rfl (fun l _ => ?_))
  · -- a member of the first part reads the first row
    have hi : (Fin.castAdd 384 i).val < 128 := i.isLt
    simp only [cat4, dif_pos hi]
    rfl
  · -- a member of the second part reads the second row, 128 places earlier
    have hl : ¬ (Fin.natAdd 128 l).val < 128 := by simp [Fin.natAdd]
    simp only [cat4, dif_neg hl]
    congr 2
    apply Fin.ext
    simp [Fin.natAdd]

/-- A node's merged row through the whole 512 -> 128 map is its merged row through the 128-wide part
    with the 384-wide part's contribution added as an already projected sum. -/
theorem mrowR_eq_mrow (x : Fin 128 → EReal) (a : Fin 384 → EReal) (mw1 : Fin 128 → Fin 512 → EReal)
    (b1 : Fin 128 → EReal) (w2 : Fin 128 → Fin 128 → EReal) (b2 : Fin 128 → EReal) (c : Fin 128) :
    mrowR (cat4 x a) (fun i j => mw1 j i) b1 w2 b2 c
      = mrow x (fun j => ∑ l : Fin 384, a l * mw1 j ⟨128 + l.val, by omega⟩)
          (fun i j => mw1 j ⟨i.val, by omega⟩) b1 w2 b2 c := by
  unfold mrowR mrow
  congr 1
  refine Finset.sum_congr rfl (fun j _ => ?_)
  -- the 512-wide sum is its two parts; the bias then moves past the second part
  rw [sum_cat4 x a (fun i => mw1 j i), add_right_comm]

end Cert.Alg

end
-- ==== Proof.Boundaries.lean ====
import proofs.«420412_j74302934220861_3_alg».proof.Proof.Gen.KernelIdeal.Frame

/-!
# Buffers the run leaves alone

The run of the two-stage program is a fold over five stretches: host operations, the edge stage, host operations,
the merge stage, host operations. An argument is written by no operation and is no stage's output, so at every
boundary it holds its launch contents; the gathered source features are written once, before the edge stage, and kept
until the merge stage reads them; each stage's result array holds, at the stage's exit, what the stage's write-backs
leave.
-/

set_option maxRecDepth 16384

noncomputable section

namespace Cert.KernelIdeal.Bnd

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- No operation of the named stretch writes the buffer: every operation writes one buffer, and it is another. -/
local macro "not_written " ops:ident : tactic =>
  `(tactic| (simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]; (repeat' apply And.intro); all_goals exact StableHlo.devRef_ne_of_ne (by decide)))

/-! ## At the edge stage's exit -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (StableHlo.after_of_forall_not_mem _ _ (List.forall_iff_forall_mem.mp (by not_written hostOps0)))
    _ = m ((c : Thread nD τ).loc main_arg0) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := (StableHlo.after_of_forall_not_mem _ _ (List.forall_iff_forall_mem.mp (by not_written hostOps0)))
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := (StableHlo.after_of_forall_not_mem _ _ (List.forall_iff_forall_mem.mp (by not_written hostOps0)))
    _ = m ((c : Thread nD τ).loc main_arg8) := rfl
theorem W2_main_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := (StableHlo.after_of_forall_not_mem _ _ (List.forall_iff_forall_mem.mp (by not_written hostOps0)))
    _ = m ((c : Thread nD τ).loc main_arg15) := rfl
theorem W2_main_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := (StableHlo.after_of_forall_not_mem _ _ (List.forall_iff_forall_mem.mp (by not_written hostOps0)))
    _ = m ((c : Thread nD τ).loc main_arg16) := rfl
theorem W2_main_arg17 (c : Dev nD) : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = W0 m ρ c (Proc.devRef .tc main_arg17) := (StableHlo.after_of_forall_not_mem _ _ (List.forall_iff_forall_mem.mp (by not_written hostOps0)))
    _ = m ((c : Thread nD τ).loc main_arg17) := rfl
theorem W2_main_arg18 (c : Dev nD) : W2 m ρ c (Proc.devRef .tc main_arg18) = m ((c : Thread nD τ).loc main_arg18) :=
  calc W2 m ρ c (Proc.devRef .tc main_arg18)
    _ = W1 m ρ c (Proc.devRef .tc main_arg18) := W2_of_ne m ρ c main_arg18 (by decide)
    _ = W0 m ρ c (Proc.devRef .tc main_arg18) := (StableHlo.after_of_forall_not_mem _ _ (List.forall_iff_forall_mem.mp (by not_written hostOps0)))
    _ = m ((c : Thread nD τ).loc main_arg18) := rfl

/-- The gathered source features are not a window of the edge stage's result: the stage leaves them. -/
theorem W2_main_v27 (c : Dev nD) : W2 m ρ c (Proc.devRef .tc main_v27) = V1 m ρ c main_v27 :=
  W2_of_ne m ρ c main_v27 (by decide)

/-- The edge stage's result array at the stage's exit. -/
theorem W2_main_v50 (c : Dev nD) : W2 m ρ c (Proc.devRef .tc main_v50) = (dat0 (V1 m ρ) c).arrAt 13 cfg0.N :=
  W2_arr m ρ c 13

/-! ## At the merge stage's exit -/

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := (StableHlo.after_of_forall_not_mem _ _ (List.forall_iff_forall_mem.mp (by not_written hostOps1)))
    _ = W1 m ρ c (Proc.devRef .tc main_arg8) := W2_of_ne m ρ c main_arg8 (by decide)
    _ = W0 m ρ c (Proc.devRef .tc main_arg8) := (StableHlo.after_of_forall_not_mem _ _ (List.forall_iff_forall_mem.mp (by not_written hostOps0)))
    _ = m ((c : Thread nD τ).loc main_arg8) := rfl
theorem W4_main_arg25 (c : Dev nD) : W4 m ρ c (Proc.devRef .tc main_arg25) = m ((c : Thread nD τ).loc main_arg25) :=
  calc W4 m ρ c (Proc.devRef .tc main_arg25)
    _ = W3 m ρ c (Proc.devRef .tc main_arg25) := W4_of_ne m ρ c main_arg25 (by decide)
    _ = W2 m ρ c (Proc.devRef .tc main_arg25) := (StableHlo.after_of_forall_not_mem _ _ (List.forall_iff_forall_mem.mp (by not_written hostOps1)))
    _ = W1 m ρ c (Proc.devRef .tc main_arg25) := W2_of_ne m ρ c main_arg25 (by decide)
    _ = W0 m ρ c (Proc.devRef .tc main_arg25) := (StableHlo.after_of_forall_not_mem _ _ (List.forall_iff_forall_mem.mp (by not_written hostOps0)))
    _ = m ((c : Thread nD τ).loc main_arg25) := rfl
theorem W4_main_arg26 (c : Dev nD) : W4 m ρ c (Proc.devRef .tc main_arg26) = m ((c : Thread nD τ).loc main_arg26) :=
  calc W4 m ρ c (Proc.devRef .tc main_arg26)
    _ = W3 m ρ c (Proc.devRef .tc main_arg26) := W4_of_ne m ρ c main_arg26 (by decide)
    _ = W2 m ρ c (Proc.devRef .tc main_arg26) := (StableHlo.after_of_forall_not_mem _ _ (List.forall_iff_forall_mem.mp (by not_written hostOps1)))
    _ = W1 m ρ c (Proc.devRef .tc main_arg26) := W2_of_ne m ρ c main_arg26 (by decide)
    _ = W0 m ρ c (Proc.devRef .tc main_arg26) := (StableHlo.after_of_forall_not_mem _ _ (List.forall_iff_forall_mem.mp (by not_written hostOps0)))
    _ = m ((c : Thread nD τ).loc main_arg26) := rfl
theorem W4_main_arg27 (c : Dev nD) : W4 m ρ c (Proc.devRef .tc main_arg27) = m ((c : Thread nD τ).loc main_arg27) :=
  calc W4 m ρ c (Proc.devRef .tc main_arg27)
    _ = W3 m ρ c (Proc.devRef .tc main_arg27) := W4_of_ne m ρ c main_arg27 (by decide)
    _ = W2 m ρ c (Proc.devRef .tc main_arg27) := (StableHlo.after_of_forall_not_mem _ _ (List.forall_iff_forall_mem.mp (by not_written hostOps1)))
    _ = W1 m ρ c (Proc.devRef .tc main_arg27) := W2_of_ne m ρ c main_arg27 (by decide)
    _ = W0 m ρ c (Proc.devRef .tc main_arg27) := (StableHlo.after_of_forall_not_mem _ _ (List.forall_iff_forall_mem.mp (by not_written hostOps0)))
    _ = m ((c : Thread nD τ).loc main_arg27) := rfl

/-- The merge stage's result array at the stage's exit. -/
theorem W4_main_v77 (c : Dev nD) : W4 m ρ c (Proc.devRef .tc main_v77) = (dat1 (V3 m ρ) c).arrAt 6 cfg1.N :=
  W4_arr m ρ c 6

end Cert.KernelIdeal.Bnd

end
-- ==== Proof.Bridge.lean ====
import proofs.«420412_j74302934220861_3_alg».proof.Proof.KEdge
import proofs.«420412_j74302934220861_3_alg».proof.Proof.KMerge
import proofs.«420412_j74302934220861_3_alg».proof.Proof.KHost0
import proofs.«420412_j74302934220861_3_alg».proof.Proof.KHost1
import proofs.«420412_j74302934220861_3_alg».proof.Proof.KHost2
import proofs.«420412_j74302934220861_3_alg».proof.Proof.REdge
import proofs.«420412_j74302934220861_3_alg».proof.Proof.RMerge
import proofs.«420412_j74302934220861_3_alg».proof.Proof.Algebra
import proofs.«420412_j74302934220861_3_alg».proof.Proof.Boundaries
import proofs.«420412_j74302934220861_3_alg».proof.Proof.Tail

/-!
# The two results are one array

Both programs end with the shared closing stage, so their results are equal once the two arrays going into it are:
the merged rows of the first 5000 nodes and the merged rows of the edges' source nodes. A merged row is a function of
the node's features and of its projected sum. The first program sums projected edge rows (128 wide); the second sums
normalised edge rows (384 wide) and projects the sum inside the 512 -> 128 map. The two agree because, for real
entries, a linear map and a finite sum change places, and because the two 384 x 384 maps applied in turn are the
map of their product. A node numbered 5000 or more receives no edge (every destination word is below 5000): the
second program's sum over an empty set of edges is zero, and the first program multiplies by a zero mask.
-/

set_option maxRecDepth 16384

open scoped BigOperators

noncomputable section

namespace Cert.Bridge

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Alg

variable (m : (ℓ : Loc nD τ sig) → Buf (Elt Ideal) ℓ) (ρ : Dev nD → PrngReg) (c : Dev nD)

/-! ## The argument arrays, by their literal types -/

abbrev x0 : S100000x128.Idx → EReal := m ((c : Thread nD τ).loc main_arg0)
abbrev x1 : S10000x128.Idx → EReal := m ((c : Thread nD τ).loc main_arg1)
abbrev x2 : S1000000x2.Idx → EReal := m ((c : Thread nD τ).loc main_arg2)
abbrev x3 : S1000000.Idx → BitVec 32 := m ((c : Thread nD τ).loc main_arg3)
abbrev x7 : S50000.Idx → BitVec 32 := m ((c : Thread nD τ).loc main_arg7)
abbrev x8 : S50000.Idx → BitVec 32 := m ((c : Thread nD τ).loc main_arg8)
abbrev x9 : S50000.Idx → BitVec 32 := m ((c : Thread nD τ).loc main_arg9)
abbrev x10 : S384x384.Idx → EReal := m ((c : Thread nD τ).loc main_arg10)
abbrev x11 : S384x384.Idx → EReal := m ((c : Thread nD τ).loc main_arg11)
abbrev x12 : S384.Idx → EReal := m ((c : Thread nD τ).loc main_arg12)
abbrev x13 : S384.Idx → EReal := m ((c : Thread nD τ).loc main_arg13)
abbrev x14 : S384.Idx → EReal := m ((c : Thread nD τ).loc main_arg14)
abbrev x15 : S128x512.Idx → EReal := m ((c : Thread nD τ).loc main_arg15)
abbrev x16 : S128.Idx → EReal := m ((c : Thread nD τ).loc main_arg16)
abbrev x17 : S128x128.Idx → EReal := m ((c : Thread nD τ).loc main_arg17)
abbrev x18 : S128.Idx → EReal := m ((c : Thread nD τ).loc main_arg18)
abbrev x19 : S1x128.Idx → EReal := m ((c : Thread nD τ).loc main_arg19)
abbrev x20 : S128x256.Idx → EReal := m ((c : Thread nD τ).loc main_arg20)
abbrev x21 : S128.Idx → EReal := m ((c : Thread nD τ).loc main_arg21)
abbrev x25 : S128x128.Idx → EReal := m ((c : Thread nD τ).loc main_arg25)
abbrev x26 : S128.Idx → EReal := m ((c : Thread nD τ).loc main_arg26)
abbrev x27 : S128x128.Idx → EReal := m ((c : Thread nD τ).loc main_arg27)

/-- What the precondition gives: the float arguments the two stages read are real, the source words are node numbers
    below 100000 and the destination words node numbers below 5000. -/
structure Ok : Prop where
  r0 : ∀ i : S100000x128.Idx, IsR (x0 m c i)
  r1 : ∀ i : S10000x128.Idx, IsR (x1 m c i)
  r2 : ∀ i : S1000000x2.Idx, IsR (x2 m c i)
  r10 : ∀ i : S384x384.Idx, IsR (x10 m c i)
  r11 : ∀ i : S384x384.Idx, IsR (x11 m c i)
  r12 : ∀ i : S384.Idx, IsR (x12 m c i)
  r13 : ∀ i : S384.Idx, IsR (x13 m c i)
  r14 : ∀ i : S384.Idx, IsR (x14 m c i)
  r15 : ∀ i : S128x512.Idx, IsR (x15 m c i)
  r19 : ∀ i : S1x128.Idx, IsR (x19 m c i)
  r20 : ∀ i : S128x256.Idx, IsR (x20 m c i)
  r21 : ∀ i : S128.Idx, IsR (x21 m c i)
  src : ∀ e : Fin 50000, 0 ≤ (x7 m c (ix1 e)).toInt ∧ (x7 m c (ix1 e)).toInt < 100000
  dst : ∀ e : Fin 50000, 0 ≤ (x8 m c (ix1 e)).toInt ∧ (x8 m c (ix1 e)).toInt < 5000

/-! ## The second program's stages of these arguments -/

/-- The normalised edge rows. -/
abbrev H : Cert.ReferenceIdeal.S50000x384.Idx → EReal := Cert.ReferenceIdeal.ReadP.val_main_v245 (F := Ideal) (x0 m c) (x1 m c) (x2 m c) (x3 m c) (x7 m c) (x8 m c) (x9 m c) (x10 m c) (x11 m c) (x12 m c) (x13 m c) (x14 m c) (x19 m c) (x20 m c) (x21 m c)
/-- Their sums into the 100000 nodes. -/
abbrev AggR : Cert.ReferenceIdeal.S100000x384.Idx → EReal := Cert.ReferenceIdeal.ReadP.val_main_v248 (F := Ideal) (x0 m c) (x1 m c) (x2 m c) (x3 m c) (x7 m c) (x8 m c) (x9 m c) (x10 m c) (x11 m c) (x12 m c) (x13 m c) (x14 m c) (x19 m c) (x20 m c) (x21 m c)
/-- The merged rows of all nodes. -/
abbrev G1 : S100000x128.Idx → EReal := Cert.ReferenceIdeal.ReadP.val_main_v264 (F := Ideal) (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c)

/-! ## The first program's two stage results -/

/-- The edge stage's array. -/
abbrev O0 : S50000x128.Idx → EReal := (dat0 (F := Ideal) (V1 m ρ) c).arrAt 13 cfg0.N
/-- The merge stage's array. -/
abbrev GK : S55000x128.Idx → EReal := (dat1 (F := Ideal) (V3 m ρ) c).arrAt 6 cfg1.N

/-! ## Real entries -/

/-- The word for one is a real number. -/
theorem isR_one_word : IsR (Ideal.ofBits .f32 0x3F800000#32) :=
  ⟨_, by simp [Ideal.ofBits, Ideal.ieee, -EReal.coe_mul]; rfl⟩

/-- The constant encoded time is real: a sum of products of ones and real weights plus a real bias. -/
theorem isR_it (h : Ok m c) (i : S1x128.Idx) : IsR (Cert.ReferenceIdeal.ReadP.val_main_v189 (F := Ideal) (x20 m c) (x21 m c) i) := by
  rw [Cert.ReferenceIdeal.ReadP.val_main_v189_apply, Cert.ReferenceIdeal.ReadP.val_main_v187_apply, Cert.ReferenceIdeal.ReadP.val_main_v188_apply]
  refine isR_add (isR_sum _ _ fun k _ => isR_mul ?_ ?_) (h.r21 _)
  · rw [Cert.ReferenceIdeal.ReadP.val_main_v185_apply]
    exact isR_one_word
  · rw [Cert.ReferenceIdeal.ReadP.val_main_v186_apply]
    exact h.r20 _

/-- A gathered row of a real table is real: each entry is an entry of the table. -/
theorem isR_xsrc (h : Ok m c) (i : S50000x128.Idx) : IsR (Cert.ReferenceIdeal.ReadP.val_main_v212 (F := Ideal) (x0 m c) (x7 m c) i) := by
  unfold Cert.ReferenceIdeal.ReadP.val_main_v212 Host.gather
  exact h.r0 _
theorem isR_xdst (h : Ok m c) (i : S50000x128.Idx) : IsR (Cert.ReferenceIdeal.ReadP.val_main_v203 (F := Ideal) (x0 m c) (x8 m c) i) := by
  unfold Cert.ReferenceIdeal.ReadP.val_main_v203 Host.gather
  exact h.r0 _
theorem isR_user (h : Ok m c) (i : S50000x128.Idx) : IsR (Cert.ReferenceIdeal.ReadP.val_main_v196 (F := Ideal) (x1 m c) (x3 m c) (x9 m c) i) := by
  unfold Cert.ReferenceIdeal.ReadP.val_main_v196 Host.gather
  exact h.r1 _
theorem isR_etime (h : Ok m c) (i : S50000x2.Idx) : IsR (Cert.ReferenceIdeal.ReadP.val_main_v157 (F := Ideal) (x2 m c) (x9 m c) i) := by
  unfold Cert.ReferenceIdeal.ReadP.val_main_v157 Host.gather
  exact h.r2 _

/-! ## The edge rows -/

/-- The key row of an edge is real. -/
theorem isR_kvec (h : Ok m c) (e : Fin 50000) (i : Fin 384) :
    IsR (Cert.Sp.kvec (Cert.ReferenceIdeal.ReadP.val_main_v212 (F := Ideal) (x0 m c) (x7 m c)) (Cert.ReferenceIdeal.ReadP.val_main_v196 (F := Ideal) (x1 m c) (x3 m c) (x9 m c))
      (Cert.Sp.jtRow (Cert.ReferenceIdeal.ReadP.val_main_v157 (F := Ideal) (x2 m c) (x9 m c) (ix2 e 0)) (Cert.ReferenceIdeal.ReadP.val_main_v157 (F := Ideal) (x2 m c) (x9 m c) (ix2 e 1))
        (fun q => x19 m c (ix2 0 q)) (fun k q => x20 m c (ix2 q k)) (fun q => x21 m c (ix1 q))) e i) := by
  unfold Cert.Sp.kvec
  exact isR_cat3 (fun q => isR_xsrc m c h _)
    (fun q => isR_jtRow (isR_etime m c h _) (isR_etime m c h _) (fun q => h.r19 _) (fun k q => h.r20 _) (fun q => h.r21 _) q)
    (fun q => isR_user m c h _) i

/-- The residual row of an edge is real. -/
theorem isR_qvec (h : Ok m c) (e : Fin 50000) (i : Fin 384) :
    IsR (Cert.Sp.qvec (Cert.ReferenceIdeal.ReadP.val_main_v203 (F := Ideal) (x0 m c) (x8 m c)) (Cert.ReferenceIdeal.ReadP.val_main_v196 (F := Ideal) (x1 m c) (x3 m c) (x9 m c))
      (Cert.ReferenceIdeal.ReadP.val_main_v189 (F := Ideal) (x20 m c) (x21 m c)) e i) := by
  unfold Cert.Sp.qvec
  exact isR_cat3 (fun q => isR_xdst m c h _) (fun q => isR_it m c h _) (fun q => isR_user m c h _) i

/-- The normalised edge rows are real. -/
theorem isR_H (h : Ok m c) (e : Fin 50000) (l : Fin 384) : IsR (H m c (ix2 e l)) := by
  show IsR (Cert.ReferenceIdeal.ReadP.val_main_v245 (F := Ideal) (x0 m c) (x1 m c) (x2 m c) (x3 m c) (x7 m c) (x8 m c) (x9 m c) (x10 m c) (x11 m c) (x12 m c) (x13 m c) (x14 m c) (x19 m c) (x20 m c) (x21 m c) (ix2 e l))
  rw [Cert.ReferenceIdeal.EdgeRows.ref_edge (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c)]
  unfold Cert.Sp.edgeHR
  exact isR_lnRow (fun j => isR_hpR (isR_kvec m c h e) (isR_qvec m c h e) (fun i l => h.r10 _) (fun l j => h.r11 _) (fun j => h.r12 _) j)
    (fun j => h.r13 _) (fun j => h.r14 _) l

/-- THE EDGE ROWS AGREE: the first program's normalised row of edge `e`, from the arrays its edge stage is entered
    with, is the second program's. The gathered arrays are the same arrays; the weights are the same weights laid out
    otherwise; and the one matrix of the first program is the product of the second program's two. -/
theorem edge_rows (h : Ok m c) (e : Fin 50000) (l : Fin 384) :
    Cert.Sp.edgeHK (V1 m ρ c main_v6) (V1 m ρ c main_v20) (V1 m ρ c main_v28) (V1 m ρ c main_v35) (V1 m ρ c main_arg19)
        (V1 m ρ c main_v41) (V1 m ρ c main_v42) (V1 m ρ c main_v40) (V1 m ρ c main_v44) (V1 m ρ c main_v45) (V1 m ρ c main_v46)
        (V1 m ρ c main_v47) e l
      = H m c (ix2 e l) := by
  show _ = Cert.ReferenceIdeal.ReadP.val_main_v245 (F := Ideal) (x0 m c) (x1 m c) (x2 m c) (x3 m c) (x7 m c) (x8 m c) (x9 m c) (x10 m c) (x11 m c) (x12 m c) (x13 m c) (x14 m c) (x19 m c) (x20 m c) (x21 m c) (ix2 e l)
  rw [Cert.ReferenceIdeal.EdgeRows.ref_edge (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c)]
  unfold Cert.Sp.edgeHK Cert.Sp.edgeHR
  rw [Cert.KernelIdeal.Host0.v6_eq, Cert.KernelIdeal.Host0.v20_eq, Cert.KernelIdeal.Host0.v28_eq, Cert.KernelIdeal.Host0.v35_eq,
    Cert.KernelIdeal.Host0.v40_eq, Cert.KernelIdeal.Host0.arg19_eq]
  have hW : (fun i j => (V1 m ρ c main_v44 : S384x384.Idx → EReal) (ix2 i j))
      = fun i j => ∑ l : Fin 384, x11 m c (ix2 j l) * x10 m c (ix2 l i) :=
    funext fun i => funext fun j => Cert.KernelIdeal.Host0.v44_apply m ρ c i j
  have hL : (fun k q => (V1 m ρ c main_v41 : S256x128.Idx → EReal) (ix2 k q)) = fun k q => x20 m c (ix2 q k) :=
    funext fun k => funext fun q => Cert.KernelIdeal.Host0.v41_apply m ρ c k q
  have hb : (fun q => (V1 m ρ c main_v42 : S1x128.Idx → EReal) (ix2 0 q)) = fun q => x21 m c (ix1 q) :=
    funext fun q => Cert.KernelIdeal.Host0.v42_apply m ρ c q
  have hfb : (fun j => (V1 m ρ c main_v45 : S1x384.Idx → EReal) (ix2 0 j)) = fun j => x12 m c (ix1 j) :=
    funext fun j => Cert.KernelIdeal.Host0.v45_apply m ρ c j
  have hg : (fun j => (V1 m ρ c main_v46 : S1x384.Idx → EReal) (ix2 0 j)) = fun j => x13 m c (ix1 j) :=
    funext fun j => Cert.KernelIdeal.Host0.v46_apply m ρ c j
  have hbn : (fun j => (V1 m ρ c main_v47 : S1x384.Idx → EReal) (ix2 0 j)) = fun j => x14 m c (ix1 j) :=
    funext fun j => Cert.KernelIdeal.Host0.v47_apply m ρ c j
  rw [hW, hL, hb, hfb, hg, hbn]
  refine congrArg (fun hp => Cert.Sp.lnRow hp (fun j => x13 m c (ix1 j)) (fun j => x14 m c (ix1 j)) l) ?_
  funext j
  exact hpK_eq_hpR _ _ (fun l i => x10 m c (ix2 l i)) (fun j l => x11 m c (ix2 j l)) _
    (isR_kvec m c h e) (fun l i => h.r10 _) (fun j l => h.r11 _) j

/-- The edge stage's array in the second program's terms: the normalised row through the 384-wide part of the
    512 -> 128 map. -/
theorem edge_array (h : Ok m c) (e : Fin 50000) (q : Fin 128) :
    O0 m ρ c (ix2 e q) = ∑ l : Fin 384, H m c (ix2 e l) * x15 m c (ix2 q ⟨128 + l.val, by omega⟩) := by
  have hv : O0 m ρ c (ix2 e q)
      = Cert.Sp.edgeK (V1 m ρ c main_v6) (V1 m ρ c main_v20) (V1 m ρ c main_v28) (V1 m ρ c main_v35) (V1 m ρ c main_arg19)
          (V1 m ρ c main_v41) (V1 m ρ c main_v42) (V1 m ρ c main_v40) (V1 m ρ c main_v44) (V1 m ρ c main_v45) (V1 m ρ c main_v46)
          (V1 m ρ c main_v47) (V1 m ρ c main_v49) e q :=
    Cert.KernelIdeal.EdgeValue.edge_value (V1 m ρ) c e q
  rw [hv]
  unfold Cert.Sp.edgeK
  refine Finset.sum_congr rfl fun l _ => ?_
  rw [edge_rows m ρ c h e l, Cert.KernelIdeal.Host0.v49_apply m ρ c l q]

/-! ## The projected sums -/

/-- No edge is destined for a node numbered 5000 or more. -/
theorem seg_empty (h : Ok m c) (n : ℕ) (hn : 5000 ≤ n) : Cert.Sp.seg (x8 m c) n = ∅ := by
  unfold Cert.Sp.seg
  refine Finset.filter_eq_empty_iff.mpr fun e _ he => ?_
  have := (h.dst e).2
  omega

/-- THE SUM AND THE MAP CHANGE PLACES: node `n`'s 384 summed numbers through the 384-wide part of the 512 -> 128 map
    are the sum, over the edges destined for `n`, of the edge stage's projected rows. -/
theorem agg_proj (h : Ok m c) (n : Fin 100000) (j : Fin 128) :
    ∑ l : Fin 384, AggR m c (ix2 n l) * x15 m c (ix2 j ⟨128 + l.val, by omega⟩)
      = Cert.Sp.segsum (x8 m c) (O0 m ρ c) n.val j := by
  have hA : ∀ l : Fin 384, AggR m c (ix2 n l) = ∑ e ∈ Cert.Sp.seg (x8 m c) n.val, H m c (ix2 e l) := fun l =>
    Cert.ReferenceIdeal.NodeRows.ref_agg (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) n l
  simp only [hA]
  rw [proj_sum (Cert.Sp.seg (x8 m c) n.val) (fun e l => H m c (ix2 e l)) (fun l => x15 m c (ix2 j ⟨128 + l.val, by omega⟩))
    (fun e l => isR_H m c h e l) (fun l => h.r15 _)]
  unfold Cert.Sp.segsum
  exact Finset.sum_congr rfl fun e _ => (edge_array m ρ c h e j).symm

/-- For a node numbered 5000 or more the second program's sum is over no edge: zero, and so is its image. -/
theorem agg_proj_ge (h : Ok m c) (n : Fin 100000) (hn : 5000 ≤ n.val) (j : Fin 128) :
    ∑ l : Fin 384, AggR m c (ix2 n l) * x15 m c (ix2 j ⟨128 + l.val, by omega⟩) = 0 := by
  have hA : ∀ l : Fin 384, AggR m c (ix2 n l) = 0 := fun l => by
    rw [show AggR m c (ix2 n l) = Cert.Sp.segsum (x8 m c) (H m c) n.val l from
      Cert.ReferenceIdeal.NodeRows.ref_agg (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) n l]
    unfold Cert.Sp.segsum
    rw [seg_empty m c h n.val hn, Finset.sum_empty]
  simp only [hA, zero_mul, Finset.sum_const_zero]

/-! ## The merged rows -/

/-- The weights the merge stage is entered with are the arguments, laid out otherwise. -/
theorem v55_at (i j : Fin 128) :
    (V3 m ρ c main_v55 : S128x128.Idx → EReal) (ix2 i j) = x15 m c (ix2 j ⟨i.val, by omega⟩) := by
  have h := Cert.KernelIdeal.Host1.v55_apply (W2 m ρ c) i j
  rw [Cert.KernelIdeal.Bnd.W2_main_arg15 m ρ c] at h
  exact h
theorem v56_at (j : Fin 128) : (V3 m ρ c main_v56 : S1x128.Idx → EReal) (ix2 0 j) = x16 m c (ix1 j) := by
  have h := Cert.KernelIdeal.Host1.v56_apply (W2 m ρ c) j
  rw [Cert.KernelIdeal.Bnd.W2_main_arg16 m ρ c] at h
  exact h
theorem v57_at (j q : Fin 128) : (V3 m ρ c main_v57 : S128x128.Idx → EReal) (ix2 j q) = x17 m c (ix2 q j) := by
  have h := Cert.KernelIdeal.Host1.v57_apply (W2 m ρ c) j q
  rw [Cert.KernelIdeal.Bnd.W2_main_arg17 m ρ c] at h
  exact h
theorem v58_at (q : Fin 128) : (V3 m ρ c main_v58 : S1x128.Idx → EReal) (ix2 0 q) = x18 m c (ix1 q) := by
  have h := Cert.KernelIdeal.Host1.v58_apply (W2 m ρ c) q
  rw [Cert.KernelIdeal.Bnd.W2_main_arg18 m ρ c] at h
  exact h

/-- The projected sums the merge stage is entered with: node `v`'s sum of the edge stage's rows. -/
theorem v53_at (v : Fin 5000) (j : Fin 128) :
    (Cert.KernelIdeal.Host1.after1 (W2 m ρ c) (Proc.devRef .tc main_v53) : S5000x128.Idx → EReal) (ix2 v j)
      = Cert.Sp.segsum (x8 m c) (O0 m ρ c) v.val j := by
  have h := Cert.KernelIdeal.Host1.v53_apply (W2 m ρ c) v j
  rw [Cert.KernelIdeal.Bnd.W2_main_arg8 m ρ c, Cert.KernelIdeal.Bnd.W2_main_v50 m ρ c] at h
  exact h

/-- The first program's merged row `r`, from the two rows the merge stage reads. -/
theorem gk_row (r : Fin 55000) (q : Fin 128) :
    GK m ρ c (ix2 r q)
      = Cert.Sp.mrow (fun i => (V3 m ρ c main_v75 : S55000x128.Idx → EReal) (ix2 r i))
        (fun j => (V3 m ρ c main_v76 : S55000x128.Idx → EReal) (ix2 r j))
        (fun i j => x15 m c (ix2 j ⟨i.val, by omega⟩)) (fun j => x16 m c (ix1 j))
        (fun j q => x17 m c (ix2 q j)) (fun q => x18 m c (ix1 q)) q := by
  have hv : GK m ρ c (ix2 r q)
      = Cert.Sp.mergeK (V3 m ρ c main_v75) (V3 m ρ c main_v76) (V3 m ρ c main_v55) (V3 m ρ c main_v56) (V3 m ρ c main_v57)
          (V3 m ρ c main_v58) r q :=
    Cert.KernelIdeal.MergeValue.merge_value (V3 m ρ) c r q
  rw [hv]
  unfold Cert.Sp.mergeK
  have h55 : (fun i j => (V3 m ρ c main_v55 : S128x128.Idx → EReal) (ix2 i j)) = fun i j => x15 m c (ix2 j ⟨i.val, by omega⟩) :=
    funext fun i => funext fun j => v55_at m ρ c i j
  have h56 : (fun j => (V3 m ρ c main_v56 : S1x128.Idx → EReal) (ix2 0 j)) = fun j => x16 m c (ix1 j) :=
    funext fun j => v56_at m ρ c j
  have h57 : (fun j q => (V3 m ρ c main_v57 : S128x128.Idx → EReal) (ix2 j q)) = fun j q => x17 m c (ix2 q j) :=
    funext fun j => funext fun q => v57_at m ρ c j q
  have h58 : (fun q => (V3 m ρ c main_v58 : S1x128.Idx → EReal) (ix2 0 q)) = fun q => x18 m c (ix1 q) :=
    funext fun q => v58_at m ρ c q
  rw [h55, h56, h57, h58]

/-- The second program's merged row of node `n`, in the same form: the 512-wide map is its 128-wide part plus its
    384-wide part applied to the node's summed numbers. -/
theorem g1_row (n : Fin 100000) (q : Fin 128) :
    G1 m c (ix2 n q)
      = Cert.Sp.mrow (fun i => x0 m c (ix2 n i))
        (fun j => ∑ l : Fin 384, AggR m c (ix2 n l) * x15 m c (ix2 j ⟨128 + l.val, by omega⟩))
        (fun i j => x15 m c (ix2 j ⟨i.val, by omega⟩)) (fun j => x16 m c (ix1 j))
        (fun j q => x17 m c (ix2 q j)) (fun q => x18 m c (ix1 q)) q := by
  have hv : G1 m c (ix2 n q) = Cert.Sp.mergeR (x0 m c) (AggR m c) (x15 m c) (x16 m c) (x17 m c) (x18 m c) n q :=
    Cert.ReferenceIdeal.NodeRows.ref_merge (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) n q
  rw [hv]
  unfold Cert.Sp.mergeR
  exact mrowR_eq_mrow (fun i => x0 m c (ix2 n i)) (fun l => AggR m c (ix2 n l)) (fun j i => x15 m c (ix2 j i))
    (fun j => x16 m c (ix1 j)) (fun j q => x17 m c (ix2 q j)) (fun q => x18 m c (ix1 q)) q

/-- THE HEAD ROWS AGREE: for a node below 5000 the first program's merged row is the second program's. -/
theorem head_rows (h : Ok m c) (v : Fin 5000) (q : Fin 128) :
    GK m ρ c (ix2 ⟨v.val, by omega⟩ q) = G1 m c (ix2 ⟨v.val, by omega⟩ q) := by
  rw [gk_row, g1_row]
  have hX : (fun i => (V3 m ρ c main_v75 : S55000x128.Idx → EReal) (ix2 ⟨v.val, by omega⟩ i))
      = fun i => x0 m c (ix2 ⟨v.val, by omega⟩ i) := funext fun i => by
    have h1 := Cert.KernelIdeal.Host1.v75_head (W2 m ρ c) v i
    rw [Cert.KernelIdeal.Bnd.W2_main_arg0 m ρ c] at h1
    exact h1
  have hA : (fun j => (V3 m ρ c main_v76 : S55000x128.Idx → EReal) (ix2 ⟨v.val, by omega⟩ j))
      = fun j => ∑ l : Fin 384, AggR m c (ix2 ⟨v.val, by omega⟩ l) * x15 m c (ix2 j ⟨128 + l.val, by omega⟩) :=
    funext fun j => by
      rw [agg_proj m ρ c h ⟨v.val, by omega⟩ j]
      exact (Cert.KernelIdeal.Host1.v76_head (W2 m ρ c) v j).trans (v53_at m ρ c v j)
  rw [hX, hA]

/-- THE SOURCE ROWS AGREE: the first program's merged row for edge `e` is the second program's merged row of the
    edge's source node, gathered. -/
theorem src_rows (h : Ok m c) (e : Fin 50000) (q : Fin 128) :
    GK m ρ c (ix2 ⟨5000 + e.val, by omega⟩ q) = Cert.ReferenceIdeal.ReadP.val_main_v271 (F := Ideal) (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) (ix2 e q) := by
  obtain ⟨n, hn⟩ := Cert.LibIndexWords.toInt_eq_fin_of_mem (N := 100000) (h.src e).1 (h.src e).2
  rw [Cert.ReferenceIdeal.NodeRows.ref_gather (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) e n hn q]
  show _ = G1 m c (ix2 n q)
  rw [gk_row, g1_row]
  have hX : (fun i => (V3 m ρ c main_v75 : S55000x128.Idx → EReal) (ix2 ⟨5000 + e.val, by omega⟩ i))
      = fun i => x0 m c (ix2 n i) := funext fun i => by
    have h1 := Cert.KernelIdeal.Host1.v75_src (W2 m ρ c) e i
    rw [Cert.KernelIdeal.Bnd.W2_main_v27 m ρ c, Cert.KernelIdeal.Host0.v27_eq m ρ c] at h1
    exact h1.trans (Cert.ReferenceIdeal.NodeRows.ref_xsrc (x0 m c) (x7 m c) e n hn i)
  have hA : (fun j => (V3 m ρ c main_v76 : S55000x128.Idx → EReal) (ix2 ⟨5000 + e.val, by omega⟩ j))
      = fun j => ∑ l : Fin 384, AggR m c (ix2 n l) * x15 m c (ix2 j ⟨128 + l.val, by omega⟩) :=
    funext fun j => by
      by_cases hlt : n.val < 5000
      · rw [agg_proj m ρ c h n j]
        have h7 : ((W2 m ρ c (Proc.devRef .tc main_arg7) : S50000.Idx → BitVec 32) (ix1 e)).toInt
            = ((⟨n.val, hlt⟩ : Fin 5000).val : ℤ) := by
          rw [Cert.KernelIdeal.Bnd.W2_main_arg7 m ρ c]; exact hn
        exact (Cert.KernelIdeal.Host1.v76_src_lt (W2 m ρ c) e ⟨n.val, hlt⟩ h7 j).trans (v53_at m ρ c ⟨n.val, hlt⟩ j)
      · rw [agg_proj_ge m c h n (by omega) j]
        have h7 : (5000 : ℤ) ≤ ((W2 m ρ c (Proc.devRef .tc main_arg7) : S50000.Idx → BitVec 32) (ix1 e)).toInt := by
          rw [Cert.KernelIdeal.Bnd.W2_main_arg7 m ρ c]
          show (5000 : ℤ) ≤ (x7 m c (ix1 e)).toInt
          rw [hn]; omega
        exact Cert.KernelIdeal.Host1.v76_src_ge (W2 m ρ c) e h7 j
  rw [hX, hA]

/-! ## The results -/

/-- THE TWO RESULTS ARE ONE ARRAY: the first program's result buffer at the end of its run holds the second
    program's last stage of the same arguments. -/
theorem result_eq (h : Ok m c) :
    (W5 m ρ c (Proc.devRef .tc main_v107) : S5000x128.Idx → EReal)
      = Cert.ReferenceIdeal.ReadP.val_main_v300 (F := Ideal) (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) (x25 m c) (x26 m c) (x27 m c) := by
  have hk := Cert.KernelIdeal.Host2.v107_eq (F := Ideal) (W4 m ρ c)
  rw [Cert.KernelIdeal.Bnd.W4_main_v77 m ρ c, Cert.KernelIdeal.Bnd.W4_main_arg8 m ρ c, Cert.KernelIdeal.Bnd.W4_main_arg25 m ρ c, Cert.KernelIdeal.Bnd.W4_main_arg26 m ρ c,
    Cert.KernelIdeal.Bnd.W4_main_arg27 m ρ c] at hk
  have hs : Cert.KernelIdeal.Host2.srcRows (F := Ideal) (GK m ρ c) = Cert.ReferenceIdeal.ReadP.val_main_v271 (F := Ideal) (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) := funext fun i => by
    obtain ⟨e, q, rfl⟩ : ∃ (e : Fin 50000) (q : Fin 128), i = ix2 e q := ⟨i 0, i 1, eq_ix2 i⟩
    rw [Cert.KernelIdeal.Host2.srcRows_apply (F := Ideal)]
    exact src_rows m ρ c h e q
  have hh : Cert.KernelIdeal.Host2.headRows (F := Ideal) (GK m ρ c) = Cert.ReferenceIdeal.ReadP.val_main_v289 (F := Ideal) (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) := funext fun i => by
    obtain ⟨v, q, rfl⟩ : ∃ (v : Fin 5000) (q : Fin 128), i = ix2 v q := ⟨i 0, i 1, eq_ix2 i⟩
    rw [Cert.KernelIdeal.Host2.headRows_apply (F := Ideal), Cert.ReferenceIdeal.NodeRows.ref_head (x0 m c) (x1 m c) (x2 m c) (x3 m c) (x7 m c) (x8 m c) (x9 m c) (x10 m c) (x11 m c) (x12 m c) (x13 m c) (x14 m c) (x15 m c) (x16 m c) (x17 m c) (x18 m c) (x19 m c) (x20 m c) (x21 m c) v q]
    exact head_rows m ρ c h v q
  rw [Cert.Tail.ref_tail (F := Ideal)]
  refine hk.trans ?_
  rw [hs, hh]

end Cert.Bridge

end
-- ==== Proof.lean ====
/- The certificate of a two-stage graph layer against its reference: the stated side conditions of the three programs
   and of the precondition, the three frames, the sanctioned idealization (nothing to show: no rewrite was applied), and
   the equality of the two idealized programs' results over the extended reals.

   The precondition says that every float argument is finite, that every source word is a node number below 100000 and
   that every destination word is a node number below 5000. Under it the first program (gathers, an edge stage over 25
   blocks of 2000 edges, a segment sum, a merge stage over 11 blocks of 5000 rows, a closing stage) and the second
   program (the same layer as whole-array host operations) leave the same array: the edge rows agree because two linear
   maps applied in turn are the map of their product; the merged rows agree because a linear map and a finite sum of real
   rows change places and a sum over 512 joined entries is the sum over the first 128 plus the sum over the last 384; the
   closing stage is the same chain of operations in both programs. The frames of the two kernel programs are the
   generated ones; the second program's frame is its run with the result dropped. -/
import proofs.«420412_j74302934220861_3_alg».proof.Defs
import proofs.«420412_j74302934220861_3_alg».proof.Proof.Gen.Kernel
import proofs.«420412_j74302934220861_3_alg».proof.Proof.Gen.Kernel.Frame
import proofs.«420412_j74302934220861_3_alg».proof.Proof.Gen.KernelIdeal
import proofs.«420412_j74302934220861_3_alg».proof.Proof.Gen.KernelIdeal.Frame
import proofs.«420412_j74302934220861_3_alg».proof.Proof.Gen.ReferenceIdeal
import proofs.«420412_j74302934220861_3_alg».proof.Proof.Gen.Pre_finite_inputs
import proofs.«420412_j74302934220861_3_alg».proof.Proof.KRun
import proofs.«420412_j74302934220861_3_alg».proof.Proof.RefRun
import proofs.«420412_j74302934220861_3_alg».proof.Proof.Pre
import proofs.«420412_j74302934220861_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- What the assembly needs of the precondition, on every device: real float arguments and index words in range. -/
theorem ok_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.Ok m c := by
  obtain ⟨h0, h1, h2, h10, h11, h12, h13, h14, h15, h19, h20, h21, hs, hd⟩ :=
    Cert.PreFacts.decode _ _ _ _ _ _ _ _ _ _ _ _ _ _ _ _ _ _ _ _ _ _ _ _ _ _ _ _ (hpre c)
  exact ⟨h0, h1, h2, h10, h11, h12, h13, h14, h15, h19, h20, h21, hs, hd⟩

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The second program's frame: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RunValue.run (F := Ideal) m ρ)

/-- From memories that agree on the arguments both idealized programs run and leave the same result array: the first
    program's is the last boundary's contents of its result buffer, which is the second program's last stage of the
    same arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W5 m ρ c (Proc.devRef .tc Cert.KernelIdeal.main_v107),
    Cert.KernelIdeal.RunValue.run (F := Ideal) m ρ, ?_⟩
  refine (θ_run Cert.ReferenceIdeal.defs _ _).mono (fun r h c => ⟨(h c).1.trans ?_, (h c).2⟩)
    (Cert.ReferenceIdeal.RunValue.run (F := Ideal) m' ρ')
  obtain ⟨g0, g1, g2, g3, g4, g5, g6, g7, g8, g9, g10, g11, g12, g13, g14, g15, g16, g17, g18, g19, g20, g21, g22, g23, g24, g25, g26, g27⟩ := hagree c
  rw [g0, g1, g2, g3, g7, g8, g9, g10, g11, g12, g13, g14, g15, g16, g17, g18, g19, g20, g21, g25, g26, g27]
  exact (Cert.Bridge.result_eq m ρ c (ok_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
